-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S16384 : Shape := ⟨1, ![16384]⟩
abbrev S4x128x2048 : Shape := ⟨3, ![4, 128, 2048]⟩
abbrev S4x2048 : Shape := ⟨2, ![4, 2048]⟩
abbrev S4x2048x1024 : Shape := ⟨3, ![4, 2048, 1024]⟩
abbrev S4x1024 : Shape := ⟨2, ![4, 1024]⟩
abbrev S2x1024 : Shape := ⟨2, ![2, 1024]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S4x128x2048 : S_.BroadcastsInDim S4x128x2048 (![] : Fin 0 → Fin S4x128x2048.rank)
  reducesTo_S4x128x2048_S_d0_1_2 : S4x128x2048.ReducesTo [0, 1, 2] S_
  bcast_S_S4x2048 : S_.BroadcastsInDim S4x2048 (![] : Fin 0 → Fin S4x2048.rank)
  reducesTo_S4x2048_S_d0_1 : S4x2048.ReducesTo [0, 1] S_
  bcast_S_S4x2048x1024 : S_.BroadcastsInDim S4x2048x1024 (![] : Fin 0 → Fin S4x2048x1024.rank)
  reducesTo_S4x2048x1024_S_d0_1_2 : S4x2048x1024.ReducesTo [0, 1, 2] S_
  bcast_S_S4x1024 : S_.BroadcastsInDim S4x1024 (![] : Fin 0 → Fin S4x1024.rank)
  reducesTo_S4x1024_S_d0_1 : S4x1024.ReducesTo [0, 1] S_
  bcast_S_S2x1024 : S_.BroadcastsInDim S2x1024 (![] : Fin 0 → Fin S2x1024.rank)
  reducesTo_S2x1024_S_d0_1 : S2x1024.ReducesTo [0, 1] S_
  bcast_S_S16384 : S_.BroadcastsInDim S16384 (![] : Fin 0 → Fin S16384.rank)
  reducesTo_S16384_S_d0 : S16384.ReducesTo [0] S_

variable [Facts]

def fn_part2 {F : FTy → Type} [FloatOps F] (main_v28 : IVec S_ 1) (main_v33 : IVec S16384 1) : IVec S_ 1 :=
  let main_c_12 : IVec S_ 1 := constantI S_ 1 1#1
  let main_v34 : IVec S_ 1 := (fun x v => Host.reduce IntOp.andi x v reducesTo_S16384_S_d0 h_S_) main_v33 main_c_12
  let main_v35 : IVec S_ 1 := andi main_v28 main_v34
  main_v35

def fn_part1 {F : FTy → Type} [FloatOps F] (main_arg1 : IVec S16384 32) (main_arg5 : FVec F S4x1024 .f32) (main_arg6 : FVec F S2x1024 .f32) (main_v13 : IVec S_ 1) (main_v16 : IVec S4x2048x1024 1) : IVec S_ 1 :=
  let main_c_5 : IVec S_ 1 := constantI S_ 1 1#1
  let main_v17 : IVec S_ 1 := (fun x v => Host.reduce IntOp.andi x v reducesTo_S4x2048x1024_S_d0_1_2 h_S_) main_v16 main_c_5
  let main_v18 : IVec S_ 1 := andi main_v13 main_v17
  let main_v19 : FVec F S4x1024 .f32 := Host.absf main_arg5
  let main_cst_6 : FVec F S_ .f32 := constant S_ .f32 0x7F800000#32
  let main_v20 : FVec F S4x1024 .f32 := broadcastInDim S4x1024 ![] bcast_S_S4x1024 main_cst_6
  let main_v21 : IVec S4x1024 1 := cmpf .olt main_v19 main_v20
  let main_c_7 : IVec S_ 1 := constantI S_ 1 1#1
  let main_v22 : IVec S_ 1 := (fun x v => Host.reduce IntOp.andi x v reducesTo_S4x1024_S_d0_1 h_S_) main_v21 main_c_7
  let main_v23 : IVec S_ 1 := andi main_v18 main_v22
  let main_v24 : FVec F S2x1024 .f32 := Host.absf main_arg6
  let main_cst_8 : FVec F S_ .f32 := constant S_ .f32 0x7F800000#32
  let main_v25 : FVec F S2x1024 .f32 := broadcastInDim S2x1024 ![] bcast_S_S2x1024 main_cst_8
  let main_v26 : IVec S2x1024 1 := cmpf .olt main_v24 main_v25
  let main_c_9 : IVec S_ 1 := constantI S_ 1 1#1
  let main_v27 : IVec S_ 1 := (fun x v => Host.reduce IntOp.andi x v reducesTo_S2x1024_S_d0_1 h_S_) main_v26 main_c_9
  let main_v28 : IVec S_ 1 := andi main_v23 main_v27
  let main_c_10 : IVec S_ 32 := constantI S_ 32 0#32
  let main_v29 : IVec S16384 32 := broadcastInDim S16384 ![] bcast_S_S16384 main_c_10
  let main_v30 : IVec S16384 1 := cmpi .sge main_arg1 main_v29
  let main_c_11 : IVec S_ 32 := constantI S_ 32 5#32
  let main_v31 : IVec S16384 32 := broadcastInDim S16384 ![] bcast_S_S16384 main_c_11
  let main_v32 : IVec S16384 1 := cmpi .sle main_arg1 main_v31
  let main_v33 : IVec S16384 1 := andi main_v30 main_v32
  fn_part2 (F := F) main_v28 main_v33

def fn {F : FTy → Type} [FloatOps F] (main_arg0 : FVec F S16384x128 .f32) (main_arg1 : IVec S16384 32) (main_arg2 : FVec F S4x128x2048 .f32) (main_arg3 : FVec F S4x2048 .f32) (main_arg4 : FVec F S4x2048x1024 .f32) (main_arg5 : FVec F S4x1024 .f32) (main_arg6 : FVec F S2x1024 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S4x128x2048 .f32 := Host.absf main_arg2
  let main_cst_0 : FVec F S_ .f32 := constant S_ .f32 0x7F800000#32
  let main_v5 : FVec F S4x128x2048 .f32 := broadcastInDim S4x128x2048 ![] bcast_S_S4x128x2048 main_cst_0
  let main_v6 : IVec S4x128x2048 1 := cmpf .olt main_v4 main_v5
  let main_c_1 : IVec S_ 1 := constantI S_ 1 1#1
  let main_v7 : IVec S_ 1 := (fun x v => Host.reduce IntOp.andi x v reducesTo_S4x128x2048_S_d0_1_2 h_S_) main_v6 main_c_1
  let main_v8 : IVec S_ 1 := andi main_v3 main_v7
  let main_v9 : FVec F S4x2048 .f32 := Host.absf main_arg3
  let main_cst_2 : FVec F S_ .f32 := constant S_ .f32 0x7F800000#32
  let main_v10 : FVec F S4x2048 .f32 := broadcastInDim S4x2048 ![] bcast_S_S4x2048 main_cst_2
  let main_v11 : IVec S4x2048 1 := cmpf .olt main_v9 main_v10
  let main_c_3 : IVec S_ 1 := constantI S_ 1 1#1
  let main_v12 : IVec S_ 1 := (fun x v => Host.reduce IntOp.andi x v reducesTo_S4x2048_S_d0_1 h_S_) main_v11 main_c_3
  let main_v13 : IVec S_ 1 := andi main_v8 main_v12
  let main_v14 : FVec F S4x2048x1024 .f32 := Host.absf main_arg4
  let main_cst_4 : FVec F S_ .f32 := constant S_ .f32 0x7F800000#32
  let main_v15 : FVec F S4x2048x1024 .f32 := broadcastInDim S4x2048x1024 ![] bcast_S_S4x2048x1024 main_cst_4
  let main_v16 : IVec S4x2048x1024 1 := cmpf .olt main_v14 main_v15
  fn_part1 (F := F) main_arg1 main_arg5 main_arg6 main_v13 main_v16
-- ==== Kernel.lean ====
abbrev S16384x128 : Shape := ⟨2, ![16384, 128]⟩
abbrev S16384 : Shape := ⟨1, ![16384]⟩
abbrev S4x128x2048 : Shape := ⟨3, ![4, 128, 2048]⟩
abbrev S4x2048 : Shape := ⟨2, ![4, 2048]⟩
abbrev S4x2048x1024 : Shape := ⟨3, ![4, 2048, 1024]⟩
abbrev S4x1024 : Shape := ⟨2, ![4, 1024]⟩
abbrev S2x1024 : Shape := ⟨2, ![2, 1024]⟩
abbrev S_ : Shape := ⟨0, ![]⟩
abbrev S16384x1 : Shape := ⟨2, ![16384, 1]⟩
abbrev S6 : Shape := ⟨1, ![6]⟩
abbrev S1x6 : Shape := ⟨2, ![1, 6]⟩
abbrev S16384x6 : Shape := ⟨2, ![16384, 6]⟩
abbrev S1 : Shape := ⟨1, ![1]⟩
abbrev S7 : Shape := ⟨1, ![7]⟩
abbrev S1x1 : Shape := ⟨2, ![1, 1]⟩
abbrev S38 : Shape := ⟨1, ![38]⟩
abbrev S38x1 : Shape := ⟨2, ![38, 1]⟩
abbrev S38x6 : Shape := ⟨2, ![38, 6]⟩
abbrev S19456x128 : Shape := ⟨2, ![19456, 128]⟩
abbrev S512x2048 : Shape := ⟨2, ![512, 2048]⟩
abbrev S8192x1024 : Shape := ⟨2, ![8192, 1024]⟩
abbrev S19456x1024 : Shape := ⟨2, ![19456, 1024]⟩
abbrev S512x128 : Shape := ⟨2, ![512, 128]⟩
abbrev S512x1024 : Shape := ⟨2, ![512, 1024]⟩
abbrev S128x2048 : Shape := ⟨2, ![128, 2048]⟩
abbrev S1x2048 : Shape := ⟨2, ![1, 2048]⟩
abbrev S2048 : Shape := ⟨1, ![2048]⟩
abbrev S2048x1024 : Shape := ⟨2, ![2048, 1024]⟩
abbrev S1x1024 : Shape := ⟨2, ![1, 1024]⟩
abbrev S1024 : Shape := ⟨1, ![1024]⟩
abbrev S16384x1024 : Shape := ⟨2, ![16384, 1024]⟩

abbrev nBuf : Space → Nat
  | .hbm => 155
  | .vmem => 9
  | .smem => 1
  | _ => 0

abbrev hbmTy0_0 (i : Nat) : BufTy := match i % 128 with
  | 0 => ⟨S16384x128, .f32⟩
  | 1 => ⟨S16384, .i32⟩
  | 2 => ⟨S4x128x2048, .f32⟩
  | 3 => ⟨S4x2048, .f32⟩
  | 4 => ⟨S4x2048x1024, .f32⟩
  | 5 => ⟨S4x1024, .f32⟩
  | 6 => ⟨S2x1024, .f32⟩
  | 7 => ⟨S16384, .i32⟩
  | 8 => ⟨S16384, .i32⟩
  | 9 => ⟨S16384, .i32⟩
  | 10 => ⟨S_, .i32⟩
  | 11 => ⟨S16384, .i32⟩
  | 12 => ⟨S16384, .i1⟩
  | 13 => ⟨S_, .i32⟩
  | 14 => ⟨S16384, .i32⟩
  | 15 => ⟨S16384, .i32⟩
  | 16 => ⟨S16384, .i32⟩
  | 17 => ⟨S16384x1, .i32⟩
  | 18 => ⟨S16384, .i32⟩
  | 19 => ⟨S16384x1, .i32⟩
  | 20 => ⟨S6, .i32⟩
  | 21 => ⟨S1x6, .i32⟩
  | 22 => ⟨S16384x6, .i32⟩
  | 23 => ⟨S16384x6, .i32⟩
  | 24 => ⟨S16384x6, .i1⟩
  | 25 => ⟨S16384x6, .i32⟩
  | 26 => ⟨S_, .i32⟩
  | 27 => ⟨S6, .i32⟩
  | 28 => ⟨S_, .i32⟩
  | 29 => ⟨S6, .i32⟩
  | 30 => ⟨S6, .i32⟩
  | 31 => ⟨S_, .i32⟩
  | 32 => ⟨S6, .i32⟩
  | 33 => ⟨S6, .i32⟩
  | 34 => ⟨S_, .i32⟩
  | 35 => ⟨S_, .i32⟩
  | 36 => ⟨S6, .i32⟩
  | 37 => ⟨S6, .i32⟩
  | 38 => ⟨S6, .i32⟩
  | 39 => ⟨S_, .i32⟩
  | 40 => ⟨S6, .i32⟩
  | 41 => ⟨S6, .i1⟩
  | 42 => ⟨S6, .i32⟩
  | 43 => ⟨S6, .i32⟩
  | 44 => ⟨S_, .i32⟩
  | 45 => ⟨S6, .i32⟩
  | 46 => ⟨S6, .i1⟩
  | 47 => ⟨S6, .i1⟩
  | 48 => ⟨S_, .i32⟩
  | 49 => ⟨S6, .i32⟩
  | 50 => ⟨S6, .i32⟩
  | 51 => ⟨S6, .i32⟩
  | 52 => ⟨S_, .i32⟩
  | 53 => ⟨S1, .i32⟩
  | 54 => ⟨S_, .i32⟩
  | 55 => ⟨S_, .i32⟩
  | 56 => ⟨S6, .i32⟩
  | 57 => ⟨S7, .i32⟩
  | 58 => ⟨S_, .i32⟩
  | 59 => ⟨S1, .i32⟩
  | 60 => ⟨S_, .i32⟩
  | 61 => ⟨S_, .i32⟩
  | 62 => ⟨S6, .i32⟩
  | 63 => ⟨S7, .i32⟩
  | 64 => ⟨S6, .i32⟩
  | 65 => ⟨S6, .i32⟩
  | 66 => ⟨S_, .i32⟩
  | 67 => ⟨S6, .i32⟩
  | 68 => ⟨S6, .i32⟩
  | 69 => ⟨S6, .i32⟩
  | 70 => ⟨S16384, .i32⟩
  | 71 => ⟨S_, .i32⟩
  | 72 => ⟨S16384, .i32⟩
  | 73 => ⟨S16384, .i1⟩
  | 74 => ⟨S_, .i32⟩
  | 75 => ⟨S16384, .i32⟩
  | 76 => ⟨S16384, .i32⟩
  | 77 => ⟨S16384, .i32⟩
  | 78 => ⟨S16384x1, .i32⟩
  | 79 => ⟨S1, .i32⟩
  | 80 => ⟨S_, .i32⟩
  | 81 => ⟨S16384x1, .i32⟩
  | 82 => ⟨S16384x1, .i1⟩
  | 83 => ⟨S1x1, .i32⟩
  | 84 => ⟨S16384x1, .i32⟩
  | 85 => ⟨S16384x1, .i1⟩
  | 86 => ⟨S16384x1, .i1⟩
  | 87 => ⟨S_, .i1⟩
  | 88 => ⟨S16384, .i1⟩
  | 89 => ⟨S16384, .i32⟩
  | 90 => ⟨S_, .i32⟩
  | 91 => ⟨S16384, .i32⟩
  | 92 => ⟨S16384, .i32⟩
  | 93 => ⟨S16384, .i32⟩
  | 94 => ⟨S38, .i32⟩
  | 95 => ⟨S38x1, .i32⟩
  | 96 => ⟨S6, .i32⟩
  | 97 => ⟨S1x6, .i32⟩
  | 98 => ⟨S38x6, .i32⟩
  | 99 => ⟨S38x6, .i32⟩
  | 100 => ⟨S38x6, .i1⟩
  | 101 => ⟨S38x6, .i32⟩
  | 102 => ⟨S_, .i32⟩
  | 103 => ⟨S38, .i32⟩
  | 104 => ⟨S_, .i32⟩
  | 105 => ⟨S_, .i32⟩
  | 106 => ⟨S_, .i32⟩
  | 107 => ⟨S38, .i32⟩
  | 108 => ⟨S38, .i32⟩
  | 109 => ⟨S_, .i32⟩
  | 110 => ⟨S38, .i32⟩
  | 111 => ⟨S16384x128, .bf16⟩
  | 112 => ⟨S_, .i32⟩
  | 113 => ⟨S16384, .i32⟩
  | 114 => ⟨S16384, .i1⟩
  | 115 => ⟨S_, .i32⟩
  | 116 => ⟨S16384, .i32⟩
  | 117 => ⟨S16384, .i32⟩
  | 118 => ⟨S16384, .i32⟩
  | 119 => ⟨S16384x1, .i32⟩
  | 120 => ⟨S16384x128, .bf16⟩
  | 121 => ⟨S_, .bf16⟩
  | 122 => ⟨S19456x128, .bf16⟩
  | 123 => ⟨S_, .i32⟩
  | 124 => ⟨S16384, .i32⟩
  | 125 => ⟨S16384, .i1⟩
  | 126 => ⟨S_, .i32⟩
  | 127 => ⟨S16384, .i32⟩
  | _ => ⟨S16384x128, .f32⟩

abbrev hbmTy0_1 (i : Nat) : BufTy := match i % 128 with
  | 0 => ⟨S16384, .i32⟩
  | 1 => ⟨S16384, .i32⟩
  | 2 => ⟨S16384x1, .i32⟩
  | 3 => ⟨S19456x128, .bf16⟩
  | 4 => ⟨S4x128x2048, .bf16⟩
  | 5 => ⟨S512x2048, .bf16⟩
  | 6 => ⟨S4x2048x1024, .bf16⟩
  | 7 => ⟨S8192x1024, .bf16⟩
  | 8 => ⟨S19456x1024, .f32⟩
  | 9 => ⟨S_, .i32⟩
  | 10 => ⟨S16384, .i32⟩
  | 11 => ⟨S16384, .i1⟩
  | 12 => ⟨S_, .i32⟩
  | 13 => ⟨S16384, .i32⟩
  | 14 => ⟨S16384, .i32⟩
  | 15 => ⟨S16384, .i32⟩
  | 16 => ⟨S16384x1, .i32⟩
  | 17 => ⟨S16384x1024, .f32⟩
  | 18 => ⟨S_, .i32⟩
  | 19 => ⟨S16384, .i32⟩
  | 20 => ⟨S16384, .i1⟩
  | 21 => ⟨S_, .i32⟩
  | 22 => ⟨S16384, .i32⟩
  | 23 => ⟨S16384, .i32⟩
  | 24 => ⟨S16384, .i32⟩
  | 25 => ⟨S16384x1, .i32⟩
  | 26 => ⟨S16384x1024, .f32⟩
  | _ => ⟨S16384x128, .f32⟩

abbrev hbmTy (i : Nat) : BufTy := match i / 128 with
  | 0 => hbmTy0_0 i
  | 1 => hbmTy0_1 i
  | _ => ⟨S16384x128, .f32⟩

abbrev bufTy : (tb : Table) → Fin (tcTables nBuf tb) → BufTy
  | .hbm, ⟨i, _⟩ => hbmTy i
  | .local _ .vmem, ⟨0, _⟩ => ⟨S512x128, .bf16⟩
  | .local _ .vmem, ⟨1, _⟩ => ⟨S512x128, .bf16⟩
  | .local _ .vmem, ⟨2, _⟩ => ⟨S512x2048, .bf16⟩
  | .local _ .vmem, ⟨3, _⟩ => ⟨S4x2048, .f32⟩
  | .local _ .vmem, ⟨4, _⟩ => ⟨S8192x1024, .bf16⟩
  | .local _ .vmem, ⟨5, _⟩ => ⟨S4x1024, .f32⟩
  | .local _ .vmem, ⟨6, _⟩ => ⟨S2x1024, .f32⟩
  | .local _ .vmem, ⟨7, _⟩ => ⟨S512x1024, .f32⟩
  | .local _ .vmem, ⟨8, _⟩ => ⟨S512x1024, .f32⟩
  | .local _ .smem, ⟨0, _⟩ => ⟨S38, .i32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1_0 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_1 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_c : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_0 : Ref sig .tc := ⟨.hbm, 48, rfl⟩
abbrev main_call1_v12 : Ref sig .tc := ⟨.hbm, 49, rfl⟩
abbrev main_call1_v13 : Ref sig .tc := ⟨.hbm, 50, rfl⟩
abbrev main_v20 : Ref sig .tc := ⟨.hbm, 51, rfl⟩
abbrev main_c_5 : Ref sig .tc := ⟨.hbm, 52, rfl⟩
abbrev main_v21 : Ref sig .tc := ⟨.hbm, 53, rfl⟩
abbrev main_call2_call0_c : Ref sig .tc := ⟨.hbm, 54, rfl⟩
abbrev main_call2_call0_v0 : Ref sig .tc := ⟨.hbm, 55, rfl⟩
abbrev main_v22 : Ref sig .tc := ⟨.hbm, 56, rfl⟩
abbrev main_v23 : Ref sig .tc := ⟨.hbm, 57, rfl⟩
abbrev main_c_6 : Ref sig .tc := ⟨.hbm, 58, rfl⟩
abbrev main_v24 : Ref sig .tc := ⟨.hbm, 59, rfl⟩
abbrev main_call3_call0_c : Ref sig .tc := ⟨.hbm, 60, rfl⟩
abbrev main_call3_call0_v0 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_c_7 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_call4_c : Ref sig .tc := ⟨.hbm, 71, rfl⟩
abbrev main_call4_v0 : Ref sig .tc := ⟨.hbm, 72, rfl⟩
abbrev main_call4_v1 : Ref sig .tc := ⟨.hbm, 73, rfl⟩
abbrev main_call4_c_0 : Ref sig .tc := ⟨.hbm, 74, rfl⟩
abbrev main_call4_v2 : Ref sig .tc := ⟨.hbm, 75, rfl⟩
abbrev main_call4_v3 : Ref sig .tc := ⟨.hbm, 76, rfl⟩
abbrev main_call4_v4 : Ref sig .tc := ⟨.hbm, 77, rfl⟩
abbrev main_call4_v5 : Ref sig .tc := ⟨.hbm, 78, rfl⟩
abbrev main_call4_c_1 : Ref sig .tc := ⟨.hbm, 79, rfl⟩
abbrev main_call4_c_2 : Ref sig .tc := ⟨.hbm, 80, rfl⟩
abbrev main_call4_v6 : Ref sig .tc := ⟨.hbm, 81, rfl⟩
abbrev main_call4_v7 : Ref sig .tc := ⟨.hbm, 82, rfl⟩
abbrev main_call4_v8 : Ref sig .tc := ⟨.hbm, 83, rfl⟩
abbrev main_call4_v9 : Ref sig .tc := ⟨.hbm, 84, rfl⟩
abbrev main_call4_v10 : Ref sig .tc := ⟨.hbm, 85, rfl⟩
abbrev main_call4_v11 : Ref sig .tc := ⟨.hbm, 86, rfl⟩
abbrev main_call4_c_3 : Ref sig .tc := ⟨.hbm, 87, rfl⟩
abbrev main_call4_v12 : Ref sig .tc := ⟨.hbm, 88, rfl⟩
abbrev main_call4_v13 : Ref sig .tc := ⟨.hbm, 89, rfl⟩
abbrev main_call4_c_4 : Ref sig .tc := ⟨.hbm, 90, rfl⟩
abbrev main_call4_v14 : Ref sig .tc := ⟨.hbm, 91, rfl⟩
abbrev main_v33 : Ref sig .tc := ⟨.hbm, 92, rfl⟩
abbrev main_v34 : Ref sig .tc := ⟨.hbm, 93, rfl⟩
abbrev main_v35 : Ref sig .tc := ⟨.hbm, 94, rfl⟩
abbrev main_v36 : Ref sig .tc := ⟨.hbm, 95, rfl⟩
abbrev main_v37 : Ref sig .tc := ⟨.hbm, 96, rfl⟩
abbrev main_v38 : Ref sig .tc := ⟨.hbm, 97, rfl⟩
abbrev main_v39 : Ref sig .tc := ⟨.hbm, 98, rfl⟩
abbrev main_v40 : Ref sig .tc := ⟨.hbm, 99, rfl⟩
abbrev main_v41 : Ref sig .tc := ⟨.hbm, 100, rfl⟩
abbrev main_v42 : Ref sig .tc := ⟨.hbm, 101, rfl⟩
abbrev main_c_8 : Ref sig .tc := ⟨.hbm, 102, rfl⟩
abbrev main_v43 : Ref sig .tc := ⟨.hbm, 103, rfl⟩
abbrev main_c_9 : Ref sig .tc := ⟨.hbm, 104, rfl⟩
abbrev main_c_10 : Ref sig .tc := ⟨.hbm, 105, rfl⟩
abbrev main_call5_v0 : Ref sig .tc := ⟨.hbm, 106, rfl⟩
abbrev main_call5_v1 : Ref sig .tc := ⟨.hbm, 107, rfl⟩
abbrev main_call5_v2 : Ref sig .tc := ⟨.hbm, 108, rfl⟩
abbrev main_call5_v3 : Ref sig .tc := ⟨.hbm, 109, rfl⟩
abbrev main_call5_v4 : Ref sig .tc := ⟨.hbm, 110, rfl⟩
abbrev main_v45 : Ref sig .tc := ⟨.hbm, 111, rfl⟩
abbrev main_c_11 : Ref sig .tc := ⟨.hbm, 112, rfl⟩
abbrev main_v46 : Ref sig .tc := ⟨.hbm, 113, rfl⟩
abbrev main_v47 : Ref sig .tc := ⟨.hbm, 114, rfl⟩
abbrev main_c_12 : Ref sig .tc := ⟨.hbm, 115, rfl⟩
abbrev main_v48 : Ref sig .tc := ⟨.hbm, 116, rfl⟩
abbrev main_v49 : Ref sig .tc := ⟨.hbm, 117, rfl⟩
abbrev main_v50 : Ref sig .tc := ⟨.hbm, 118, rfl⟩
abbrev main_v51 : Ref sig .tc := ⟨.hbm, 119, rfl⟩
abbrev main_v52 : Ref sig .tc := ⟨.hbm, 120, rfl⟩
abbrev main_cst : Ref sig .tc := ⟨.hbm, 121, rfl⟩
abbrev main_v53 : Ref sig .tc := ⟨.hbm, 122, rfl⟩
abbrev main_c_13 : Ref sig .tc := ⟨.hbm, 123, rfl⟩
abbrev main_v54 : Ref sig .tc := ⟨.hbm, 124, rfl⟩
abbrev main_v55 : Ref sig .tc := ⟨.hbm, 125, rfl⟩
abbrev main_c_14 : Ref sig .tc := ⟨.hbm, 126, rfl⟩
abbrev main_v56 : Ref sig .tc := ⟨.hbm, 127, rfl⟩
abbrev main_v57 : Ref sig .tc := ⟨.hbm, 128, rfl⟩
abbrev main_v58 : Ref sig .tc := ⟨.hbm, 129, rfl⟩
abbrev main_v59 : Ref sig .tc := ⟨.hbm, 130, rfl⟩
abbrev main_v60 : Ref sig .tc := ⟨.hbm, 131, rfl⟩
abbrev main_v61 : Ref sig .tc := ⟨.hbm, 132, rfl⟩
abbrev main_v62 : Ref sig .tc := ⟨.hbm, 133, rfl⟩
abbrev main_v63 : Ref sig .tc := ⟨.hbm, 134, rfl⟩
abbrev main_v64 : Ref sig .tc := ⟨.hbm, 135, rfl⟩
abbrev main_v65 : Ref sig .tc := ⟨.hbm, 136, rfl⟩
abbrev main_c_15 : Ref sig .tc := ⟨.hbm, 137, rfl⟩
abbrev main_v66 : Ref sig .tc := ⟨.hbm, 138, rfl⟩
abbrev main_v67 : Ref sig .tc := ⟨.hbm, 139, rfl⟩
abbrev main_c_16 : Ref sig .tc := ⟨.hbm, 140, rfl⟩
abbrev main_v68 : Ref sig .tc := ⟨.hbm, 141, rfl⟩
abbrev main_v69 : Ref sig .tc := ⟨.hbm, 142, rfl⟩
abbrev main_v70 : Ref sig .tc := ⟨.hbm, 143, rfl⟩
abbrev main_v71 : Ref sig .tc := ⟨.hbm, 144, rfl⟩
abbrev main_v72 : Ref sig .tc := ⟨.hbm, 145, rfl⟩
abbrev main_c_17 : Ref sig .tc := ⟨.hbm, 146, rfl⟩
abbrev main_v73 : Ref sig .tc := ⟨.hbm, 147, rfl⟩
abbrev main_v74 : Ref sig .tc := ⟨.hbm, 148, rfl⟩
abbrev main_c_18 : Ref sig .tc := ⟨.hbm, 149, rfl⟩
abbrev main_v75 : Ref sig .tc := ⟨.hbm, 150, rfl⟩
abbrev main_v76 : Ref sig .tc := ⟨.hbm, 151, rfl⟩
abbrev main_v77 : Ref sig .tc := ⟨.hbm, 152, rfl⟩
abbrev main_v78 : Ref sig .tc := ⟨.hbm, 153, rfl⟩
abbrev main_v79 : Ref sig .tc := ⟨.hbm, 154, rfl⟩
abbrev main_v44 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![38], ![false]⟩

abbrev pre0 : Pipeline.Prefetch sig := ⟨1, ![main_v44.idx], fun | 0 => main_v44.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_mult1 (v1 : BitVec 32) : BitVec 32 :=
  let c128_i32 : BitVec 32 := 128#32
  let v13 : BitVec 32 := Scalar.muli v1 c128_i32
  v13
def k0_cond1 (v1 : BitVec 32) : BitVec 1 :=
  let c4_i32 : BitVec 32 := 4#32
  let v4 : BitVec 1 := Scalar.cmpi .slt v1 c4_i32
  let v5 : BitVec 32 := Scalar.extui v4
  let c0_i32 : BitVec 32 := 0#32
  let v6 : BitVec 1 := Scalar.cmpi .ne v5 c0_i32
  v6

def k0_off2 (v1 : BitVec 32) : Fin 2 → Nat :=
  let c128_i32 : BitVec 32 := 128#32
  let v13 : BitVec 32 := Scalar.muli v1 c128_i32
  let v14 : BitVec 32 := v13
  let v15 : Index := Scalar.indexCast v14
  let c0_4 : Index := 0#32
  ![v15.toNat, 0]
def k0_off3 (v1 : BitVec 32) : Fin 2 → Nat :=
  let v19 : Index := Scalar.indexCast v1
  let c0_5 : Index := 0#32
  ![v19.toNat, 0]
def k0_mult2 (v1 : BitVec 32) : BitVec 32 :=
  let c2048_i32 : BitVec 32 := 2048#32
  let v28 : BitVec 32 := Scalar.muli v1 c2048_i32
  v28
def k0_off4 (v1 : BitVec 32) : Fin 2 → Nat :=
  let c2048_i32 : BitVec 32 := 2048#32
  let v28 : BitVec 32 := Scalar.muli v1 c2048_i32
  let v29 : BitVec 32 := v28
  let v30 : Index := Scalar.indexCast v29
  let c0_7 : Index := 0#32
  ![v30.toNat, 0]
def k0_off5 (v1 : BitVec 32) : Fin 2 → Nat :=
  let v34 : Index := Scalar.indexCast v1
  let c0_9 : Index := 0#32
  ![v34.toNat, 0]

def k0_chk1 (v1 : BitVec 32) : Prop :=
  (∀ (k0_h1 : k0_cond1 v1 = 1#1), 128 ∣ (k0_mult1 v1).toNat) ∧
  (∀ (k0_h1 : k0_cond1 v1 = 1#1), ∀ a, (k0_off2 v1) a + S128x2048.size a ≤ S512x2048.size a) ∧
  (∀ (k0_h1 : k0_cond1 v1 = 1#1), ∀ a, (k0_off3 v1) a + S1x2048.size a ≤ S4x2048.size a) ∧
  (∀ (k0_h1 : k0_cond1 v1 = 1#1), 2048 ∣ (k0_mult2 v1).toNat) ∧
  (∀ (k0_h1 : k0_cond1 v1 = 1#1), ∀ a, (k0_off4 v1) a + S2048x1024.size a ≤ S8192x1024.size a) ∧
  (∀ (k0_h1 : k0_cond1 v1 = 1#1), ∀ a, (k0_off5 v1) a + S1x1024.size a ≤ S4x1024.size a)
instance k0_chk1.dec : ∀ (v1 : BitVec 32), Decidable (k0_chk1 v1) := fun v1 => decidable_of_iff' _ (Iff.of_eq (k0_chk1.eq_1 v1))
theorem k0_mult1_dvd : ∀ (v1 : BitVec 32) (k0_hw1 : k0_chk1 v1), ∀ (k0_h1 : k0_cond1 v1 = 1#1), 128 ∣ (k0_mult1 v1).toNat := fun v1 k0_hw1 k0_h1 => k0_hw1.1 k0_h1
theorem k0_off2_inb : ∀ (v1 : BitVec 32) (k0_hw1 : k0_chk1 v1), ∀ (k0_h1 : k0_cond1 v1 = 1#1), ∀ a, (k0_off2 v1) a + S128x2048.size a ≤ S512x2048.size a := fun v1 k0_hw1 k0_h1 => k0_hw1.2.1 k0_h1
theorem k0_off3_inb : ∀ (v1 : BitVec 32) (k0_hw1 : k0_chk1 v1), ∀ (k0_h1 : k0_cond1 v1 = 1#1), ∀ a, (k0_off3 v1) a + S1x2048.size a ≤ S4x2048.size a := fun v1 k0_hw1 k0_h1 => k0_hw1.2.2.1 k0_h1
theorem k0_mult2_dvd : ∀ (v1 : BitVec 32) (k0_hw1 : k0_chk1 v1), ∀ (k0_h1 : k0_cond1 v1 = 1#1), 2048 ∣ (k0_mult2 v1).toNat := fun v1 k0_hw1 k0_h1 => k0_hw1.2.2.2.1 k0_h1
theorem k0_off4_inb : ∀ (v1 : BitVec 32) (k0_hw1 : k0_chk1 v1), ∀ (k0_h1 : k0_cond1 v1 = 1#1), ∀ a, (k0_off4 v1) a + S2048x1024.size a ≤ S8192x1024.size a := fun v1 k0_hw1 k0_h1 => k0_hw1.2.2.2.2.1 k0_h1
theorem k0_off5_inb : ∀ (v1 : BitVec 32) (k0_hw1 : k0_chk1 v1), ∀ (k0_h1 : k0_cond1 v1 = 1#1), ∀ a, (k0_off5 v1) a + S1x1024.size a ≤ S4x1024.size a := fun v1 k0_hw1 k0_h1 => k0_hw1.2.2.2.2.2 k0_h1

def k0_cond2 (v1 : BitVec 32) : BitVec 1 :=
  let c4_i32_1 : BitVec 32 := 4#32
  let v7 : BitVec 1 := Scalar.cmpi .eq v1 c4_i32_1
  let v8 : BitVec 32 := Scalar.extui v7
  let c0_i32_2 : BitVec 32 := 0#32
  let v9 : BitVec 1 := Scalar.cmpi .ne v8 c0_i32_2
  v9

def k0_cond3 (v1 : BitVec 32) : BitVec 1 :=
  let c5_i32 : BitVec 32 := 5#32
  let v10 : BitVec 1 := Scalar.cmpi .eq v1 c5_i32
  let v11 : BitVec 32 := Scalar.extui v10
  let c0_i32_3 : BitVec 32 := 0#32
  let v12 : BitVec 1 := Scalar.cmpi .ne v11 c0_i32_3
  v12

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8192x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S6_S1x6_1 : S6.BroadcastsInDim S1x6 (![1] : Fin 1 → Fin S1x6.rank)
  bcast_S16384x1_S16384x6_0_1 : S16384x1.BroadcastsInDim S16384x6 (![0, 1] : Fin 2 → Fin S16384x6.rank)
  bcast_S1x6_S16384x6_0_1 : S1x6.BroadcastsInDim S16384x6 (![0, 1] : Fin 2 → Fin S16384x6.rank)
  natLt_1_32 : 1 < 32
  reducesTo_S16384x6_S6_d0 : S16384x6.ReducesTo [0] S6
  h_S_ : 0 < S_.numel
  bcast_S_S6 : S_.BroadcastsInDim S6 (![] : Fin 0 → Fin S6.rank)
  bcast_S_S1 : S_.BroadcastsInDim S1 (![] : Fin 0 → Fin S1.rank)
  bcast_S_S_ : S_.BroadcastsInDim S_ (![] : Fin 0 → Fin S_.rank)
  reduceWindows_S6_S6_w6s1p5_0 : S6.ReduceWindows (![6] : Fin 1 → Nat) ![1] ![5] ![0] S6
  concatenates_S1_S6_S7_d0 : Shape.Concatenates [S1, S6] S7 0
  slices_S7_S6_0 : S7.Slices ![0] S6
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  bcast_S38_S38x1_0 : S38.BroadcastsInDim S38x1 (![0] : Fin 1 → Fin S38x1.rank)
  slices_S7_S6_1 : S7.Slices ![1] S6
  bcast_S38x1_S38x6_0_1 : S38x1.BroadcastsInDim S38x6 (![0, 1] : Fin 2 → Fin S38x6.rank)
  bcast_S1x6_S38x6_0_1 : S1x6.BroadcastsInDim S38x6 (![0, 1] : Fin 2 → Fin S38x6.rank)
  reducesTo_S38x6_S38_d1 : S38x6.ReducesTo [1] S38
  bcast_S_S38 : S_.BroadcastsInDim S38 (![] : Fin 0 → Fin S38.rank)
  bitsLt_bf16_f32 : FTy.bits .bf16 < FTy.bits .f32
  bcast_S_S19456x128 : S_.BroadcastsInDim S19456x128 (![] : Fin 0 → Fin S19456x128.rank)
  shapeCasts_S4x128x2048_S512x2048 : S4x128x2048.ShapeCasts S512x2048
  shapeCasts_S4x2048x1024_S8192x1024 : S4x2048x1024.ShapeCasts S8192x1024
  numel1_S1 : S1.numel = 1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  h_S128x2048 : 0 < S128x2048.numel
  shapeCasts_S128x2048_S128x2048 : S128x2048.ShapeCasts S128x2048
  h_S1x2048 : 0 < S1x2048.numel
  shapeCasts_S1x2048_S2048 : S1x2048.ShapeCasts S2048
  shapeCasts_S2048_S1x2048 : S2048.ShapeCasts S1x2048
  broadcasts_S1x2048_S512x2048 : S1x2048.Broadcasts S512x2048
  h_S2048x1024 : 0 < S2048x1024.numel
  shapeCasts_S2048x1024_S2048x1024 : S2048x1024.ShapeCasts S2048x1024
  h_S1x1024 : 0 < S1x1024.numel
  shapeCasts_S1x1024_S1024 : S1x1024.ShapeCasts S1024
  shapeCasts_S1024_S1x1024 : S1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  inb_S2x1024_S1x1024_0_0 : ∀ a, (![0, 0] : Fin 2 → Nat) a + S1x1024.size a ≤ S2x1024.size a
  inb_S2x1024_S1x1024_1_0 : ∀ a, (![1, 0] : Fin 2 → Nat) a + S1x1024.size a ≤ S2x1024.size a
  gather_S16384_S16384x1_S16384_n_0_n_n_0_1_1_wf : GatherDims.WF S16384 S16384x1 S16384 [] [0] [] [0] [] 1 ![1]
  gather_S6_S16384x1_S16384_n_0_n_n_0_1_1_wf : GatherDims.WF S6 S16384x1 S16384 [] [0] [] [0] [] 1 ![1]
  gather_S16384x128_S16384x1_S16384x128_1_0_n_n_0_1_1128_wf : GatherDims.WF S16384x128 S16384x1 S16384x128 [1] [0] [] [0] [] 1 ![1, 128]
  scatter_S19456x128_S16384x1_S16384x128_1_0_0_1_wf : ScatterDims.WF S19456x128 S16384x1 S16384x128 [1] [0] [0] 1
  dot_S512x128_S128x2048_S512x2048_1_0_0_1_n_n_wf : DotDims.WF S512x128 S128x2048 S512x2048 [1] [0] [0] [1] [] []
  dot_S512x2048_S2048x1024_S512x1024_1_0_0_1_n_n_wf : DotDims.WF S512x2048 S2048x1024 S512x1024 [1] [0] [0] [1] [] []
  gather_S19456x1024_S16384x1_S16384x1024_1_0_n_n_0_1_11024_wf : GatherDims.WF S19456x1024 S16384x1 S16384x1024 [1] [0] [] [0] [] 1 ![1, 1024]
  gather_S16384x1024_S16384x1_S16384x1024_1_0_n_n_0_1_11024_wf : GatherDims.WF S16384x1024 S16384x1 S16384x1024 [1] [0] [] [0] [] 1 ![1, 1024]
  hrank0 : 0 < grid0.rank
  k0_off1_inb : ∀ i : grid0.Coords, ∀ a, (k0_off1 i) a + S1.size a ≤ S38.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S19456x128.size a
  hwx0_0 : ∀ i : grid0.Coords, EltTy.bits .bf16 = 32 ∨ (Rect.block (s := S19456x128) S512x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S512x2048.size a
  hwx0_1 : ∀ i : grid0.Coords, EltTy.bits .bf16 = 32 ∨ (Rect.block (s := S512x2048) S512x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x2048.size a ≤ S4x2048.size a
  hwx0_2 : ∀ i : grid0.Coords, EltTy.bits .f32 = 32 ∨ (Rect.block (s := S4x2048) S4x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8192x1024.size a ≤ S8192x1024.size a
  hwx0_3 : ∀ i : grid0.Coords, EltTy.bits .bf16 = 32 ∨ (Rect.block (s := S8192x1024) S8192x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x1024.size a ≤ S4x1024.size a
  hwx0_4 : ∀ i : grid0.Coords, EltTy.bits .f32 = 32 ∨ (Rect.block (s := S4x1024) S4x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2x1024.size a ≤ S2x1024.size a
  hwx0_5 : ∀ i : grid0.Coords, EltTy.bits .f32 = 32 ∨ (Rect.block (s := S2x1024) S2x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S19456x1024.size a
  hwx0_6 : ∀ i : grid0.Coords, EltTy.bits .f32 = 32 ∨ (Rect.block (s := S19456x1024) S512x1024.size (cc0_transform_6 i) (hinb0_6 i)).WholeWords (EltTy.packing .f32)

variable [Facts₀]

def comparator_i32_i32_d0 : BitVec 32 × BitVec 32 → BitVec 32 × BitVec 32 → BitVec 1 :=
  fun l r =>
    let v2 := IntOp.cmpi .slt l.1 r.1
    v2
def gather_S16384_S16384x1_S16384_n_0_n_n_0_1_1 : GatherDims S16384 S16384x1 S16384 where
  offsetDims := []
  collapsedSliceDims := [0]
  operandBatchingDims := []
  startIndicesBatchingDims := []
  startIndexMap := [0]
  indexVectorDim := 1
  sliceSizes := ![1]
  wf := gather_S16384_S16384x1_S16384_n_0_n_n_0_1_1_wf
def gather_S6_S16384x1_S16384_n_0_n_n_0_1_1 : GatherDims S6 S16384x1 S16384 where
  offsetDims := []
  collapsedSliceDims := [0]
  operandBatchingDims := []
  startIndicesBatchingDims := []
  startIndexMap := [0]
  indexVectorDim := 1
  sliceSizes := ![1]
  wf := gather_S6_S16384x1_S16384_n_0_n_n_0_1_1_wf
def gather_S16384x128_S16384x1_S16384x128_1_0_n_n_0_1_1128 : GatherDims S16384x128 S16384x1 S16384x128 where
  offsetDims := [1]
  collapsedSliceDims := [0]
  operandBatchingDims := []
  startIndicesBatchingDims := []
  startIndexMap := [0]
  indexVectorDim := 1
  sliceSizes := ![1, 128]
  wf := gather_S16384x128_S16384x1_S16384x128_1_0_n_n_0_1_1128_wf
def scatter_S19456x128_S16384x1_S16384x128_1_0_0_1 : ScatterDims S19456x128 S16384x1 S16384x128 where
  updateWindowDims := [1]
  insertedWindowDims := [0]
  scatterDimsToOperandDims := [0]
  indexVectorDim := 1
  wf := scatter_S19456x128_S16384x1_S16384x128_1_0_0_1_wf
def dot_S512x128_S128x2048_S512x2048_1_0_0_1_n_n : DotDims S512x128 S128x2048 S512x2048 where
  lhsContracting := [1]
  rhsContracting := [0]
  lhsNonContracting := [0]
  rhsNonContracting := [1]
  lhsBatch := []
  rhsBatch := []
  wf := dot_S512x128_S128x2048_S512x2048_1_0_0_1_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf
def gather_S19456x1024_S16384x1_S16384x1024_1_0_n_n_0_1_11024 : GatherDims S19456x1024 S16384x1 S16384x1024 where
  offsetDims := [1]
  collapsedSliceDims := [0]
  operandBatchingDims := []
  startIndicesBatchingDims := []
  startIndexMap := [0]
  indexVectorDim := 1
  sliceSizes := ![1, 1024]
  wf := gather_S19456x1024_S16384x1_S16384x1024_1_0_n_n_0_1_11024_wf
def gather_S16384x1024_S16384x1_S16384x1024_1_0_n_n_0_1_11024 : GatherDims S16384x1024 S16384x1 S16384x1024 where
  offsetDims := [1]
  collapsedSliceDims := [0]
  operandBatchingDims := []
  startIndicesBatchingDims := []
  startIndexMap := [0]
  indexVectorDim := 1
  sliceSizes := ![1, 1024]
  wf := gather_S16384x1024_S16384x1_S16384x1024_1_0_n_n_0_1_11024_wf

abbrev spec0_0 : Pipeline.WinSpec sig grid0.rank :=
  Pipeline.WinSpec.ofSpec (Memref.whole main_v60) S512x128.size reads0_0 false false 2 stage0_0 sem0_0 nbuf0_0 hstage0_0

abbrev spec0_1 : Pipeline.WinSpec sig grid0.rank :=
  Pipeline.WinSpec.ofSpec (Memref.whole main_v62) S512x2048.size reads0_1 false true 1 stage0_1 sem0_1 nbuf0_1 hstage0_1

abbrev spec0_2 : Pipeline.WinSpec sig grid0.rank :=
  Pipeline.WinSpec.ofSpec (Memref.whole main_arg3) S4x2048.size reads0_2 false true 1 stage0_2 sem0_2 nbuf0_2 hstage0_2

abbrev spec0_3 : Pipeline.WinSpec sig grid0.rank :=
  Pipeline.WinSpec.ofSpec (Memref.whole main_v64) S8192x1024.size reads0_3 false true 1 stage0_3 sem0_3 nbuf0_3 hstage0_3

abbrev spec0_4 : Pipeline.WinSpec sig grid0.rank :=
  Pipeline.WinSpec.ofSpec (Memref.whole main_arg5) S4x1024.size reads0_4 false true 1 stage0_4 sem0_4 nbuf0_4 hstage0_4

abbrev spec0_5 : Pipeline.WinSpec sig grid0.rank :=
  Pipeline.WinSpec.ofSpec (Memref.whole main_arg6) S2x1024.size reads0_5 false true 1 stage0_5 sem0_5 nbuf0_5 hstage0_5

abbrev spec0_6 : Pipeline.WinSpec sig grid0.rank :=
  Pipeline.WinSpec.ofSpec (Memref.whole main_v65) S512x1024.size reads0_6 true false 2 stage0_6 sem0_6 nbuf0_6 hstage0_6

abbrev spec0 : Fin 7 → Pipeline.WinSpec sig grid0.rank := fun | 0 => spec0_0 | 1 => spec0_1 | 2 => spec0_2 | 3 => spec0_3 | 4 => spec0_4 | 5 => spec0_5 | 6 => spec0_6 | ⟨_ + 7, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | 6 => nbuf0_6 | ⟨_ + 7, h⟩ => absurd h (Nat.not_lt.2 (Nat.le_add_left _ _))
abbrev ix0 (pf : pre0.Contents (Elt F)) : (w : Fin 7) → grid0.Coords → Fin (spec0 w).shape.rank → Nat := fun | 0 => cc0_transform_0 | 1 => cc0_transform_1 | 2 => cc0_transform_2 | 3 => cc0_transform_3 | 4 => cc0_transform_4 | 5 => cc0_transform_5 | 6 => cc0_transform_6 | ⟨_ + 7, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | 5 => hreads0_5 | 6 => hreads0_6 | ⟨_ + 7, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | 4 => hinb0_4 | 5 => hinb0_5 | 6 => hinb0_6 | ⟨_ + 7, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | 4 => hwx0_4 | 5 => hwx0_5 | 6 => hwx0_6 | ⟨_ + 7, h⟩ => absurd h (Nat.not_lt.2 (Nat.le_add_left _ _))
abbrev idle0 (pf : pre0.Contents (Elt F)) : Fin 7 → grid0.Coords → Bool := fun | 0 => fun _ => false | 1 => fun _ => false | 2 => fun _ => false | 3 => fun _ => false | 4 => fun _ => false | 5 => fun _ => false | 6 => fun i => !(k0_cond1 (pf.atD 0 (k0_off1 i)) == 1#1) && !(k0_cond2 (pf.atD 0 (k0_off1 i)) == 1#1) && !(k0_cond3 (pf.atD 0 (k0_off1 i)) == 1#1) | ⟨_ + 7, h⟩ => absurd h (Nat.not_lt.2 (Nat.le_add_left _ _))

class Facts : Prop extends Facts₀ where
  harr0 : ∀ w, (spec0 w).arr.IsWhole

variable [Facts]
-- ==== ReferenceIdeal.lean ====
abbrev S16384x128 : Shape := ⟨2, ![16384, 128]⟩
abbrev S16384 : Shape := ⟨1, ![16384]⟩
abbrev S4x128x2048 : Shape := ⟨3, ![4, 128, 2048]⟩
abbrev S4x2048 : Shape := ⟨2, ![4, 2048]⟩
abbrev S4x2048x1024 : Shape := ⟨3, ![4, 2048, 1024]⟩
abbrev S4x1024 : Shape := ⟨2, ![4, 1024]⟩
abbrev S2x1024 : Shape := ⟨2, ![2, 1024]⟩
abbrev S_ : Shape := ⟨0, ![]⟩
abbrev S16384x1024 : Shape := ⟨2, ![16384, 1024]⟩
abbrev S1x128x2048 : Shape := ⟨3, ![1, 128, 2048]⟩
abbrev S128x2048 : Shape := ⟨2, ![128, 2048]⟩
abbrev S16384x2048 : Shape := ⟨2, ![16384, 2048]⟩
abbrev S1x2048 : Shape := ⟨2, ![1, 2048]⟩
abbrev S2048 : Shape := ⟨1, ![2048]⟩
abbrev S1x2048x1024 : Shape := ⟨3, ![1, 2048, 1024]⟩
abbrev S2048x1024 : Shape := ⟨2, ![2048, 1024]⟩
abbrev S1x1024 : Shape := ⟨2, ![1, 1024]⟩
abbrev S1024 : Shape := ⟨1, ![1024]⟩
abbrev S16384x1 : Shape := ⟨2, ![16384, 1]⟩

abbrev nBuf : Space → Nat
  | .hbm => 148
  | .vmem => 0
  | .smem => 0
  | _ => 0

abbrev hbmTy0_0 (i : Nat) : BufTy := match i % 128 with
  | 0 => ⟨S16384x128, .f32⟩
  | 1 => ⟨S16384, .i32⟩
  | 2 => ⟨S4x128x2048, .f32⟩
  | 3 => ⟨S4x2048, .f32⟩
  | 4 => ⟨S4x2048x1024, .f32⟩
  | 5 => ⟨S4x1024, .f32⟩
  | 6 => ⟨S2x1024, .f32⟩
  | 7 => ⟨S_, .f32⟩
  | 8 => ⟨S16384x1024, .f32⟩
  | 9 => ⟨S1x128x2048, .f32⟩
  | 10 => ⟨S128x2048, .f32⟩
  | 11 => ⟨S16384x2048, .f32⟩
  | 12 => ⟨S1x2048, .f32⟩
  | 13 => ⟨S2048, .f32⟩
  | 14 => ⟨S1x2048, .f32⟩
  | 15 => ⟨S16384x2048, .f32⟩
  | 16 => ⟨S16384x2048, .f32⟩
  | 17 => ⟨S_, .f32⟩
  | 18 => ⟨S16384x2048, .f32⟩
  | 19 => ⟨S16384x2048, .f32⟩
  | 20 => ⟨S1x2048x1024, .f32⟩
  | 21 => ⟨S2048x1024, .f32⟩
  | 22 => ⟨S16384x1024, .f32⟩
  | 23 => ⟨S1x1024, .f32⟩
  | 24 => ⟨S1024, .f32⟩
  | 25 => ⟨S1x1024, .f32⟩
  | 26 => ⟨S16384x1024, .f32⟩
  | 27 => ⟨S16384x1024, .f32⟩
  | 28 => ⟨S_, .i32⟩
  | 29 => ⟨S16384, .i32⟩
  | 30 => ⟨S16384, .i1⟩
  | 31 => ⟨S16384x1, .i1⟩
  | 32 => ⟨S16384x1024, .i1⟩
  | 33 => ⟨S16384x1024, .f32⟩
  | 34 => ⟨S1x128x2048, .f32⟩
  | 35 => ⟨S128x2048, .f32⟩
  | 36 => ⟨S16384x2048, .f32⟩
  | 37 => ⟨S1x2048, .f32⟩
  | 38 => ⟨S2048, .f32⟩
  | 39 => ⟨S1x2048, .f32⟩
  | 40 => ⟨S16384x2048, .f32⟩
  | 41 => ⟨S16384x2048, .f32⟩
  | 42 => ⟨S_, .f32⟩
  | 43 => ⟨S16384x2048, .f32⟩
  | 44 => ⟨S16384x2048, .f32⟩
  | 45 => ⟨S1x2048x1024, .f32⟩
  | 46 => ⟨S2048x1024, .f32⟩
  | 47 => ⟨S16384x1024, .f32⟩
  | 48 => ⟨S1x1024, .f32⟩
  | 49 => ⟨S1024, .f32⟩
  | 50 => ⟨S1x1024, .f32⟩
  | 51 => ⟨S16384x1024, .f32⟩
  | 52 => ⟨S16384x1024, .f32⟩
  | 53 => ⟨S_, .i32⟩
  | 54 => ⟨S16384, .i32⟩
  | 55 => ⟨S16384, .i1⟩
  | 56 => ⟨S16384x1, .i1⟩
  | 57 => ⟨S16384x1024, .i1⟩
  | 58 => ⟨S16384x1024, .f32⟩
  | 59 => ⟨S1x128x2048, .f32⟩
  | 60 => ⟨S128x2048, .f32⟩
  | 61 => ⟨S16384x2048, .f32⟩
  | 62 => ⟨S1x2048, .f32⟩
  | 63 => ⟨S2048, .f32⟩
  | 64 => ⟨S1x2048, .f32⟩
  | 65 => ⟨S16384x2048, .f32⟩
  | 66 => ⟨S16384x2048, .f32⟩
  | 67 => ⟨S_, .f32⟩
  | 68 => ⟨S16384x2048, .f32⟩
  | 69 => ⟨S16384x2048, .f32⟩
  | 70 => ⟨S1x2048x1024, .f32⟩
  | 71 => ⟨S2048x1024, .f32⟩
  | 72 => ⟨S16384x1024, .f32⟩
  | 73 => ⟨S1x1024, .f32⟩
  | 74 => ⟨S1024, .f32⟩
  | 75 => ⟨S1x1024, .f32⟩
  | 76 => ⟨S16384x1024, .f32⟩
  | 77 => ⟨S16384x1024, .f32⟩
  | 78 => ⟨S_, .i32⟩
  | 79 => ⟨S16384, .i32⟩
  | 80 => ⟨S16384, .i1⟩
  | 81 => ⟨S16384x1, .i1⟩
  | 82 => ⟨S16384x1024, .i1⟩
  | 83 => ⟨S16384x1024, .f32⟩
  | 84 => ⟨S1x128x2048, .f32⟩
  | 85 => ⟨S128x2048, .f32⟩
  | 86 => ⟨S16384x2048, .f32⟩
  | 87 => ⟨S1x2048, .f32⟩
  | 88 => ⟨S2048, .f32⟩
  | 89 => ⟨S1x2048, .f32⟩
  | 90 => ⟨S16384x2048, .f32⟩
  | 91 => ⟨S16384x2048, .f32⟩
  | 92 => ⟨S_, .f32⟩
  | 93 => ⟨S16384x2048, .f32⟩
  | 94 => ⟨S16384x2048, .f32⟩
  | 95 => ⟨S1x2048x1024, .f32⟩
  | 96 => ⟨S2048x1024, .f32⟩
  | 97 => ⟨S16384x1024, .f32⟩
  | 98 => ⟨S1x1024, .f32⟩
  | 99 => ⟨S1024, .f32⟩
  | 100 => ⟨S1x1024, .f32⟩
  | 101 => ⟨S16384x1024, .f32⟩
  | 102 => ⟨S16384x1024, .f32⟩
  | 103 => ⟨S_, .i32⟩
  | 104 => ⟨S16384, .i32⟩
  | 105 => ⟨S16384, .i1⟩
  | 106 => ⟨S16384x1, .i1⟩
  | 107 => ⟨S16384x1024, .i1⟩
  | 108 => ⟨S16384x1024, .f32⟩
  | 109 => ⟨S_, .i32⟩
  | 110 => ⟨S16384, .i32⟩
  | 111 => ⟨S16384, .i1⟩
  | 112 => ⟨S16384x1, .i1⟩
  | 113 => ⟨S1x1024, .f32⟩
  | 114 => ⟨S1024, .f32⟩
  | 115 => ⟨S16384x1024, .i1⟩
  | 116 => ⟨S16384x1024, .f32⟩
  | 117 => ⟨S16384x1024, .f32⟩
  | 118 => ⟨S_, .i32⟩
  | 119 => ⟨S16384, .i32⟩
  | 120 => ⟨S16384, .i1⟩
  | 121 => ⟨S16384x1, .i1⟩
  | 122 => ⟨S1x1024, .f32⟩
  | 123 => ⟨S1024, .f32⟩
  | 124 => ⟨S16384x1024, .i1⟩
  | 125 => ⟨S16384x1024, .f32⟩
  | 126 => ⟨S16384x1024, .f32⟩
  | 127 => ⟨S16384, .i32⟩
  | _ => ⟨S16384x128, .f32⟩

abbrev hbmTy0_1 (i : Nat) : BufTy := match i % 128 with
  | 0 => ⟨S16384, .i32⟩
  | 1 => ⟨S16384, .i32⟩
  | 2 => ⟨S_, .i32⟩
  | 3 => ⟨S16384, .i32⟩
  | 4 => ⟨S16384, .i1⟩
  | 5 => ⟨S_, .i32⟩
  | 6 => ⟨S16384, .i32⟩
  | 7 => ⟨S16384, .i32⟩
  | 8 => ⟨S16384, .i32⟩
  | 9 => ⟨S16384x1, .i32⟩
  | 10 => ⟨S16384x1024, .f32⟩
  | 11 => ⟨S_, .i32⟩
  | 12 => ⟨S16384, .i32⟩
  | 13 => ⟨S16384, .i1⟩
  | 14 => ⟨S_, .i32⟩
  | 15 => ⟨S16384, .i32⟩
  | 16 => ⟨S16384, .i32⟩
  | 17 => ⟨S16384, .i32⟩
  | 18 => ⟨S16384x1, .i32⟩
  | 19 => ⟨S16384x1024, .f32⟩
  | _ => ⟨S16384x128, .f32⟩

abbrev hbmTy (i : Nat) : BufTy := match i / 128 with
  | 0 => hbmTy0_0 i
  | 1 => hbmTy0_1 i
  | _ => ⟨S16384x128, .f32⟩

abbrev bufTy : (tb : Table) → Fin (tcTables nBuf tb) → BufTy
  | .hbm, ⟨i, _⟩ => hbmTy i
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_call0_cst : Ref sig .tc := ⟨.hbm, 17, rfl⟩
abbrev main_call0_v0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_call1_v0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_call2_cst : Ref sig .tc := ⟨.hbm, 42, rfl⟩
abbrev main_call2_v0 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c_0 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_call3_v0 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_call4_cst : Ref sig .tc := ⟨.hbm, 67, rfl⟩
abbrev main_call4_v0 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_c_1 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_call5_v0 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_call6_cst : Ref sig .tc := ⟨.hbm, 92, rfl⟩
abbrev main_call6_v0 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_c_2 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_call7_v0 : Ref sig .tc := ⟨.hbm, 107, rfl⟩
abbrev main_v84 : Ref sig .tc := ⟨.hbm, 108, rfl⟩
abbrev main_c_3 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_call8_v0 : Ref sig .tc := ⟨.hbm, 115, rfl⟩
abbrev main_call8_v1 : Ref sig .tc := ⟨.hbm, 116, rfl⟩
abbrev main_v90 : Ref sig .tc := ⟨.hbm, 117, rfl⟩
abbrev main_c_4 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_call9_v0 : Ref sig .tc := ⟨.hbm, 124, rfl⟩
abbrev main_call9_v1 : Ref sig .tc := ⟨.hbm, 125, rfl⟩
abbrev main_v96 : Ref sig .tc := ⟨.hbm, 126, rfl⟩
abbrev main_call10_v0 : Ref sig .tc := ⟨.hbm, 127, rfl⟩
abbrev main_call10_v1_0 : Ref sig .tc := ⟨.hbm, 128, rfl⟩
abbrev main_v97 : Ref sig .tc := ⟨.hbm, 129, rfl⟩
abbrev main_c_5 : Ref sig .tc := ⟨.hbm, 130, rfl⟩
abbrev main_v98 : Ref sig .tc := ⟨.hbm, 131, rfl⟩
abbrev main_v99 : Ref sig .tc := ⟨.hbm, 132, rfl⟩
abbrev main_c_6 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_c_7 : Ref sig .tc := ⟨.hbm, 139, rfl⟩
abbrev main_v105 : Ref sig .tc := ⟨.hbm, 140, rfl⟩
abbrev main_v106 : Ref sig .tc := ⟨.hbm, 141, rfl⟩
abbrev main_c_8 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩

abbrev nD : Nat := 1
abbrev τ : Topo := Topo.v7x

variable {F : FTy → Type} [FloatOps F]

class Facts₀ : Prop where
  bcast_S_S16384x1024 : S_.BroadcastsInDim S16384x1024 (![] : Fin 0 → Fin S16384x1024.rank)
  slices_S4x128x2048_S1x128x2048_0_0_0 : S4x128x2048.Slices ![0, 0, 0] S1x128x2048
  shapeCasts_S1x128x2048_S128x2048 : S1x128x2048.ShapeCasts S128x2048
  slices_S4x2048_S1x2048_0_0 : S4x2048.Slices ![0, 0] S1x2048
  shapeCasts_S1x2048_S2048 : S1x2048.ShapeCasts S2048
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  bcast_S_S16384x2048 : S_.BroadcastsInDim S16384x2048 (![] : Fin 0 → Fin S16384x2048.rank)
  slices_S4x2048x1024_S1x2048x1024_0_0_0 : S4x2048x1024.Slices ![0, 0, 0] S1x2048x1024
  shapeCasts_S1x2048x1024_S2048x1024 : S1x2048x1024.ShapeCasts S2048x1024
  slices_S4x1024_S1x1024_0_0 : S4x1024.Slices ![0, 0] S1x1024
  shapeCasts_S1x1024_S1024 : S1x1024.ShapeCasts S1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x1024_0_1 : S16384x1.BroadcastsInDim S16384x1024 (![0, 1] : Fin 2 → Fin S16384x1024.rank)
  slices_S4x128x2048_S1x128x2048_1_0_0 : S4x128x2048.Slices ![1, 0, 0] S1x128x2048
  slices_S4x2048_S1x2048_1_0 : S4x2048.Slices ![1, 0] S1x2048
  slices_S4x2048x1024_S1x2048x1024_1_0_0 : S4x2048x1024.Slices ![1, 0, 0] S1x2048x1024
  slices_S4x1024_S1x1024_1_0 : S4x1024.Slices ![1, 0] S1x1024
  slices_S4x128x2048_S1x128x2048_2_0_0 : S4x128x2048.Slices ![2, 0, 0] S1x128x2048
  slices_S4x2048_S1x2048_2_0 : S4x2048.Slices ![2, 0] S1x2048
  slices_S4x2048x1024_S1x2048x1024_2_0_0 : S4x2048x1024.Slices ![2, 0, 0] S1x2048x1024
  slices_S4x1024_S1x1024_2_0 : S4x1024.Slices ![2, 0] S1x1024
  slices_S4x128x2048_S1x128x2048_3_0_0 : S4x128x2048.Slices ![3, 0, 0] S1x128x2048
  slices_S4x2048_S1x2048_3_0 : S4x2048.Slices ![3, 0] S1x2048
  slices_S4x2048x1024_S1x2048x1024_3_0_0 : S4x2048x1024.Slices ![3, 0, 0] S1x2048x1024
  slices_S4x1024_S1x1024_3_0 : S4x1024.Slices ![3, 0] S1x1024
  slices_S2x1024_S1x1024_0_0 : S2x1024.Slices ![0, 0] S1x1024
  bcast_S1024_S16384x1024_1 : S1024.BroadcastsInDim S16384x1024 (![1] : Fin 1 → Fin S16384x1024.rank)
  slices_S2x1024_S1x1024_1_0 : S2x1024.Slices ![1, 0] S1x1024
  dot_S16384x128_S128x2048_S16384x2048_1_0_0_1_n_n_wf : DotDims.WF S16384x128 S128x2048 S16384x2048 [1] [0] [0] [1] [] []
  dot_S16384x2048_S2048x1024_S16384x1024_1_0_0_1_n_n_wf : DotDims.WF S16384x2048 S2048x1024 S16384x1024 [1] [0] [0] [1] [] []
  gather_S16384x1024_S16384x1_S16384x1024_1_0_n_n_0_1_11024_wf : GatherDims.WF S16384x1024 S16384x1 S16384x1024 [1] [0] [] [0] [] 1 ![1, 1024]

variable [Facts₀]

def dot_S16384x128_S128x2048_S16384x2048_1_0_0_1_n_n : DotDims S16384x128 S128x2048 S16384x2048 where
  lhsContracting := [1]
  rhsContracting := [0]
  lhsNonContracting := [0]
  rhsNonContracting := [1]
  lhsBatch := []
  rhsBatch := []
  wf := dot_S16384x128_S128x2048_S16384x2048_1_0_0_1_n_n_wf
def dot_S16384x2048_S2048x1024_S16384x1024_1_0_0_1_n_n : DotDims S16384x2048 S2048x1024 S16384x1024 where
  lhsContracting := [1]
  rhsContracting := [0]
  lhsNonContracting := [0]
  rhsNonContracting := [1]
  lhsBatch := []
  rhsBatch := []
  wf := dot_S16384x2048_S2048x1024_S16384x1024_1_0_0_1_n_n_wf
def comparator_i32_i32_d0 : BitVec 32 × BitVec 32 → BitVec 32 × BitVec 32 → BitVec 1 :=
  fun l r =>
    let v2 := IntOp.cmpi .slt l.1 r.1
    v2
def gather_S16384x1024_S16384x1_S16384x1024_1_0_n_n_0_1_11024 : GatherDims S16384x1024 S16384x1 S16384x1024 where
  offsetDims := [1]
  collapsedSliceDims := [0]
  operandBatchingDims := []
  startIndicesBatchingDims := []
  startIndexMap := [0]
  indexVectorDim := 1
  sliceSizes := ![1, 1024]
  wf := gather_S16384x1024_S16384x1_S16384x1024_1_0_n_n_0_1_11024_wf

class Facts : Prop extends Facts₀ where

variable [Facts]
-- ==== Proof.KI_Kit.lean ====
/-
  @main of the routed encoder around its one kernel region, and what the region's body is handed.

  Before the region @main computes, from the type ids alone, the row order (a stable sort), the padded destination of
  every sorted row, the type of each block of 512 padded rows (the table the kernel reads one word of per block), and
  scatters the sorted rows to their destinations; after it, two row gathers undo the padding and apply the order once
  more.  This module names the buffer contents when the region is entered (`V`: the launch contents after the host
  operations before the region), reduces @main to the region continued by the later operations, names the table's
  contents, each window's block at a grid point and the staging memrefs the body is called with, and reads the frame
  claim off the run of the region.
-/
import proofs.«410392_j25512105739026_3_alg».proof.Proof.Gen.KernelIdeal.Launch
import proofs.«410392_j25512105739026_3_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The stretches of host operations before the region, in order. -/
abbrev preOps : List (List (HloOp τ sig (Elt F))) :=
  [hostOps0, hostOps0_1, hostOps0_2, hostOps0_3, hostOps0_4, hostOps0_5, hostOps0_6, hostOps0_7, hostOps0_8, hostOps0_9,
    hostOps0_10, hostOps0_11]

/-- Core `c`'s buffer contents when the region is entered: the launch contents after the host operations before it. -/
abbrev V0 (c : Dev nD) : Valuation τ sig (Elt F) := StableHlo.after (List.flatten preOps) (fun b => m (c, b))
/-- The same read at a TensorCore reference. -/
abbrev V (c : Dev nD) (b : Ref sig .tc) : Buf (Elt F) ((c : Thread nD τ).loc b) := V0 m c (Proc.devRef .tc b)

theorem preOps_sub : (preOps (F := F)).Forall fun ops => ops.Forall fun op => op.bufs ⊆ StableHlo.tcRefs τ sig := by
  simp only [List.Forall]
  exact ⟨hostOps0_sub, hostOps0_1_sub, hostOps0_2_sub, hostOps0_3_sub, hostOps0_4_sub, hostOps0_5_sub, hostOps0_6_sub,
    hostOps0_7_sub, hostOps0_8_sub, hostOps0_9_sub, hostOps0_10_sub, hostOps0_11_sub⟩

theorem preOps_fresh : (preOps (F := F)).Forall fun ops => ops.Forall fun op => op.fresh = ∅ := by
  simp only [List.Forall]; repeat' constructor

theorem hostOps1_fresh : (hostOps1 : List (HloOp τ sig (Elt F))).Forall fun op => op.fresh = ∅ := by
  simp only [List.Forall]; repeat' constructor

/-- @main is the host operations before the region, the region, and the host operations after it: it reduces to the
    region continued by the later operations, entered at `V`. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain [StableHlo.seq hostOps1]) :=
  Pipeline.hmainP_around pcfgs 0 defs₀ 𝒱₀ m main preOps [hostOps1] preOps_sub preOps_fresh main_chain

/-! ## The operations after the region -/

/-- They touch TensorCore references only, and none is the table the kernel reads. -/
theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  subst hops
  refine Pipeline.sub_tailRefs pre0 spec0 op ((List.forall_iff_forall_mem.mp hostOps1_sub) op hop) ?_
  simp only [hostOps1, List.mem_cons, List.mem_nil_iff, or_false] at hop
  intro k
  obtain rfl : k = 0 := Subsingleton.elim _ _
  rcases hop with rfl | rfl | rfl | rfl | rfl | rfl | rfl | rfl | rfl | rfl | rfl | rfl | rfl | rfl | rfl | rfl | rfl | rfl
  all_goals
    simp only [StableHlo.nullary, StableHlo.unary, StableHlo.binary, StableHlo.ternary, Finset.mem_insert, Finset.mem_singleton, not_or]
    repeat' apply And.intro
  all_goals exact StableHlo.devRef_ne_of_ne (by decide)

/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- And each writes only its own result buffer, which is no array of the region. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  subst hops
  simp only [hostOps1, List.mem_cons, List.mem_nil_iff, or_false] at hop
  rcases hop with rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-! ## The block-type table, read off the contents at the region's entry -/

/-- The table's contents when the region is entered (one device: device 0's). -/
def tbl : pre0.Contents (Elt F) := fun j => V m (0 : Dev nD) (pre0.ref j)
/-- On every device the table holds those contents. -/
theorem V_pre (c : Dev nD) (j : Fin 1) : V m c (pre0.ref j) = tbl m j := by
  obtain rfl : c = 0 := Subsingleton.elim _ _; rfl
/-- The table's contents as admissible contents (the pipeline asks nothing of them: no index map reads the table), and
    the pipeline at them. -/
abbrev adm : (pcfg0 (F := F)).Adm := ⟨tbl m, trivial⟩
abbrev cfgM : Pipeline.Cfg sig Λ₀ := cfg0 (adm m)

/-- The table as the body is handed it: its whole buffer as a memref. -/
abbrev tbM : Memref sig .tc .smem S38 .i32 := Memref.whole main_v44
abbrev htbM : tbM.IsWhole := Memref.isWhole_whole _

/-- The table memref's buffer on core `c`, and it held at half the full share (the pipeline keeps the other half). -/
abbrev TbBuf (c : Dev nD) : Type := Buf (Elt F) (tbM.view.loc (c : Thread nD τ))
abbrev tbPt (c : Dev nD) (f : TbBuf (F := F) c) : sProp 𝕄 :=
  tbM.view.loc (c : Thread nD τ) ↦{fullShare.right} f

/-- The table's half the region hands the body. -/
theorem PhiT_eq (c : Dev nD) : (Pipeline.ΦT pre0 (tbl m) c : sProp 𝕄) = tbPt c (tbl m 0) := by
  unfold Pipeline.ΦT Pipeline.prefHeld
  rw [show (Finset.univ : Finset (Fin 1)) = {(0 : Fin 1)} from by decide, bigSep_singleton]
  rfl

/-- The table's word the body reads at grid point `i`: block `i`'s type. -/
abbrev wordAt (c : Dev nD) (xt : TbBuf (F := F) c) (i : grid0.Coords) : Elt F .i32 :=
  tbM.view.readAt (Elt F) (Rect.unit (s := S38) (k0_off1 i) S1.size (k0_off1_inb i)).toLoadRect xt (Shape.Idx.first (numel1_S1.symm ▸ Nat.one_pos))

/-! ## The windows' blocks and the staging memrefs -/

/-- Window `w`'s block at point `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- Each window's current staging memref at point `t`, as the pipeline passes it, and its wholeness. -/
abbrev ms0 (t : Fin (cfgM m).N) : Memref sig .tc .vmem S512x128 .bf16 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S512x2048 .bf16 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S4x2048 .f32 := spec0_2.stage ((cfgM m).slots t 2)
abbrev hs2 (t : Fin (cfgM m).N) : (ms2 m t).IsWhole := hstage0_2 (((cfgM m).slots t 2).cast nbuf0_2)
abbrev ms3 (t : Fin (cfgM m).N) : Memref sig .tc .vmem S8192x1024 .bf16 := spec0_3.stage ((cfgM m).slots t 3)
abbrev hs3 (t : Fin (cfgM m).N) : (ms3 m t).IsWhole := hstage0_3 (((cfgM m).slots t 3).cast nbuf0_3)
abbrev ms4 (t : Fin (cfgM m).N) : Memref sig .tc .vmem S4x1024 .f32 := spec0_4.stage ((cfgM m).slots t 4)
abbrev hs4 (t : Fin (cfgM m).N) : (ms4 m t).IsWhole := hstage0_4 (((cfgM m).slots t 4).cast nbuf0_4)
abbrev ms5 (t : Fin (cfgM m).N) : Memref sig .tc .vmem S2x1024 .f32 := spec0_5.stage ((cfgM m).slots t 5)
abbrev hs5 (t : Fin (cfgM m).N) : (ms5 m t).IsWhole := hstage0_5 (((cfgM m).slots t 5).cast nbuf0_5)
abbrev ms6 (t : Fin (cfgM m).N) : Memref sig .tc .vmem S512x1024 .f32 := spec0_6.stage ((cfgM m).slots t 6)
abbrev hs6 (t : Fin (cfgM m).N) : (ms6 m t).IsWhole := hstage0_6 (((cfgM m).slots t 6).cast nbuf0_6)

/-- The kernel body at point `t`, on what the pipeline calls it with. -/
abbrev bodyAt (t : Fin (cfgM m).N) : Prog (TpuEff nD τ sig (Elt F) Λ₀ .tc) PUnit :=
  cc0__encode_routed_kernel (grid0.coords t) tbM htbM (ms0 m t) (hs0 m t) (ms1 m t) (hs1 m t) (ms2 m t) (hs2 m t) (ms3 m t) (hs3 m t)
    (ms4 m t) (hs4 m t) (ms5 m t) (hs5 m t) (ms6 m t) (hs6 m t)

/-- The output window is written back at every point. -/
theorem flush6 : ∀ t : Fin (cfgM m).N, ((cfgM m).win 6).flush t = true :=
  (by decide +kernel : ∀ t : Fin grid0.N, Pipeline.Window.flushOf grid0 true cc0_transform_6 t = true)

/-- An input window's current staging buffer holds its block at every point, fetched there or not, for any proof data
    whose array is `V`'s and whose body leaves the block in place. -/
theorem before_in_of {c : Dev nD} (dat : Dat τ (Elt F) Unit ℕ (UR sig nD τ) ℕ (cfgM m) c) (w : Fin (cfgM m).W)
    (hw : ((cfgM m).win w).isOut = false) (hlive : ∀ i, (cfgM m).idle w i = false)
    (hclip : ∀ t t' : Fin (cfgM m).N, ((cfgM m).win w).index t = ((cfgM m).win w).index t' →
      ((cfgM m).win w).clip ((cfgM m).grid.coords t) = ((cfgM m).win w).clip ((cfgM m).grid.coords t'))
    (hA : dat.A w = V m c (Pipeline.arrRef spec0 w))
    (hkeep : ∀ t, ((cfgM m).win w).cut ((cfgM m).grid.coords t) (dat.after w t) = dat.blockOf w t)
    (t : Fin (cfgM m).N) (d) : dat.before w t d = dat.fetched w t d :=
  dat.before_in_eq_fetched w hw hlive hclip hkeep t d

end Cert.KernelIdeal.Hand

end
-- ==== Proof.KI_RunA.lean ====
/-
  The routed encoder's kernel body, first of its three cases: the block's type word is below 4 (an expert block).

  At a grid point the body reads ONE word w of the block-type table, and then exactly one of three things happens,
  according to w: for w < 4 the block of 512 rows goes through expert w's two dense layers (the rows of the stacked
  weight and bias arrays that belong to expert w are cut out at offsets 128·w, w, 2048·w, w) and the result is stored
  over the whole output block; for w = 4 and w = 5 the block is filled with row 0, respectively row 1, of a 2-row
  table. The three conditions are comparisons of one 32-bit word with constants, so at most one holds; that one of
  them holds is a fact about the table which @main's clipping establishes, taken here as a hypothesis (`Hyps`).

  This module states that hypothesis, proves that the conditions exclude one another, and runs the body in the case
  w < 4: from the six input blocks held whole, the output block's buffer at anything, and the table's half, to the
  same with the output buffer holding the one store's piece.
-/
import proofs.«410392_j25512105739026_3_alg».proof.Proof.KI_Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The facts about the table's words the body needs -/

/-- At every grid point the word the body reads satisfies the side condition the body assumes of it (the offsets it
    computes from the word stay inside the stacked arrays), and is of one of the three kinds. -/
def Hyps (m : (ℓ : Loc nD τ sig) → Buf (Elt F) ℓ) : Prop :=
  ∀ (c : Dev nD) (t : Fin (cfgM m).N),
    k0_chk1 (wordAt c (tbl m 0) (grid0.coords t))
    ∧ (k0_cond1 (wordAt c (tbl m 0) (grid0.coords t)) = 1#1
      ∨ k0_cond2 (wordAt c (tbl m 0) (grid0.coords t)) = 1#1
      ∨ k0_cond3 (wordAt c (tbl m 0) (grid0.coords t)) = 1#1)

/-! ## The three conditions, and that they exclude one another -/

/-- The second condition says the word is 4. -/
theorem cond2_iff (w : BitVec 32) : k0_cond2 w = 1#1 ↔ w = 4#32 := by
  show BitVec.ofBool (BitVec.setWidth 32 (BitVec.ofBool (w == 4#32)) != 0#32) = 1#1 ↔ w = 4#32
  by_cases h : w = 4#32
  · subst h; decide
  · rw [beq_eq_false_iff_ne.mpr h]
    exact ⟨fun h' => absurd h' (by decide), fun h' => absurd h' h⟩

/-- The third condition says the word is 5. -/
theorem cond3_iff (w : BitVec 32) : k0_cond3 w = 1#1 ↔ w = 5#32 := by
  show BitVec.ofBool (BitVec.setWidth 32 (BitVec.ofBool (w == 5#32)) != 0#32) = 1#1 ↔ w = 5#32
  by_cases h : w = 5#32
  · subst h; decide
  · rw [beq_eq_false_iff_ne.mpr h]
    exact ⟨fun h' => absurd h' (by decide), fun h' => absurd h' h⟩

/-- 4 and 5 are not below 4 (signed), and differ: no word satisfies two of the conditions. -/
theorem not_cond2_of_cond1 (w : BitVec 32) (h : k0_cond1 w = 1#1) : ¬ k0_cond2 w = 1#1 := by
  rw [cond2_iff]; rintro rfl; revert h; decide
theorem not_cond3_of_cond1 (w : BitVec 32) (h : k0_cond1 w = 1#1) : ¬ k0_cond3 w = 1#1 := by
  rw [cond3_iff]; rintro rfl; revert h; decide
theorem not_cond1_of_cond2 (w : BitVec 32) (h : k0_cond2 w = 1#1) : ¬ k0_cond1 w = 1#1 := by
  rw [cond2_iff] at h; subst h; decide
theorem not_cond3_of_cond2 (w : BitVec 32) (h : k0_cond2 w = 1#1) : ¬ k0_cond3 w = 1#1 := by
  rw [cond2_iff] at h; subst h; decide
theorem not_cond1_of_cond3 (w : BitVec 32) (h : k0_cond3 w = 1#1) : ¬ k0_cond1 w = 1#1 := by
  rw [cond3_iff] at h; subst h; decide
theorem not_cond2_of_cond3 (w : BitVec 32) (h : k0_cond3 w = 1#1) : ¬ k0_cond2 w = 1#1 := by
  rw [cond3_iff] at h; subst h; decide

/-! ## The body's run when the word is below 4 -/

set_option maxHeartbeats 1000000 in
/-- The pieces the output block's buffer ends with, and that the body runs to the continuation holding them: the word
    read is `wordAt c xt i`; the side condition is `hw`; the first conditional is entered by `h1` and the other
    two are skipped by `h2`, `h3`; the four slices and the row block are read from buffers nothing has stored to. -/
noncomputable def bodyRunA (c : Dev nD) (i : grid0.Coords)
    (a0 : Memref sig .tc .vmem S512x128 .bf16) (ha0 : a0.IsWhole) (a1 : Memref sig .tc .vmem S512x2048 .bf16) (ha1 : a1.IsWhole)
    (a2 : Memref sig .tc .vmem S4x2048 .f32) (ha2 : a2.IsWhole) (a3 : Memref sig .tc .vmem S8192x1024 .bf16) (ha3 : a3.IsWhole)
    (a4 : Memref sig .tc .vmem S4x1024 .f32) (ha4 : a4.IsWhole) (a5 : Memref sig .tc .vmem S2x1024 .f32) (ha5 : a5.IsWhole)
    (a6 : Memref sig .tc .vmem S512x1024 .f32) (ha6 : a6.IsWhole)
    (x0 : Vec F S512x128 .bf16) (x1 : Vec F S512x2048 .bf16) (x2 : Vec F S4x2048 .f32) (x3 : Vec F S8192x1024 .bf16)
    (x4 : Vec F S4x1024 .f32) (x5 : Vec F S2x1024 .f32) (xt : TbBuf (F := F) c)
    (hw : k0_chk1 (wordAt c xt i)) (h1 : k0_cond1 (wordAt c xt i) = 1#1)
    (h2 : ¬ k0_cond2 (wordAt c xt i) = 1#1) (h3 : ¬ k0_cond3 (wordAt c xt i) = 1#1) :
    { L : List (View.Piece (Elt F) S512x1024 .f32) //
      ∀ (E : Set ℕ) (K : PUnit → sProp 𝕄),
        iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4 ∗ owns (c : Thread nD τ) a5 fullShare x5
            ∗ (∃ d, owns (c : Thread nD τ) a6 fullShare d) ∗ tbPt c xt
            ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4 ∗ owns (c : Thread nD τ) a5 fullShare x5
                ∗ (∃ f, a6.view.loc (c : Thread nD τ) ↦[a6.view.set]{fullShare} a6.view.writes (Elt F) f L) ∗ tbPt c xt) -∗ K ⟨⟩))
          ⊢ wp frame (wpE (defs₀ (F := F)) Variants.none c none) E
              (cc0__encode_routed_kernel i tbM htbM a0 ha0 a1 ha1 a2 ha2 a3 ha3 a4 ha4 a5 ha5 a6 ha6) K } := by
  refine ⟨?_, fun E K => ?run⟩
  case run =>
    simp only [cc0__encode_routed_kernel_eq_skeleton]; unfold cc0__encode_routed_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, HT, Hk⟩
    obtain rfl := ha0.eq_unread hf0; obtain rfl := ha1.eq_unread hf1; obtain rfl := ha2.eq_unread hf2
    obtain rfl := ha3.eq_unread hf3; obtain rfl := ha4.eq_unread hf4; obtain rfl := ha5.eq_unread hf5
    sl_exec (disch := first | sl_exact hw | sl_exact h1 | sl_exact h2 | sl_exact h3)
    sl_step
    iapply Hk
    isplitl [H0]
    · iexists _; isplitr; · ipureintro; exact ha0.read_unread _
      iexact H0
    isplitl [H1]
    · iexists _; isplitr; · ipureintro; exact ha1.read_unread _
      iexact H1
    isplitl [H2]
    · iexists _; isplitr; · ipureintro; exact ha2.read_unread _
      iexact H2
    isplitl [H3]
    · iexists _; isplitr; · ipureintro; exact ha3.read_unread _
      iexact H3
    isplitl [H4]
    · iexists _; isplitr; · ipureintro; exact ha4.read_unread _
      iexact H4
    isplitl [H5]
    · iexists _; isplitr; · ipureintro; exact ha5.read_unread _
      iexact H5
    isplitl [H6]; · iexists _; iexact H6
    iexact HT

end Cert.KernelIdeal.Hand

end
-- ==== Proof.KI_StageDefs.lean ====
/-
  The tensors @main computes around its kernel region, as functions of what they are computed from.

  Before the region @main turns the type ids into a stable row order, the sorted ids, the number of rows of each of the
  six types, the number of 512-row blocks each type is given, the running totals of blocks and of rows, the shift that
  moves a sorted row into its type's padded range, every sorted row's destination, the type of each of the 38 blocks, the
  padded bf16 activations, and the two bf16 weight tables flattened over the type axis.  After the region the padded
  result is read back at the destinations and then through the row order.  Each definition below is the composition, in
  program order, of the functions of the operations that compute the tensor, over the shape facts they cite.
-/
import proofs.«410392_j25512105739026_3_alg».proof.KernelIdeal

noncomputable section

namespace Cert.KernelIdeal.Hand

open Cert.KernelIdeal
open Idealize.ShloMosaic
open Facts₀

variable {F : FTy → Type} [FloatOps F] [Facts₀]

/-! ## Row indices -/

/-- A row index counted from the end where it is negative: v + n where v < 0, and v elsewhere. -/
def wrapNeg (n : BitVec 32) (v : IVec S16384 32) : IVec S16384 32 :=
  select (cmpi .slt v (broadcastInDim S16384 ![] bcast_S_S16384 (constantI S_ 32 0#32)))
    (addi v (broadcastInDim S16384 ![] bcast_S_S16384 (constantI S_ 32 n))) v

/-- A vector of row indices as the one-column index table a row gather or scatter takes. -/
def rowIdx (v : IVec S16384 32) : IVec S16384x1 32 :=
  broadcastInDim S16384x1 ![0] bcast_S16384_S16384x1_0 v

/-! ## The order and the sorted ids -/

/-- The row order: the positions 0 … 16383 carried along a stable sort of the type ids by signed less-than. -/
def ordOf (mask : IVec S16384 32) : IVec S16384 32 :=
  (Host.sort2 S16384 0 comparator_i32_i32_d0 mask (iotaInDim S16384 32 0)).2

/-- The type ids read through the order. -/
def smaskOf (mask ord : IVec S16384 32) : IVec S16384 32 :=
  Host.gather gather_S16384_S16384x1_S16384_n_0_n_n_0_1_1 mask (rowIdx (wrapNeg 16384#32 ord))

/-! ## Rows and blocks per type -/

/-- The sorted ids against the six type numbers: 1 at (p, g) where row p has type g, else 0. -/
def oneHotOf (smask : IVec S16384 32) : IVec S16384x6 32 :=
  extui 32
    (cmpi .eq
      (broadcastInDim S16384x6 ![0, 1] bcast_S16384x1_S16384x6_0_1 (rowIdx smask))
      (broadcastInDim S16384x6 ![0, 1] bcast_S1x6_S16384x6_0_1
        (broadcastInDim S1x6 ![1] bcast_S6_S1x6_1 (iotaInDim S6 32 0))))
    natLt_1_32

/-- How many rows carry each type: the one-hot table summed over the rows. -/
def countsOf (smask : IVec S16384 32) : IVec S6 32 :=
  Host.reduce IntOp.addi (oneHotOf smask) (constantI S_ 32 0#32) reducesTo_S16384x6_S6_d0 h_S_

/-- Division rounding toward minus infinity of six words by one scalar word: the truncating quotient, less one where
    the signs differ and the remainder is not zero. -/
def floorDiv6 (a : IVec S6 32) (d : IVec S_ 32) : IVec S6 32 :=
  select
    (andi
      (cmpi .ne (signi a) (broadcastInDim S6 ![] bcast_S_S6 (signi d)))
      (cmpi .ne (Host.remsi a (broadcastInDim S6 ![] bcast_S_S6 d))
        (broadcastInDim S6 ![] bcast_S_S6 (constantI S_ 32 0#32))))
    (subi (Host.divsi a (broadcastInDim S6 ![] bcast_S_S6 d)) (broadcastInDim S6 ![] bcast_S_S6 (constantI S_ 32 1#32)))
    (Host.divsi a (broadcastInDim S6 ![] bcast_S_S6 d))

/-- The blocks of 512 rows each type is given: (count + 512 - 1) floor-divided by 512. -/
def bpgOf (counts : IVec S6 32) : IVec S6 32 :=
  floorDiv6
    (subi (addi counts (broadcastInDim S6 ![] bcast_S_S6 (constantI S_ 32 512#32)))
      (broadcastInDim S6 ![] bcast_S_S6 (constantI S_ 32 1#32)))
    (constantI S_ 32 512#32)

/-- Running totals of six words: entry g is the sum of entries 0 … g (a window of six ending at g, padded with
    zeros in front). -/
def cumsum6 (v : IVec S6 32) : IVec S6 32 :=
  Host.reduceWindow IntOp.addi ![6] ![1] ![5] ![0] v
    (broadcastInDim S_ ![] bcast_S_S_ (constantI S_ 32 0#32)) reduceWindows_S6_S6_w6s1p5_0 h_S_

/-- Six words with a zero word put in front. -/
def lead0 (v : IVec S6 32) : IVec S7 32 :=
  concatenate S7 0 [⟨S1, broadcastInDim S1 ![] bcast_S_S1 (constantI S_ 32 0#32)⟩, ⟨S6, v⟩] concatenates_S1_S6_S7_d0

/-! ## Destinations -/

/-- The shift of each type: its first padded row, 512 times the blocks before it, less its first sorted position (the
    rows before it), both read off the running totals with the zero in front. -/
def padOf (cb7 gsp7 : IVec S7 32) : IVec S6 32 :=
  subi
    (muli (extractStridedSlice S6 ![0] cb7 slices_S7_S6_0) (broadcastInDim S6 ![] bcast_S_S6 (constantI S_ 32 512#32)))
    (extractStridedSlice S6 ![0] gsp7 slices_S7_S6_0)

/-- The sorted ids as the index table of the lookup in the six shifts (negative ids counted from the end). -/
def takeIdx (smask : IVec S16384 32) : IVec S16384x1 32 :=
  rowIdx (wrapNeg 6#32 smask)

/-- Where the lookup's index is inside the table: 0 ≤ index ≤ 5, the conjunction taken along the one column. -/
def takeOk (smask : IVec S16384 32) : IVec S16384 1 :=
  Host.reduce IntOp.andi
    (andi
      (cmpi .sge (takeIdx smask) (broadcastInDim S16384x1 ![] bcast_S_S16384x1 (constantI S_ 32 0#32)))
      (cmpi .sle (takeIdx smask)
        (broadcastInDim S16384x1 ![0, 1] bcast_S1x1_S16384x1_0_1
          (broadcastInDim S1x1 ![1] bcast_S1_S1x1_1 (constantI S1 32 5#32)))))
    (constantI S_ 1 1#1) reducesTo_S16384x1_S16384_d1 h_S_

/-- Every sorted row's shift: its type's, and the least signed word where the id is outside the table. -/
def shiftOf (pad : IVec S6 32) (smask : IVec S16384 32) : IVec S16384 32 :=
  select (takeOk smask)
    (Host.gather gather_S6_S16384x1_S16384_n_0_n_n_0_1_1 pad (takeIdx smask))
    (broadcastInDim S16384 ![] bcast_S_S16384 (constantI S_ 32 2147483648#32))

/-- Every sorted row's destination in the padded layout: its position plus its shift. -/
def destOf (pad : IVec S6 32) (smask : IVec S16384 32) : IVec S16384 32 :=
  addi (iotaInDim S16384 32 0) (shiftOf pad smask)

/-! ## The type of each block -/

/-- How many of the six running block totals block b has reached: the comparisons b ≥ total summed over the types. -/
def reachedOf (cb7 : IVec S7 32) : IVec S38 32 :=
  Host.reduce IntOp.addi
    (extui 32
      (cmpi .sge
        (broadcastInDim S38x6 ![0, 1] bcast_S38x1_S38x6_0_1 (broadcastInDim S38x1 ![0] bcast_S38_S38x1_0 (iotaInDim S38 32 0)))
        (broadcastInDim S38x6 ![0, 1] bcast_S1x6_S38x6_0_1
          (broadcastInDim S1x6 ![1] bcast_S6_S1x6_1 (extractStridedSlice S6 ![1] cb7 slices_S7_S6_1))))
      natLt_1_32)
    (constantI S_ 32 0#32) reducesTo_S38x6_S38_d1 h_S_

/-- The type of each of the 38 blocks: the number of types whose block range has ended by it, kept within 0 … 5. -/
def btypeOf (cb7 : IVec S7 32) : IVec S38 32 :=
  minsi (broadcastInDim S38 ![] bcast_S_S38 (constantI S_ 32 5#32))
    (maxsi (broadcastInDim S38 ![] bcast_S_S38 (constantI S_ 32 0#32)) (reachedOf cb7))

/-! ## The padded activations and the weight tables -/

/-- The activations rounded to bf16, read through the order, and written at the destinations into a zero table of
    19456 rows. -/
def pxOf (x : FVec F S16384x128 .f32) (ord dest : IVec S16384 32) : FVec F S19456x128 .bf16 :=
  Host.scatter scatter_S19456x128_S16384x1_S16384x128_1_0_0_1 (fun _ b => b)
    (broadcastInDim S19456x128 ![] bcast_S_S19456x128 (constant S_ .bf16 0x0000#16))
    (rowIdx (wrapNeg 19456#32 dest))
    (Host.gather gather_S16384x128_S16384x1_S16384x128_1_0_n_n_0_1_1128 (truncf .bf16 x bitsLt_bf16_f32)
      (rowIdx (wrapNeg 16384#32 ord)))

/-- The first weight table rounded to bf16, its type axis folded into its rows. -/
def w1fOf (W1 : FVec F S4x128x2048 .f32) : FVec F S512x2048 .bf16 :=
  shapeCast S512x2048 (truncf .bf16 W1 bitsLt_bf16_f32) shapeCasts_S4x128x2048_S512x2048

/-- The second weight table rounded to bf16, its type axis folded into its rows. -/
def w2fOf (W2 : FVec F S4x2048x1024 .f32) : FVec F S8192x1024 .bf16 :=
  shapeCast S8192x1024 (truncf .bf16 W2 bitsLt_bf16_f32) shapeCasts_S4x2048x1024_S8192x1024

/-! ## After the region -/

/-- The padded result read back at the destinations, and that read through the order. -/
def gatherOut (arr : FVec F S19456x1024 .f32) (ord dest : IVec S16384 32) : FVec F S16384x1024 .f32 :=
  Host.gather gather_S16384x1024_S16384x1_S16384x1024_1_0_n_n_0_1_11024
    (Host.gather gather_S19456x1024_S16384x1_S16384x1024_1_0_n_n_0_1_11024 arr (rowIdx (wrapNeg 19456#32 dest)))
    (rowIdx (wrapNeg 16384#32 ord))

end Cert.KernelIdeal.Hand

end
-- ==== Proof.KI_Stages.lean ====
/-
  What @main's host operations compute, read off the program.

  The contents a buffer holds when the region is entered are the fold of the host operations before the region over the
  launch contents.  Read at the buffers the region's windows and its block-type table take, and at the two index vectors
  the operations after the region use, that fold is the composition of the operations' functions named in the
  definitions of the stages: the row order, the destinations, the block types, the padded activations and the two
  flattened weight tables, each a function of the launch's arguments alone; the three arguments the region reads
  directly are untouched.  After the region, whatever the region's proof data are, the program's result is the output
  array they end with, read back at the destinations and then through the row order.
-/
import proofs.«410392_j25512105739026_3_alg».proof.Proof.KI_StageDefs
import proofs.«410392_j25512105739026_3_alg».proof.Proof.KI_Kit
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

variable (m : (ℓ : Loc nD τ sig) → Buf (Elt F) ℓ)

/-! ## Reading a buffer off the host operations before the region -/

/-- A one-word vector put in front of a six-word vector. -/
def cat17 (a : IVec S1 32) (b : IVec S6 32) : IVec S7 32 :=
  concatenate S7 0 [⟨S1, a⟩, ⟨S6, b⟩] concatenates_S1_S6_S7_d0

/-- The concatenation of a one-word and a six-word vector, whatever evidence of the shapes it is stated with. -/
theorem cat17_eq (a : IVec S1 32) (b : IVec S6 32) (h) : concatenate S7 0 [⟨S1, a⟩, ⟨S6, b⟩] h = cat17 a b := rfl

/-- The zero word in front is the concatenation with the broadcast zero. -/
theorem lead0_eq (v : IVec S6 32) : lead0 v = cat17 (broadcastInDim S1 ![] bcast_S_S1 (constantI S_ 32 0#32)) v := rfl

/-- Unfolds the contents at the region's entry to the fold over the literal list of host operations, then rewrites every
    operation's result at its own buffer to its function's value and elsewhere to what was there, in one pass; a
    concatenation is first folded to a function of its two operands, so that the pass reaches them. -/
local macro "host_values" : tactic =>
  `(tactic| (
    dsimp only [V, V0]
    simp only [preOps, hostOps0, hostOps0_1, hostOps0_2, hostOps0_3, hostOps0_4, hostOps0_5, hostOps0_6, hostOps0_7, hostOps0_8,
      hostOps0_9, hostOps0_10, hostOps0_11, List.flatten_cons, List.flatten_nil, List.append_nil, List.cons_append,
      List.nil_append]
    simp (disch := decide) only [StableHlo.after_cons, StableHlo.after_nil, ↓ cat17_eq,
      StableHlo.nullary_result', StableHlo.unary_result', StableHlo.binary_result', StableHlo.ternary_result',
      StableHlo.reshape_result', StableHlo.nullary_result_ne', StableHlo.unary_result_ne', StableHlo.binary_result_ne',
      StableHlo.ternary_result_ne', StableHlo.reshape_result_ne']
    try simp only [StableHlo.TRef.ofBuf, StableHlo.TRef.toBuf, cast_eq]))

set_option maxHeartbeats 4000000 in
/-- The row order is the stable argsort of the launch's type ids. -/
theorem V_ord (c : Dev nD) : V m c main_v0 = ordOf (m ((c : Thread nD τ).loc main_arg1)) := by
  host_values
  rfl

set_option maxHeartbeats 4000000 in
/-- The destinations are computed from the type ids alone. -/
theorem V_dest (c : Dev nD) : V m c main_v34 =
    destOf
      (padOf
        (lead0 (cumsum6 (bpgOf (countsOf (smaskOf (m ((c : Thread nD τ).loc main_arg1)) (ordOf (m ((c : Thread nD τ).loc main_arg1))))))))
        (lead0 (cumsum6 (countsOf (smaskOf (m ((c : Thread nD τ).loc main_arg1)) (ordOf (m ((c : Thread nD τ).loc main_arg1))))))))
      (smaskOf (m ((c : Thread nD τ).loc main_arg1)) (ordOf (m ((c : Thread nD τ).loc main_arg1)))) := by
  host_values
  simp only [lead0_eq]
  rfl

set_option maxHeartbeats 4000000 in
/-- The block types are computed from the running totals of blocks. -/
theorem V_btype (c : Dev nD) : V m c main_v44 =
    btypeOf
      (lead0 (cumsum6 (bpgOf (countsOf (smaskOf (m ((c : Thread nD τ).loc main_arg1)) (ordOf (m ((c : Thread nD τ).loc main_arg1)))))))) := by
  host_values
  simp only [lead0_eq]
  rfl

set_option maxHeartbeats 4000000 in
/-- The padded activations are the launch's activations scattered along the order to the destinations. -/
theorem V_px (c : Dev nD) : V m c main_v60 =
    pxOf (m ((c : Thread nD τ).loc main_arg0)) (ordOf (m ((c : Thread nD τ).loc main_arg1)))
      (destOf
        (padOf
          (lead0 (cumsum6 (bpgOf (countsOf (smaskOf (m ((c : Thread nD τ).loc main_arg1)) (ordOf (m ((c : Thread nD τ).loc main_arg1))))))))
          (lead0 (cumsum6 (countsOf (smaskOf (m ((c : Thread nD τ).loc main_arg1)) (ordOf (m ((c : Thread nD τ).loc main_arg1))))))))
        (smaskOf (m ((c : Thread nD τ).loc main_arg1)) (ordOf (m ((c : Thread nD τ).loc main_arg1))))) := by
  host_values
  simp only [lead0_eq]
  rfl

set_option maxHeartbeats 4000000 in
/-- The first weight window's array is the launch's first weight table, rounded and flattened. -/
theorem V_w1f (c : Dev nD) : V m c main_v62 = w1fOf (m ((c : Thread nD τ).loc main_arg2)) := by
  host_values
  rfl

set_option maxHeartbeats 4000000 in
/-- The second weight window's array is the launch's second weight table, rounded and flattened. -/
theorem V_w2f (c : Dev nD) : V m c main_v64 = w2fOf (m ((c : Thread nD τ).loc main_arg4)) := by
  host_values
  rfl

set_option maxHeartbeats 4000000 in
/-- No host operation writes the first layer's bias table: the region finds the launch's. -/
theorem V_arg3 (c : Dev nD) : V m c main_arg3 = m ((c : Thread nD τ).loc main_arg3) := by
  host_values

set_option maxHeartbeats 4000000 in
/-- No host operation writes the second layer's bias table: the region finds the launch's. -/
theorem V_arg5 (c : Dev nD) : V m c main_arg5 = m ((c : Thread nD τ).loc main_arg5) := by
  host_values

set_option maxHeartbeats 4000000 in
/-- No host operation writes the table of the two embedding rows (the rows of the two types that have no layers): the
    region finds the launch's. -/
theorem V_arg6 (c : Dev nD) : V m c main_arg6 = m ((c : Thread nD τ).loc main_arg6) := by
  host_values

/-! ## The host operations after the region -/

set_option maxHeartbeats 4000000 in
/-- The program's result: the region's output array read back at the destinations, and that read through the row order,
    for any proof data of the region. -/
theorem tail_result
    (dats : (p : Fin 1) → (c : Dev nD) → Pipeline.Dat τ (Elt F) Unit ℕ (UR sig nD τ) ℕ (Pipeline.pin pcfgs (fun _ => adm m) p) c)
    (c : Dev nD) :
    Pipeline.afterTail pcfgs (fun _ => adm m) dats 0 (V0 m) [hostOps1] c main_v79 =
      gatherOut ((dats 0 c).arrAt 6 (cfgM m).N) (ordOf (m ((c : Thread nD τ).loc main_arg1)))
        (destOf
          (padOf
            (lead0 (cumsum6 (bpgOf (countsOf (smaskOf (m ((c : Thread nD τ).loc main_arg1)) (ordOf (m ((c : Thread nD τ).loc main_arg1))))))))
            (lead0 (cumsum6 (countsOf (smaskOf (m ((c : Thread nD τ).loc main_arg1)) (ordOf (m ((c : Thread nD τ).loc main_arg1))))))))
          (smaskOf (m ((c : Thread nD τ).loc main_arg1)) (ordOf (m ((c : Thread nD τ).loc main_arg1))))) := by
  -- the contents the region leaves: its arrays at the proof data's, every other buffer as it was entered
  obtain ⟨W, hW⟩ : ∃ W, W = Pipeline.withArrays spec0 c (V0 m c) (fun w => (dats 0 c).arrAt w (cfgM m).N) := ⟨_, rfl⟩
  have h65 : W (Proc.devRef .tc main_v65) = (dats 0 c).arrAt 6 (cfgM m).N := by
    rw [hW]; exact Pipeline.withArrays_arr spec0 (launch0 (F := F)).win.arr_inj c _ _ 6
  have h34 : W (Proc.devRef .tc main_v34) = V m c main_v34 := by
    rw [hW]; exact Pipeline.withArrays_of_ne spec0 c _ _ main_v34 (by decide)
  have h0 : W (Proc.devRef .tc main_v0) = V m c main_v0 := by
    rw [hW]; exact Pipeline.withArrays_of_ne spec0 c _ _ main_v0 (by decide)
  show StableHlo.after hostOps1 (Pipeline.withArrays spec0 c (V0 m c) (fun w => (dats 0 c).arrAt w (cfgM m).N))
      (Proc.devRef .tc main_v79) = _
  rw [← hW]
  simp only [hostOps1]
  simp (disch := decide) only [StableHlo.after_cons, StableHlo.after_nil,
    StableHlo.nullary_result', StableHlo.unary_result', StableHlo.binary_result', StableHlo.ternary_result',
    StableHlo.nullary_result_ne', StableHlo.unary_result_ne', StableHlo.binary_result_ne', StableHlo.ternary_result_ne']
  rw [h65, h34, h0, V_dest, V_ord]
  rfl

end Cert.KernelIdeal.Hand

end
-- ==== Proof.KI_Hyps.lean ====
/-
  The kernel's side conditions hold at every grid point, whatever the launch memory.

  At grid point `t` the body reads one word of the block-type table: entry `t`.  Before the region is entered the
  table is clipped entry by entry into [0, 5] (a signed maximum with 0, then a signed minimum with 5), so every entry,
  read signed, lies between 0 and 5 and is one of the six words 0, …, 5.  For each of these six words the side
  condition (the offsets 128·w, w, 2048·w, w computed from a word w below 4 are multiples of what they are said to be
  multiples of, and the slices cut at them stay inside the stacked arrays) and the three-way alternative (w below 4, or
  w = 4, or w = 5) are statements about closed terms, and are decided.
-/
import proofs.«410392_j25512105739026_3_alg».proof.Proof.KI_RunA
import proofs.«410392_j25512105739026_3_alg».proof.Proof.KI_Stages
import Idealize.ShloMosaic.Lib.ValueIdx

set_option maxRecDepth 16384

noncomputable section

namespace Cert.KernelIdeal.Hand

open Cert.KernelIdeal Cert.KernelIdeal.Gen
open Idealize.ShloMosaic Idealize.ShloMosaic.ValueIdx

/-! ## One word -/

/-- A 32-bit word that, read signed, lies between 0 and 5 is one of the six words 0, …, 5: not negative, it reads the
    same unsigned, and a word is determined by its unsigned value. -/
theorem word_cases (w : BitVec 32) (h0 : 0 ≤ w.toInt) (h5 : w.toInt ≤ 5) :
    w = 0#32 ∨ w = 1#32 ∨ w = 2#32 ∨ w = 3#32 ∨ w = 4#32 ∨ w = 5#32 := by
  have small : 2 * w.toNat < 2 ^ 32 := BitVec.toInt_pos_iff.1 h0
  rw [BitVec.toInt_eq_toNat_of_lt small] at h5
  bv_omega

/-- For a word between 0 and 5 the side condition holds and one of the three conditions does: for each of the six
    words both are closed statements. Words 0 to 3 are below 4; 4 and 5 meet the second and the third condition. -/
theorem hyps_of_word (w : BitVec 32) (h0 : 0 ≤ w.toInt) (h5 : w.toInt ≤ 5) :
    k0_chk1 w ∧ (k0_cond1 w = 1#1 ∨ k0_cond2 w = 1#1 ∨ k0_cond3 w = 1#1) := by
  rcases word_cases w h0 h5 with rfl | rfl | rfl | rfl | rfl | rfl
  · exact ⟨by decide, Or.inl (by decide)⟩
  · exact ⟨by decide, Or.inl (by decide)⟩
  · exact ⟨by decide, Or.inl (by decide)⟩
  · exact ⟨by decide, Or.inl (by decide)⟩
  · exact ⟨by decide, Or.inr (Or.inl (by decide))⟩
  · exact ⟨by decide, Or.inr (Or.inr (by decide))⟩

/-- Clipping into [0, 5]: the signed minimum with 5 of the signed maximum with 0 of any word lies, read signed, between
    0 and 5. A negative word goes to 0; a word above 5 goes to 5; any other word is kept, and is neither. -/
theorem clip_range (v : BitVec 32) :
    0 ≤ (IntOp.minsi 5#32 (IntOp.maxsi 0#32 v)).toInt ∧ (IntOp.minsi 5#32 (IntOp.maxsi 0#32 v)).toInt ≤ 5 := by
  have zero : (0#32 : BitVec 32).toInt = 0 := by decide
  have five : (5#32 : BitVec 32).toInt = 5 := by decide
  by_cases neg : v.slt 0#32 = true
  · rw [show IntOp.maxsi 0#32 v = 0#32 from if_pos neg]; decide
  · rw [show IntOp.maxsi 0#32 v = v from if_neg neg]
    rw [BitVec.slt_iff_toInt_lt, zero] at neg
    by_cases big : (5#32 : BitVec 32).slt v = true
    · rw [show IntOp.minsi 5#32 v = 5#32 from if_pos big]; decide
    · rw [show IntOp.minsi 5#32 v = v from if_neg big]
      rw [BitVec.slt_iff_toInt_lt, five] at big
      omega

/-! ## The word read at a grid point -/

variable {F : FTy → Type} [FloatOps F]
variable (m : (ℓ : Loc nD τ sig) → Buf (Elt F) ℓ)

/-- The grid has 38 points. -/
theorem point_lt (t : Fin (cfgM m).N) : t.val < 38 := t.isLt

/-- On the grid's one axis the coordinate of point `t` is `t`. -/
theorem coord_val (t : Fin (cfgM m).N) : (grid0.coords t 0).val = t.val := by
  have h := point_lt m t
  show t.val / grid0.stride 0 % 38 = t.val
  rw [show grid0.stride 0 = 1 from by decide, Nat.div_one, Nat.mod_eq_of_lt h]

/-- The offset of the table read is the grid coordinate: a number below 38 survives the passage through a word. -/
theorem off1_val (i : grid0.Coords) : k0_off1 i 0 = (i 0).val := by
  have h : (i 0).val < 38 := (i 0).isLt
  show (BitVec.ofNat 32 (i 0).val).toNat = (i 0).val
  rw [BitVec.toNat_ofNat]; omega

/-- The word the body reads at point `t` is entry `t` of the table as the region finds it: the table is read through
    its whole buffer, at the one-element rectangle whose offset is the grid coordinate. -/
theorem wordAt_tbl (c : Dev nD) (t : Fin (cfgM m).N) :
    wordAt c (tbl m 0) (grid0.coords t) = (V m c main_v44 : IVec S38 32) (ix1 ⟨t.val, point_lt m t⟩) := by
  obtain rfl : c = 0 := Subsingleton.elim _ _
  show (tbl m 0) _ = (tbl m 0) _
  congr 1
  funext a
  apply Fin.ext
  fin_cases a
  show k0_off1 (grid0.coords t) 0 + 1 * 0 = t.val
  rw [off1_val, coord_val m t, Nat.mul_zero, Nat.add_zero]

/-! ## Every grid point -/

/-- If every entry of the table is a clipped word, the side conditions hold at every grid point. -/
theorem hyps_of_entries
    (hb : ∀ (c : Dev nD) (j : S38.Idx), ∃ v : BitVec 32,
      (V m c main_v44 : IVec S38 32) j = IntOp.minsi 5#32 (IntOp.maxsi 0#32 v)) : Hyps m := by
  intro c t
  obtain ⟨v, hv⟩ := hb c (ix1 ⟨t.val, point_lt m t⟩)
  have e : wordAt c (tbl m 0) (grid0.coords t) = IntOp.minsi 5#32 (IntOp.maxsi 0#32 v) := (wordAt_tbl m c t).trans hv
  have r := clip_range v
  rw [← e] at r
  exact hyps_of_word _ r.1 r.2

/-- The same from the table as an array: the entrywise minimum with the constant 5 of the entrywise maximum with the
    constant 0 of some array. -/
theorem hyps_of_clip
    (hb : ∀ c : Dev nD, ∃ v : IVec S38 32, (V m c main_v44 : IVec S38 32)
      = minsi (broadcastInDim S38 ![] bcast_S_S38 (constantI S_ 32 5#32))
          (maxsi (broadcastInDim S38 ![] bcast_S_S38 (constantI S_ 32 0#32)) v)) : Hyps m :=
  hyps_of_entries m fun c j => by
    obtain ⟨v, hv⟩ := hb c
    exact ⟨v j, congrFun hv j⟩

/-- The side conditions hold at every grid point, for every launch memory: the table the region finds is, by the host
    operations before it, the clip into [0, 5] of the array that counts, for each block, the running block totals it
    has reached. -/
theorem hyps : Hyps m :=
  hyps_of_clip m fun c => ⟨reachedOf _, V_btype m c⟩

end Cert.KernelIdeal.Hand

end
-- ==== Proof.KI_RunB.lean ====
/-
  The routed encoder's kernel body, second case: the block's type word is 4.

  The block belongs to no expert: the body skips the expert branch, reads row 0 of the 2-row table of fill rows,
  repeats it down the 512 rows of the block and stores that over the whole output block; the third conditional
  (word 5) is skipped. Nothing else is stored.
-/
import proofs.«410392_j25512105739026_3_alg».proof.Proof.KI_RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the output block's buffer ends with when the word is 4, and that the body runs to the continuation
    holding them: the first and third conditionals are skipped by `h1`, `h3`, the second entered by `h2`. -/
noncomputable def bodyRunB (c : Dev nD) (i : grid0.Coords)
    (a0 : Memref sig .tc .vmem S512x128 .bf16) (ha0 : a0.IsWhole) (a1 : Memref sig .tc .vmem S512x2048 .bf16) (ha1 : a1.IsWhole)
    (a2 : Memref sig .tc .vmem S4x2048 .f32) (ha2 : a2.IsWhole) (a3 : Memref sig .tc .vmem S8192x1024 .bf16) (ha3 : a3.IsWhole)
    (a4 : Memref sig .tc .vmem S4x1024 .f32) (ha4 : a4.IsWhole) (a5 : Memref sig .tc .vmem S2x1024 .f32) (ha5 : a5.IsWhole)
    (a6 : Memref sig .tc .vmem S512x1024 .f32) (ha6 : a6.IsWhole)
    (x0 : Vec F S512x128 .bf16) (x1 : Vec F S512x2048 .bf16) (x2 : Vec F S4x2048 .f32) (x3 : Vec F S8192x1024 .bf16)
    (x4 : Vec F S4x1024 .f32) (x5 : Vec F S2x1024 .f32) (xt : TbBuf (F := F) c)
    (hw : k0_chk1 (wordAt c xt i)) (h1 : ¬ k0_cond1 (wordAt c xt i) = 1#1)
    (h2 : k0_cond2 (wordAt c xt i) = 1#1) (h3 : ¬ k0_cond3 (wordAt c xt i) = 1#1) :
    { L : List (View.Piece (Elt F) S512x1024 .f32) //
      ∀ (E : Set ℕ) (K : PUnit → sProp 𝕄),
        iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4 ∗ owns (c : Thread nD τ) a5 fullShare x5
            ∗ (∃ d, owns (c : Thread nD τ) a6 fullShare d) ∗ tbPt c xt
            ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4 ∗ owns (c : Thread nD τ) a5 fullShare x5
                ∗ (∃ f, a6.view.loc (c : Thread nD τ) ↦[a6.view.set]{fullShare} a6.view.writes (Elt F) f L) ∗ tbPt c xt) -∗ K ⟨⟩))
          ⊢ wp frame (wpE (defs₀ (F := F)) Variants.none c none) E
              (cc0__encode_routed_kernel i tbM htbM a0 ha0 a1 ha1 a2 ha2 a3 ha3 a4 ha4 a5 ha5 a6 ha6) K } := by
  refine ⟨?_, fun E K => ?run⟩
  case run =>
    simp only [cc0__encode_routed_kernel_eq_skeleton]; unfold cc0__encode_routed_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, HT, Hk⟩
    obtain rfl := ha0.eq_unread hf0; obtain rfl := ha1.eq_unread hf1; obtain rfl := ha2.eq_unread hf2
    obtain rfl := ha3.eq_unread hf3; obtain rfl := ha4.eq_unread hf4; obtain rfl := ha5.eq_unread hf5
    sl_exec (disch := first | sl_exact hw | sl_exact h1 | sl_exact h2 | sl_exact h3)
    sl_step
    iapply Hk
    isplitl [H0]
    · iexists _; isplitr; · ipureintro; exact ha0.read_unread _
      iexact H0
    isplitl [H1]
    · iexists _; isplitr; · ipureintro; exact ha1.read_unread _
      iexact H1
    isplitl [H2]
    · iexists _; isplitr; · ipureintro; exact ha2.read_unread _
      iexact H2
    isplitl [H3]
    · iexists _; isplitr; · ipureintro; exact ha3.read_unread _
      iexact H3
    isplitl [H4]
    · iexists _; isplitr; · ipureintro; exact ha4.read_unread _
      iexact H4
    isplitl [H5]
    · iexists _; isplitr; · ipureintro; exact ha5.read_unread _
      iexact H5
    isplitl [H6]; · iexists _; iexact H6
    iexact HT

end Cert.KernelIdeal.Hand

end
-- ==== Proof.KI_RunC.lean ====
/-
  The routed encoder's kernel body, third case: the block's type word is 5.

  As for the word 4, with row 1 of the table of fill rows: the first two conditionals are skipped, the third reads
  row 1, repeats it down the block and stores it over the whole output block.
-/
import proofs.«410392_j25512105739026_3_alg».proof.Proof.KI_RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the output block's buffer ends with when the word is 5, and that the body runs to the continuation
    holding them: the first two conditionals are skipped by `h1`, `h2`, the third entered by `h3`. -/
noncomputable def bodyRunC (c : Dev nD) (i : grid0.Coords)
    (a0 : Memref sig .tc .vmem S512x128 .bf16) (ha0 : a0.IsWhole) (a1 : Memref sig .tc .vmem S512x2048 .bf16) (ha1 : a1.IsWhole)
    (a2 : Memref sig .tc .vmem S4x2048 .f32) (ha2 : a2.IsWhole) (a3 : Memref sig .tc .vmem S8192x1024 .bf16) (ha3 : a3.IsWhole)
    (a4 : Memref sig .tc .vmem S4x1024 .f32) (ha4 : a4.IsWhole) (a5 : Memref sig .tc .vmem S2x1024 .f32) (ha5 : a5.IsWhole)
    (a6 : Memref sig .tc .vmem S512x1024 .f32) (ha6 : a6.IsWhole)
    (x0 : Vec F S512x128 .bf16) (x1 : Vec F S512x2048 .bf16) (x2 : Vec F S4x2048 .f32) (x3 : Vec F S8192x1024 .bf16)
    (x4 : Vec F S4x1024 .f32) (x5 : Vec F S2x1024 .f32) (xt : TbBuf (F := F) c)
    (hw : k0_chk1 (wordAt c xt i)) (h1 : ¬ k0_cond1 (wordAt c xt i) = 1#1)
    (h2 : ¬ k0_cond2 (wordAt c xt i) = 1#1) (h3 : k0_cond3 (wordAt c xt i) = 1#1) :
    { L : List (View.Piece (Elt F) S512x1024 .f32) //
      ∀ (E : Set ℕ) (K : PUnit → sProp 𝕄),
        iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4 ∗ owns (c : Thread nD τ) a5 fullShare x5
            ∗ (∃ d, owns (c : Thread nD τ) a6 fullShare d) ∗ tbPt c xt
            ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4 ∗ owns (c : Thread nD τ) a5 fullShare x5
                ∗ (∃ f, a6.view.loc (c : Thread nD τ) ↦[a6.view.set]{fullShare} a6.view.writes (Elt F) f L) ∗ tbPt c xt) -∗ K ⟨⟩))
          ⊢ wp frame (wpE (defs₀ (F := F)) Variants.none c none) E
              (cc0__encode_routed_kernel i tbM htbM a0 ha0 a1 ha1 a2 ha2 a3 ha3 a4 ha4 a5 ha5 a6 ha6) K } := by
  refine ⟨?_, fun E K => ?run⟩
  case run =>
    simp only [cc0__encode_routed_kernel_eq_skeleton]; unfold cc0__encode_routed_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, HT, Hk⟩
    obtain rfl := ha0.eq_unread hf0; obtain rfl := ha1.eq_unread hf1; obtain rfl := ha2.eq_unread hf2
    obtain rfl := ha3.eq_unread hf3; obtain rfl := ha4.eq_unread hf4; obtain rfl := ha5.eq_unread hf5
    sl_exec (disch := first | sl_exact hw | sl_exact h1 | sl_exact h2 | sl_exact h3)
    sl_step
    iapply Hk
    isplitl [H0]
    · iexists _; isplitr; · ipureintro; exact ha0.read_unread _
      iexact H0
    isplitl [H1]
    · iexists _; isplitr; · ipureintro; exact ha1.read_unread _
      iexact H1
    isplitl [H2]
    · iexists _; isplitr; · ipureintro; exact ha2.read_unread _
      iexact H2
    isplitl [H3]
    · iexists _; isplitr; · ipureintro; exact ha3.read_unread _
      iexact H3
    isplitl [H4]
    · iexists _; isplitr; · ipureintro; exact ha4.read_unread _
      iexact H4
    isplitl [H5]
    · iexists _; isplitr; · ipureintro; exact ha5.read_unread _
      iexact H5
    isplitl [H6]; · iexists _; iexact H6
    iexact HT

end Cert.KernelIdeal.Hand

end
-- ==== Proof.KI_Frame.lean ====
/-
  The routed encoder's one kernel region: what it leaves, and that @main leaves its arguments alone.

  The region runs the kernel body once per block of 512 padded rows, 38 blocks in all, each point writing its own
  block of the output back. The body's effect at a point depends only on the block's type word w: an expert block
  (w < 4) is the expert's two dense layers applied to the rows, a block of type 4 or 5 is a fill row repeated. This
  module puts the three runs of the body together:

  * the contents of the output block after the body, case by case, as the payload of the body's one store over the
    blocks it read (`outA_eq`, `outB_eq`, `outC_eq`), and at a grid point, by the kind of the point's word
    (`outAt`, `outAt_A`, `outAt_B`, `outAt_C`);
  * the pipeline's proof data (`dats`): inputs keep their blocks, the output's buffer ends at `outAt`;
  * the body obligation at every point, by the three cases, under the hypothesis that every word of the table is of
    one of the three kinds and passes the body's side condition (`Hyps`);
  * the run of @main around the region (`run_main`), and from it the frame: the seven argument arrays end as
    launched, because the three of them the kernel reads directly are inputs of the pipeline and no host operation,
    before or after the region, writes any argument.
-/
import proofs.«410392_j25512105739026_3_alg».proof.Proof.KI_RunC
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body's one store leaves in the output block, case by case -/

/-- One of the output window's two staging buffers. The block's contents after the body are stated as the run's
    pieces read back through it; the pieces cover the block, so which buffer is taken does not matter. -/
abbrev VO : View sig .tc .vmem S512x1024 .f32 := (Memref.whole cc0_stg6_0 : Memref sig .tc .vmem S512x1024 .f32).view

/-- The two zero offsets of a whole-block access. -/
theorem zero2 : (![0, 0] : Fin 2 → Nat) = fun _ => 0 := funext fun a => by fin_cases a <;> rfl

section Cases

variable (c : Dev nD) (i : grid0.Coords)
    (a0 : Memref sig .tc .vmem S512x128 .bf16) (ha0 : a0.IsWhole) (a1 : Memref sig .tc .vmem S512x2048 .bf16) (ha1 : a1.IsWhole)
    (a2 : Memref sig .tc .vmem S4x2048 .f32) (ha2 : a2.IsWhole) (a3 : Memref sig .tc .vmem S8192x1024 .bf16) (ha3 : a3.IsWhole)
    (a4 : Memref sig .tc .vmem S4x1024 .f32) (ha4 : a4.IsWhole) (a5 : Memref sig .tc .vmem S2x1024 .f32) (ha5 : a5.IsWhole)
    (a6 : Memref sig .tc .vmem S512x1024 .f32) (ha6 : a6.IsWhole)
    (x0 : Vec F S512x128 .bf16) (x1 : Vec F S512x2048 .bf16) (x2 : Vec F S4x2048 .f32) (x3 : Vec F S8192x1024 .bf16)
    (x4 : Vec F S4x1024 .f32) (x5 : Vec F S2x1024 .f32) (xt : TbBuf (F := F) c)
    (hw : k0_chk1 (wordAt c xt i))

/-- In each case the run's pieces contain a store of the whole block, so they cover it. -/
theorem coverA (h1 : k0_cond1 (wordAt c xt i) = 1#1) (h2 : ¬ k0_cond2 (wordAt c xt i) = 1#1) (h3 : ¬ k0_cond3 (wordAt c xt i) = 1#1) (y : S512x1024.Idx) :
    ∃ pc ∈ (bodyRunA c i a0 ha0 a1 ha1 a2 ha2 a3 ha3 a4 ha4 a5 ha5 a6 ha6 x0 x1 x2 x3 x4 x5 xt hw h1 h2 h3).1, y ∈ pc.1.set :=
  View.cover_of_wholeMem _ (by sl_whole_mem) y
theorem coverB (h1 : ¬ k0_cond1 (wordAt c xt i) = 1#1) (h2 : k0_cond2 (wordAt c xt i) = 1#1) (h3 : ¬ k0_cond3 (wordAt c xt i) = 1#1) (y : S512x1024.Idx) :
    ∃ pc ∈ (bodyRunB c i a0 ha0 a1 ha1 a2 ha2 a3 ha3 a4 ha4 a5 ha5 a6 ha6 x0 x1 x2 x3 x4 x5 xt hw h1 h2 h3).1, y ∈ pc.1.set :=
  View.cover_of_wholeMem _ (by sl_whole_mem) y
theorem coverC (h1 : ¬ k0_cond1 (wordAt c xt i) = 1#1) (h2 : ¬ k0_cond2 (wordAt c xt i) = 1#1) (h3 : k0_cond3 (wordAt c xt i) = 1#1) (y : S512x1024.Idx) :
    ∃ pc ∈ (bodyRunC c i a0 ha0 a1 ha1 a2 ha2 a3 ha3 a4 ha4 a5 ha5 a6 ha6 x0 x1 x2 x3 x4 x5 xt hw h1 h2 h3).1, y ∈ pc.1.set :=
  View.cover_of_wholeMem _ (by sl_whole_mem) y

/-- The output block after the body, in each case: the pieces read back. -/
def outA (h1 : k0_cond1 (wordAt c xt i) = 1#1) (h2 : ¬ k0_cond2 (wordAt c xt i) = 1#1) (h3 : ¬ k0_cond3 (wordAt c xt i) = 1#1) : Vec F S512x1024 .f32 :=
  VO.read (Elt F) (VO.writes (Elt F) VO.junk (bodyRunA c i a0 ha0 a1 ha1 a2 ha2 a3 ha3 a4 ha4 a5 ha5 a6 ha6 x0 x1 x2 x3 x4 x5 xt hw h1 h2 h3).1)
def outB (h1 : ¬ k0_cond1 (wordAt c xt i) = 1#1) (h2 : k0_cond2 (wordAt c xt i) = 1#1) (h3 : ¬ k0_cond3 (wordAt c xt i) = 1#1) : Vec F S512x1024 .f32 :=
  VO.read (Elt F) (VO.writes (Elt F) VO.junk (bodyRunB c i a0 ha0 a1 ha1 a2 ha2 a3 ha3 a4 ha4 a5 ha5 a6 ha6 x0 x1 x2 x3 x4 x5 xt hw h1 h2 h3).1)
def outC (h1 : ¬ k0_cond1 (wordAt c xt i) = 1#1) (h2 : ¬ k0_cond2 (wordAt c xt i) = 1#1) (h3 : k0_cond3 (wordAt c xt i) = 1#1) : Vec F S512x1024 .f32 :=
  VO.read (Elt F) (VO.writes (Elt F) VO.junk (bodyRunC c i a0 ha0 a1 ha1 a2 ha2 a3 ha3 a4 ha4 a5 ha5 a6 ha6 x0 x1 x2 x3 x4 x5 xt hw h1 h2 h3).1)

/-- Word below 4: the block is expert w's two layers applied to the row block, the expert's weights and biases cut
    out of the stacked arrays at the offsets computed from the word. -/
theorem outA_eq (h1 : k0_cond1 (wordAt c xt i) = 1#1) (h2 : ¬ k0_cond2 (wordAt c xt i) = 1#1) (h3 : ¬ k0_cond3 (wordAt c xt i) = 1#1) :
    outA c i a0 ha0 a1 ha1 a2 ha2 a3 ha3 a4 ha4 a5 ha5 a6 ha6 x0 x1 x2 x3 x4 x5 xt hw h1 h2 h3 = k0_pay1 x0
      (View.ld x1 (Rect.unit (s := S512x2048) (k0_off2 (wordAt c xt i)) S128x2048.size (k0_off2_inb _ hw h1)))
      (View.ld x2 (Rect.unit (s := S4x2048) (k0_off3 (wordAt c xt i)) S1x2048.size (k0_off3_inb _ hw h1)))
      (View.ld x3 (Rect.unit (s := S8192x1024) (k0_off4 (wordAt c xt i)) S2048x1024.size (k0_off4_inb _ hw h1)))
      (View.ld x4 (Rect.unit (s := S4x1024) (k0_off5 (wordAt c xt i)) S1x1024.size (k0_off5_inb _ hw h1))) := by
  unfold outA
  rw [View.read_writes_eq_canon _ _ _ (coverA c i a0 ha0 a1 ha1 a2 ha2 a3 ha3 a4 ha4 a5 ha5 a6 ha6 x0 x1 x2 x3 x4 x5 xt hw h1 h2 h3)]
  unfold bodyRunA
  dsimp only
  rw [View.canon_unit_zero zero2]
  simp only [View.readAt_eq_ld, ha0.read_unread, ha1.read_unread, ha2.read_unread, ha3.read_unread, ha4.read_unread,
    View.ld_unit_zero (S := S512x128) zero2]
  rfl

/-- Word 4: row 0 of the fill rows, repeated down the block. -/
theorem outB_eq (h1 : ¬ k0_cond1 (wordAt c xt i) = 1#1) (h2 : k0_cond2 (wordAt c xt i) = 1#1) (h3 : ¬ k0_cond3 (wordAt c xt i) = 1#1) :
    outB c i a0 ha0 a1 ha1 a2 ha2 a3 ha3 a4 ha4 a5 ha5 a6 ha6 x0 x1 x2 x3 x4 x5 xt hw h1 h2 h3 = k0_pay2 (View.ld x5 (Rect.unit (s := S2x1024) ![0, 0] S1x1024.size inb_S2x1024_S1x1024_0_0)) := by
  unfold outB
  rw [View.read_writes_eq_canon _ _ _ (coverB c i a0 ha0 a1 ha1 a2 ha2 a3 ha3 a4 ha4 a5 ha5 a6 ha6 x0 x1 x2 x3 x4 x5 xt hw h1 h2 h3)]
  unfold bodyRunB
  dsimp only
  rw [View.canon_unit_zero zero2]
  simp only [View.readAt_eq_ld, ha5.read_unread]

/-- Word 5: row 1 of the fill rows, repeated down the block. -/
theorem outC_eq (h1 : ¬ k0_cond1 (wordAt c xt i) = 1#1) (h2 : ¬ k0_cond2 (wordAt c xt i) = 1#1) (h3 : k0_cond3 (wordAt c xt i) = 1#1) :
    outC c i a0 ha0 a1 ha1 a2 ha2 a3 ha3 a4 ha4 a5 ha5 a6 ha6 x0 x1 x2 x3 x4 x5 xt hw h1 h2 h3 = k0_pay3 (View.ld x5 (Rect.unit (s := S2x1024) ![1, 0] S1x1024.size inb_S2x1024_S1x1024_1_0)) := by
  unfold outC
  rw [View.read_writes_eq_canon _ _ _ (coverC c i a0 ha0 a1 ha1 a2 ha2 a3 ha3 a4 ha4 a5 ha5 a6 ha6 x0 x1 x2 x3 x4 x5 xt hw h1 h2 h3)]
  unfold bodyRunC
  dsimp only
  rw [View.canon_unit_zero zero2]
  simp only [View.readAt_eq_ld, ha5.read_unread]

end Cases

/-! ## The output block at a grid point -/

/-- The word the body reads at point `t`: the type of block `t`. -/
abbrev wd (c : Dev nD) (t : Fin (cfgM m).N) : Elt F .i32 := wordAt c (tbl m 0) (grid0.coords t)

variable {m} in
/-- The side condition at point `t`. -/
theorem Hyps.chk (hH : Hyps m) (c : Dev nD) (t : Fin (cfgM m).N) : k0_chk1 (wd m c t) := (hH c t).1
variable {m} in
/-- A word that is neither below 4 nor 4 is 5. -/
theorem Hyps.third (hH : Hyps m) (c : Dev nD) (t : Fin (cfgM m).N) (n1 : ¬ k0_cond1 (wd m c t) = 1#1)
    (n2 : ¬ k0_cond2 (wd m c t) = 1#1) : k0_cond3 (wd m c t) = 1#1 :=
  ((hH c t).2.resolve_left n1).resolve_left n2

/-- What the output block holds after the body at point `t`: by the kind of block `t`'s word, the case's contents at
    the point's staging memrefs, the six input blocks and the table. -/
def outAt (hH : Hyps m) (c : Dev nD) (t : Fin (cfgM m).N) : Vec F S512x1024 .f32 :=
  if h1 : k0_cond1 (wd m c t) = 1#1 then
    outA c (grid0.coords t) (ms0 m t) (hs0 m t) (ms1 m t) (hs1 m t) (ms2 m t) (hs2 m t) (ms3 m t) (hs3 m t) (ms4 m t) (hs4 m t) (ms5 m t) (hs5 m t) (ms6 m t) (hs6 m t)
      (iblk m c 0 t) (iblk m c 1 t) (iblk m c 2 t) (iblk m c 3 t) (iblk m c 4 t) (iblk m c 5 t) (tbl m 0) (hH.chk c t) h1 (not_cond2_of_cond1 _ h1) (not_cond3_of_cond1 _ h1)
  else if h2 : k0_cond2 (wd m c t) = 1#1 then
    outB c (grid0.coords t) (ms0 m t) (hs0 m t) (ms1 m t) (hs1 m t) (ms2 m t) (hs2 m t) (ms3 m t) (hs3 m t) (ms4 m t) (hs4 m t) (ms5 m t) (hs5 m t) (ms6 m t) (hs6 m t)
      (iblk m c 0 t) (iblk m c 1 t) (iblk m c 2 t) (iblk m c 3 t) (iblk m c 4 t) (iblk m c 5 t) (tbl m 0) (hH.chk c t) h1 h2 (not_cond3_of_cond2 _ h2)
  else
    outC c (grid0.coords t) (ms0 m t) (hs0 m t) (ms1 m t) (hs1 m t) (ms2 m t) (hs2 m t) (ms3 m t) (hs3 m t) (ms4 m t) (hs4 m t) (ms5 m t) (hs5 m t) (ms6 m t) (hs6 m t)
      (iblk m c 0 t) (iblk m c 1 t) (iblk m c 2 t) (iblk m c 3 t) (iblk m c 4 t) (iblk m c 5 t) (tbl m 0) (hH.chk c t) h1 h2 (hH.third c t h1 h2)

/-- Block of an expert (word below 4): the expert's two layers on the row block. -/
theorem outAt_A (hH : Hyps m) (c : Dev nD) (t : Fin (cfgM m).N) (h1 : k0_cond1 (wd m c t) = 1#1) :
    outAt m hH c t = k0_pay1 (iblk m c 0 t)
      (View.ld (iblk m c 1 t) (Rect.unit (s := S512x2048) (k0_off2 (wd m c t)) S128x2048.size (k0_off2_inb _ (hH.chk c t) h1)))
      (View.ld (iblk m c 2 t) (Rect.unit (s := S4x2048) (k0_off3 (wd m c t)) S1x2048.size (k0_off3_inb _ (hH.chk c t) h1)))
      (View.ld (iblk m c 3 t) (Rect.unit (s := S8192x1024) (k0_off4 (wd m c t)) S2048x1024.size (k0_off4_inb _ (hH.chk c t) h1)))
      (View.ld (iblk m c 4 t) (Rect.unit (s := S4x1024) (k0_off5 (wd m c t)) S1x1024.size (k0_off5_inb _ (hH.chk c t) h1))) := by
  unfold outAt; rw [dif_pos h1]; exact outA_eq ..

/-- Block of word 4: fill row 0. -/
theorem outAt_B (hH : Hyps m) (c : Dev nD) (t : Fin (cfgM m).N) (h2 : k0_cond2 (wd m c t) = 1#1) :
    outAt m hH c t = k0_pay2 (View.ld (iblk m c 5 t) (Rect.unit (s := S2x1024) ![0, 0] S1x1024.size inb_S2x1024_S1x1024_0_0)) := by
  unfold outAt; rw [dif_neg (not_cond1_of_cond2 _ h2), dif_pos h2]; exact outB_eq ..

/-- Block of word 5: fill row 1. -/
theorem outAt_C (hH : Hyps m) (c : Dev nD) (t : Fin (cfgM m).N) (h3 : k0_cond3 (wd m c t) = 1#1) :
    outAt m hH c t = k0_pay3 (View.ld (iblk m c 5 t) (Rect.unit (s := S2x1024) ![1, 0] S1x1024.size inb_S2x1024_S1x1024_1_0)) := by
  unfold outAt; rw [dif_neg (not_cond1_of_cond3 _ h3), dif_neg (not_cond2_of_cond3 _ h3)]; exact outC_eq ..

/-! ## The pipeline's proof data -/

/-- On core `c`: the seven arrays as the region finds them; after the body at point `t` each input's buffer still at
    its block and the output's at `outAt`; the invariant the scoped rest and the table's half; nothing owed; full
    shares. -/
def dats (hH : Hyps m) (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m hH c t
  Φ _ := iprop(Pipeline.ΦA spec0 c ∗ Pipeline.ΦT pre0 (tbl m) c)
  q _ := fullShare
  owed _ := 0

/-- The data's arrays are the region-entry contents. -/
theorem A_eq (hH : Hyps m) (c : Dev nD) (w : Fin (cfgM m).W) : (dats m hH 0 c).A w = V m c (Pipeline.arrRef spec0 w) := by
  dsimp only [dats]

/-- What the body leaves, window by window. -/
theorem after0 (hH : Hyps m) (c : Dev nD) (t : Fin (cfgM m).N) : (dats m hH 0 c).after 0 t = iblk m c 0 t := by dsimp only [dats]; try rfl
theorem after1 (hH : Hyps m) (c : Dev nD) (t : Fin (cfgM m).N) : (dats m hH 0 c).after 1 t = iblk m c 1 t := by dsimp only [dats]; try rfl
theorem after2 (hH : Hyps m) (c : Dev nD) (t : Fin (cfgM m).N) : (dats m hH 0 c).after 2 t = iblk m c 2 t := by dsimp only [dats]; try rfl
theorem after3 (hH : Hyps m) (c : Dev nD) (t : Fin (cfgM m).N) : (dats m hH 0 c).after 3 t = iblk m c 3 t := by dsimp only [dats]; try rfl
theorem after4 (hH : Hyps m) (c : Dev nD) (t : Fin (cfgM m).N) : (dats m hH 0 c).after 4 t = iblk m c 4 t := by dsimp only [dats]; try rfl
theorem after5 (hH : Hyps m) (c : Dev nD) (t : Fin (cfgM m).N) : (dats m hH 0 c).after 5 t = iblk m c 5 t := by dsimp only [dats]; try rfl
theorem after6 (hH : Hyps m) (c : Dev nD) (t : Fin (cfgM m).N) : (dats m hH 0 c).after 6 t = outAt m hH c t := by dsimp only [dats]; try rfl

/-- Each input's current staging buffer holds its block when the body runs, fetched at that point or earlier: the
    body never stores to an input, so an unfetched buffer still holds what the last fetch brought, and the block
    index has not moved since. -/
theorem before0 (hH : Hyps m) (c : Dev nD) (t : Fin (cfgM m).N) (d) : (dats m hH 0 c).before 0 t d = iblk m c 0 t :=
  (before_in_of m (dats m hH 0 c) 0 rfl (fun _ => rfl) (fun _ _ _ => rfl) (A_eq m hH c 0)
    (fun t => by rw [after0]; unfold Dat.blockOf iblk; rw [A_eq]; try rfl) t d).trans
    (by unfold Dat.fetched Dat.blockOf iblk; rw [A_eq]; try rfl)
theorem before1 (hH : Hyps m) (c : Dev nD) (t : Fin (cfgM m).N) (d) : (dats m hH 0 c).before 1 t d = iblk m c 1 t :=
  (before_in_of m (dats m hH 0 c) 1 rfl (fun _ => rfl) (fun _ _ _ => rfl) (A_eq m hH c 1)
    (fun t => by rw [after1]; unfold Dat.blockOf iblk; rw [A_eq]; try rfl) t d).trans
    (by unfold Dat.fetched Dat.blockOf iblk; rw [A_eq]; try rfl)
theorem before2 (hH : Hyps m) (c : Dev nD) (t : Fin (cfgM m).N) (d) : (dats m hH 0 c).before 2 t d = iblk m c 2 t :=
  (before_in_of m (dats m hH 0 c) 2 rfl (fun _ => rfl) (fun _ _ _ => rfl) (A_eq m hH c 2)
    (fun t => by rw [after2]; unfold Dat.blockOf iblk; rw [A_eq]; try rfl) t d).trans
    (by unfold Dat.fetched Dat.blockOf iblk; rw [A_eq]; try rfl)
theorem before3 (hH : Hyps m) (c : Dev nD) (t : Fin (cfgM m).N) (d) : (dats m hH 0 c).before 3 t d = iblk m c 3 t :=
  (before_in_of m (dats m hH 0 c) 3 rfl (fun _ => rfl) (fun _ _ _ => rfl) (A_eq m hH c 3)
    (fun t => by rw [after3]; unfold Dat.blockOf iblk; rw [A_eq]; try rfl) t d).trans
    (by unfold Dat.fetched Dat.blockOf iblk; rw [A_eq]; try rfl)
theorem before4 (hH : Hyps m) (c : Dev nD) (t : Fin (cfgM m).N) (d) : (dats m hH 0 c).before 4 t d = iblk m c 4 t :=
  (before_in_of m (dats m hH 0 c) 4 rfl (fun _ => rfl) (fun _ _ _ => rfl) (A_eq m hH c 4)
    (fun t => by rw [after4]; unfold Dat.blockOf iblk; rw [A_eq]; try rfl) t d).trans
    (by unfold Dat.fetched Dat.blockOf iblk; rw [A_eq]; try rfl)
theorem before5 (hH : Hyps m) (c : Dev nD) (t : Fin (cfgM m).N) (d) : (dats m hH 0 c).before 5 t d = iblk m c 5 t :=
  (before_in_of m (dats m hH 0 c) 5 rfl (fun _ => rfl) (fun _ _ _ => rfl) (A_eq m hH c 5)
    (fun t => by rw [after5]; unfold Dat.blockOf iblk; rw [A_eq]; try rfl) t d).trans
    (by unfold Dat.fetched Dat.blockOf iblk; rw [A_eq]; try rfl)

/-! ## The body obligation -/

/-- What the body is called with at point `t`: the invariant, what the core owes, and each window's current staging
    buffer at what it then holds. -/
def bodyPre (hH : Hyps m) (c : Dev nD) (t : Fin (cfgM m).N) : sProp 𝕄 :=
  iprop((dats m hH 0 c).Φ t.castSucc ∗ (dats m hH 0 c).owesAt () t.castSucc
    ∗ (∃ d, owns (c : Thread nD τ) (ms0 m t) fullShare ((dats m hH 0 c).before 0 t d))
    ∗ (∃ d, owns (c : Thread nD τ) (ms1 m t) fullShare ((dats m hH 0 c).before 1 t d))
    ∗ (∃ d, owns (c : Thread nD τ) (ms2 m t) fullShare ((dats m hH 0 c).before 2 t d))
    ∗ (∃ d, owns (c : Thread nD τ) (ms3 m t) fullShare ((dats m hH 0 c).before 3 t d))
    ∗ (∃ d, owns (c : Thread nD τ) (ms4 m t) fullShare ((dats m hH 0 c).before 4 t d))
    ∗ (∃ d, owns (c : Thread nD τ) (ms5 m t) fullShare ((dats m hH 0 c).before 5 t d))
    ∗ (∃ d, owns (c : Thread nD τ) (ms6 m t) fullShare ((dats m hH 0 c).before 6 t d)))

/-- What it returns: the same with each buffer at what the body leaves. -/
def bodyPost (hH : Hyps m) (c : Dev nD) (t : Fin (cfgM m).N) : sProp 𝕄 :=
  iprop((dats m hH 0 c).Φ t.succ ∗ (dats m hH 0 c).owesAt () t.succ
    ∗ owns (c : Thread nD τ) (ms0 m t) fullShare ((dats m hH 0 c).after 0 t)
    ∗ owns (c : Thread nD τ) (ms1 m t) fullShare ((dats m hH 0 c).after 1 t)
    ∗ owns (c : Thread nD τ) (ms2 m t) fullShare ((dats m hH 0 c).after 2 t)
    ∗ owns (c : Thread nD τ) (ms3 m t) fullShare ((dats m hH 0 c).after 3 t)
    ∗ owns (c : Thread nD τ) (ms4 m t) fullShare ((dats m hH 0 c).after 4 t)
    ∗ owns (c : Thread nD τ) (ms5 m t) fullShare ((dats m hH 0 c).after 5 t)
    ∗ owns (c : Thread nD τ) (ms6 m t) fullShare ((dats m hH 0 c).after 6 t))

/-- From a run of the body at point `t` that leaves the covering pieces `L` in the output's buffer, and `outAt`
    being those pieces read back: the body takes `bodyPre` to `bodyPost`. The inputs' buffers hold their blocks;
    the invariant and the table's half pass through; the core owes nothing throughout; the output's buffer, whatever it
    held, ends at the pieces, which read the same through any view since they cover the block. -/
theorem sound_of_run (hH : Hyps m) (c : Dev nD) (t : Fin (cfgM m).N) (L : List (View.Piece (Elt F) S512x1024 .f32))
    (hcov : ∀ y, ∃ pc ∈ L, y ∈ pc.1.set)
    (hout : outAt m hH c t = VO.read (Elt F) (VO.writes (Elt F) VO.junk L))
    (hrun : ∀ (E : Set ℕ) (K : PUnit → sProp 𝕄),
        iprop(owns (c : Thread nD τ) (ms0 m t) fullShare (iblk m c 0 t) ∗ owns (c : Thread nD τ) (ms1 m t) fullShare (iblk m c 1 t) ∗ owns (c : Thread nD τ) (ms2 m t) fullShare (iblk m c 2 t) ∗ owns (c : Thread nD τ) (ms3 m t) fullShare (iblk m c 3 t) ∗ owns (c : Thread nD τ) (ms4 m t) fullShare (iblk m c 4 t) ∗ owns (c : Thread nD τ) (ms5 m t) fullShare (iblk m c 5 t)
            ∗ (∃ d, owns (c : Thread nD τ) (ms6 m t) fullShare d) ∗ tbPt c (tbl m 0)
            ∗ (iprop(owns (c : Thread nD τ) (ms0 m t) fullShare (iblk m c 0 t) ∗ owns (c : Thread nD τ) (ms1 m t) fullShare (iblk m c 1 t) ∗ owns (c : Thread nD τ) (ms2 m t) fullShare (iblk m c 2 t) ∗ owns (c : Thread nD τ) (ms3 m t) fullShare (iblk m c 3 t) ∗ owns (c : Thread nD τ) (ms4 m t) fullShare (iblk m c 4 t) ∗ owns (c : Thread nD τ) (ms5 m t) fullShare (iblk m c 5 t)
                ∗ (∃ f, (ms6 m t).view.loc (c : Thread nD τ) ↦[(ms6 m t).view.set]{fullShare} (ms6 m t).view.writes (Elt F) f L) ∗ tbPt c (tbl m 0)) -∗ K ⟨⟩))
          ⊢ wp frame (wpE (defs₀ (F := F)) Variants.none c none) E (bodyAt m t) K) :
    bodyPre m hH c t ⊢ wp frame (wpE (defs₀ (F := F)) Variants.none c none) Set.univ (bodyAt m t) (fun _ => bodyPost m hH c t) := by
  unfold bodyPre bodyPost
  simp only [before0, before1, before2, before3, before4, before5]
  rw [show (dats m hH 0 c).Φ t.succ = (dats m hH 0 c).Φ t.castSucc from rfl,
    show (dats m hH 0 c).owesAt () t.succ = (dats m hH 0 c).owesAt () t.castSucc from rfl,
    after0, after1, after2, after3, after4, after5, after6]
  rw [show (dats m hH 0 c).Φ t.castSucc = iprop(Pipeline.ΦA spec0 c ∗ Pipeline.ΦT pre0 (tbl m) c) from rfl, PhiT_eq]
  rw [hout]
  iintro ⟨⟨HΦ, HT⟩, Ho, ⟨%d0, H0⟩, ⟨%d1, H1⟩, ⟨%d2, H2⟩, ⟨%d3, H3⟩, ⟨%d4, H4⟩, ⟨%d5, H5⟩, ⟨%d6, H6⟩⟩
  iapply (hrun Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HT]; · iexact HT
  iintro ⟨H0, H1, H2, H3, H4, H5, ⟨%e6, H6⟩, HT⟩
  isplitl [HΦ HT]
  · isplitl [HΦ]; · iexact HΦ
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact View.read_writes_of_cover _ _ _ _ _ hcov

/-- The body at any point, by the kind of the block's word. -/
theorem sound_body (hH : Hyps m) (c : Dev nD) (t : Fin (cfgM m).N) :
    bodyPre m hH c t ⊢ wp frame (wpE (defs₀ (F := F)) Variants.none c none) Set.univ (bodyAt m t) (fun _ => bodyPost m hH c t) := by
  by_cases h1 : k0_cond1 (wd m c t) = 1#1
  · exact sound_of_run m hH c t _ (coverA c (grid0.coords t) (ms0 m t) (hs0 m t) (ms1 m t) (hs1 m t) (ms2 m t) (hs2 m t) (ms3 m t) (hs3 m t) (ms4 m t) (hs4 m t) (ms5 m t) (hs5 m t) (ms6 m t) (hs6 m t)
      (iblk m c 0 t) (iblk m c 1 t) (iblk m c 2 t) (iblk m c 3 t) (iblk m c 4 t) (iblk m c 5 t) (tbl m 0) (hH.chk c t) h1 (not_cond2_of_cond1 _ h1) (not_cond3_of_cond1 _ h1))
      (by unfold outAt; rw [dif_pos h1]; rfl) (bodyRunA c (grid0.coords t) (ms0 m t) (hs0 m t) (ms1 m t) (hs1 m t) (ms2 m t) (hs2 m t) (ms3 m t) (hs3 m t) (ms4 m t) (hs4 m t) (ms5 m t) (hs5 m t) (ms6 m t) (hs6 m t)
      (iblk m c 0 t) (iblk m c 1 t) (iblk m c 2 t) (iblk m c 3 t) (iblk m c 4 t) (iblk m c 5 t) (tbl m 0) (hH.chk c t) h1 (not_cond2_of_cond1 _ h1) (not_cond3_of_cond1 _ h1)).2
  · by_cases h2 : k0_cond2 (wd m c t) = 1#1
    · exact sound_of_run m hH c t _ (coverB c (grid0.coords t) (ms0 m t) (hs0 m t) (ms1 m t) (hs1 m t) (ms2 m t) (hs2 m t) (ms3 m t) (hs3 m t) (ms4 m t) (hs4 m t) (ms5 m t) (hs5 m t) (ms6 m t) (hs6 m t)
      (iblk m c 0 t) (iblk m c 1 t) (iblk m c 2 t) (iblk m c 3 t) (iblk m c 4 t) (iblk m c 5 t) (tbl m 0) (hH.chk c t) h1 h2 (not_cond3_of_cond2 _ h2))
        (by unfold outAt; rw [dif_neg h1, dif_pos h2]; rfl) (bodyRunB c (grid0.coords t) (ms0 m t) (hs0 m t) (ms1 m t) (hs1 m t) (ms2 m t) (hs2 m t) (ms3 m t) (hs3 m t) (ms4 m t) (hs4 m t) (ms5 m t) (hs5 m t) (ms6 m t) (hs6 m t)
      (iblk m c 0 t) (iblk m c 1 t) (iblk m c 2 t) (iblk m c 3 t) (iblk m c 4 t) (iblk m c 5 t) (tbl m 0) (hH.chk c t) h1 h2 (not_cond3_of_cond2 _ h2)).2
    · exact sound_of_run m hH c t _ (coverC c (grid0.coords t) (ms0 m t) (hs0 m t) (ms1 m t) (hs1 m t) (ms2 m t) (hs2 m t) (ms3 m t) (hs3 m t) (ms4 m t) (hs4 m t) (ms5 m t) (hs5 m t) (ms6 m t) (hs6 m t)
      (iblk m c 0 t) (iblk m c 1 t) (iblk m c 2 t) (iblk m c 3 t) (iblk m c 4 t) (iblk m c 5 t) (tbl m 0) (hH.chk c t) h1 h2 (hH.third c t h1 h2))
        (by unfold outAt; rw [dif_neg h1, dif_neg h2]; rfl) (bodyRunC c (grid0.coords t) (ms0 m t) (hs0 m t) (ms1 m t) (hs1 m t) (ms2 m t) (hs2 m t) (ms3 m t) (hs3 m t) (ms4 m t) (hs4 m t) (ms5 m t) (hs5 m t) (ms6 m t) (hs6 m t)
      (iblk m c 0 t) (iblk m c 1 t) (iblk m c 2 t) (iblk m c 3 t) (iblk m c 4 t) (iblk m c 5 t) (tbl m 0) (hH.chk c t) h1 h2 (hH.third c t h1 h2)).2

/-- The output block is written back at every point, so whether or not the body is idle on it there the obligation
    wants it at what the body leaves. -/
theorem body_obligation (hH : Hyps m) (c : Dev nD) : BodyObligation (dats (F := F) m hH 0 c) (defs₀ (F := F)) Variants.none () Set.univ := fun t => by
  rw [bigSep_W0, bigSep_W0]
  have h6 : ((cfgM m).win (6 : Fin 7)).flush t = true := flush6 m t
  rw [h6]
  generalize (cfgM m).idle (6 : Fin 7) ((cfgM m).grid.coords t) = b
  cases b <;> exact sound_body m hH c t

/-! ## The run of @main -/

set_option backward.isDefEq.respectTransparency.types false in
/-- From any memory with zero counters every weakly fair execution of @main terminates, and at the end every array
    of the pipeline holds what the proof data compute and every other unscoped buffer what the host operations after
    the region leave of the region's exit contents. -/
theorem run_main (hH : Hyps m) : θ_run defs (onTc (τ := τ) (main (F := F))) (s₀ m ρ)
    (Pipeline.FramePost (Pipeline.pin pcfgs fun _ => adm m) (dats m hH) 0
      (Pipeline.afterTail pcfgs (fun _ => adm m) (dats m hH) 0 (V0 m) [hostOps1])) :=
  Pipeline.θ_run_frameP_around pcfgs (fun _ => adm m) (dats m hH) (0 : Fin 1) launch0 defs₀ Variants.none m ρ main
    (hbody := fun c => (body_obligation m hH c).loose) (hshare := fun c => (dats m hH 0 c).share_full fun _ => rfl)
    (howed := fun _ _ => rfl) (V₀ := V0 m) (opss := [hostOps1]) (hsub := sfx_sub) (hfresh := sfx_fresh)
    (hkeep := sfx_keeps) (hmain := hmain m Variants.none) (hA := A_eq m hH) (hpf := V_pre m) (hΦ := fun _ _ => rfl)

/-! ## No host operation writes an argument -/

/-- @main's seven arguments are the first seven buffers of main memory. -/
def isArg (r : Ref sig .tc) : Bool := decide (r.space = .hbm) && decide (r.idx.val < 7)

/-- An operation every buffer it writes is a reference that is no argument. -/
def WritesNoArg (op : HloOp τ sig (Elt F)) : Prop :=
  ∀ b ∈ op.writes, ∃ y : Ref sig .tc, isArg y = false ∧ Proc.devRef (τ := τ) .tc y = b

/-- An operation writing the one buffer `y`, no argument. -/
theorem writesNoArg_of {op : HloOp τ sig (Elt F)} (y : Ref sig .tc) (h : op.writes = {Proc.devRef .tc y})
    (hy : isArg y = false) : WritesNoArg op := fun b hb => by
  rw [h, Finset.mem_singleton] at hb
  exact ⟨y, hy, hb.symm⟩

/-- A line of such operations leaves every argument as it was. -/
theorem after_arg (ops : List (HloOp τ sig (Elt F))) (V : Valuation τ sig (Elt F)) (hW : ∀ op ∈ ops, WritesNoArg op)
    (r : Ref sig .tc) (hr : isArg r = true) :
    StableHlo.after ops V (Proc.devRef .tc r) = V (Proc.devRef .tc r) :=
  StableHlo.after_of_forall_not_mem ops V fun op hop hb => by
    obtain ⟨y, hy, he⟩ := hW op hop _ hb
    obtain rfl : y = r := Proc.devRef_injective _ he
    rw [hr] at hy; exact Bool.noConfusion hy

theorem hostOps0_noArg : (hostOps0 : List (HloOp τ sig (Elt F))).Forall WritesNoArg := by
  simp only [List.Forall]; repeat' constructor
  all_goals exact writesNoArg_of _ rfl rfl
theorem hostOps0_1_noArg : (hostOps0_1 : List (HloOp τ sig (Elt F))).Forall WritesNoArg := by
  simp only [List.Forall]; repeat' constructor
  all_goals exact writesNoArg_of _ rfl rfl
theorem hostOps0_2_noArg : (hostOps0_2 : List (HloOp τ sig (Elt F))).Forall WritesNoArg := by
  simp only [List.Forall]; repeat' constructor
  all_goals exact writesNoArg_of _ rfl rfl
theorem hostOps0_3_noArg : (hostOps0_3 : List (HloOp τ sig (Elt F))).Forall WritesNoArg := by
  simp only [List.Forall]; repeat' constructor
  all_goals exact writesNoArg_of _ rfl rfl
theorem hostOps0_4_noArg : (hostOps0_4 : List (HloOp τ sig (Elt F))).Forall WritesNoArg := by
  simp only [List.Forall]; repeat' constructor
  all_goals exact writesNoArg_of _ rfl rfl
theorem hostOps0_5_noArg : (hostOps0_5 : List (HloOp τ sig (Elt F))).Forall WritesNoArg := by
  simp only [List.Forall]; repeat' constructor
  all_goals exact writesNoArg_of _ rfl rfl
theorem hostOps0_6_noArg : (hostOps0_6 : List (HloOp τ sig (Elt F))).Forall WritesNoArg := by
  simp only [List.Forall]; repeat' constructor
  all_goals exact writesNoArg_of _ rfl rfl
theorem hostOps0_7_noArg : (hostOps0_7 : List (HloOp τ sig (Elt F))).Forall WritesNoArg := by
  simp only [List.Forall]; repeat' constructor
  all_goals exact writesNoArg_of _ rfl rfl
theorem hostOps0_8_noArg : (hostOps0_8 : List (HloOp τ sig (Elt F))).Forall WritesNoArg := by
  simp only [List.Forall]; repeat' constructor
  all_goals exact writesNoArg_of _ rfl rfl
theorem hostOps0_9_noArg : (hostOps0_9 : List (HloOp τ sig (Elt F))).Forall WritesNoArg := by
  simp only [List.Forall]; repeat' constructor
  all_goals exact writesNoArg_of _ rfl rfl
theorem hostOps0_10_noArg : (hostOps0_10 : List (HloOp τ sig (Elt F))).Forall WritesNoArg := by
  simp only [List.Forall]; repeat' constructor
  all_goals exact writesNoArg_of _ rfl rfl
theorem hostOps0_11_noArg : (hostOps0_11 : List (HloOp τ sig (Elt F))).Forall WritesNoArg := by
  simp only [List.Forall]; repeat' constructor
  all_goals exact writesNoArg_of _ rfl rfl
theorem hostOps1_noArg : (hostOps1 : List (HloOp τ sig (Elt F))).Forall WritesNoArg := by
  simp only [List.Forall]; repeat' constructor
  all_goals exact writesNoArg_of _ rfl rfl

/-- The host operations before the region write no argument, -/
theorem pre_noArg : ∀ op ∈ List.flatten (preOps (F := F)), WritesNoArg op := by
  intro op hop
  obtain ⟨ops, hops, hop'⟩ := List.mem_flatten.mp hop
  simp only [preOps, List.mem_cons, List.mem_nil_iff, or_false] at hops
  rcases hops with rfl | rfl | rfl | rfl | rfl | rfl | rfl | rfl | rfl | rfl | rfl | rfl
  · exact (List.forall_iff_forall_mem.mp hostOps0_noArg) op hop'
  · exact (List.forall_iff_forall_mem.mp hostOps0_1_noArg) op hop'
  · exact (List.forall_iff_forall_mem.mp hostOps0_2_noArg) op hop'
  · exact (List.forall_iff_forall_mem.mp hostOps0_3_noArg) op hop'
  · exact (List.forall_iff_forall_mem.mp hostOps0_4_noArg) op hop'
  · exact (List.forall_iff_forall_mem.mp hostOps0_5_noArg) op hop'
  · exact (List.forall_iff_forall_mem.mp hostOps0_6_noArg) op hop'
  · exact (List.forall_iff_forall_mem.mp hostOps0_7_noArg) op hop'
  · exact (List.forall_iff_forall_mem.mp hostOps0_8_noArg) op hop'
  · exact (List.forall_iff_forall_mem.mp hostOps0_9_noArg) op hop'
  · exact (List.forall_iff_forall_mem.mp hostOps0_10_noArg) op hop'
  · exact (List.forall_iff_forall_mem.mp hostOps0_11_noArg) op hop'

/-- nor do those after it. -/
theorem post_noArg : ∀ op ∈ List.flatten ([hostOps1] : List (List (HloOp τ sig (Elt F)))), WritesNoArg op := by
  intro op hop
  obtain ⟨ops, hops, hop'⟩ := List.mem_flatten.mp hop
  simp only [List.mem_cons, List.mem_nil_iff, or_false] at hops
  subst hops
  exact (List.forall_iff_forall_mem.mp hostOps1_noArg) op hop'

/-- So the region finds every argument as launched. -/
theorem V_arg (c : Dev nD) (r : Ref sig .tc) (hr : isArg r = true) : V m c r = m ((c : Thread nD τ).loc r) :=
  after_arg _ _ pre_noArg r hr

/-- An argument that is no window's array is, after the operations that follow the region, as launched. -/
theorem tail_arg (hH : Hyps m) (c : Dev nD) (r : Ref sig .tc) (hr : isArg r = true) (hne : ∀ w, Pipeline.arrRef spec0 w ≠ r) :
    Pipeline.afterTail pcfgs (fun _ => adm m) (dats m hH) 0 (V0 m) [hostOps1] c r = m ((c : Thread nD τ).loc r) := by
  unfold Pipeline.afterTail
  rw [after_arg _ _ post_noArg r hr, Pipeline.withArrays_of_ne _ c (V0 m c) _ r hne]
  exact V_arg m c r hr

/-! ## The result and the frame -/

/-- Four of the arguments, and the buffer of @main's result, are the array of no window. -/
theorem arr_ne_arg0 : ∀ w : Fin 7, Pipeline.arrRef spec0 w ≠ main_arg0 := by decide
theorem arr_ne_arg1 : ∀ w : Fin 7, Pipeline.arrRef spec0 w ≠ main_arg1 := by decide
theorem arr_ne_arg2 : ∀ w : Fin 7, Pipeline.arrRef spec0 w ≠ main_arg2 := by decide
theorem arr_ne_arg4 : ∀ w : Fin 7, Pipeline.arrRef spec0 w ≠ main_arg4 := by decide
theorem arr_ne_v79 : ∀ w : Fin 7, Pipeline.arrRef spec0 w ≠ main_v79 := by decide

/-- @main's result buffer ends at what the host operations after the region compute from the region's exit contents,
    and every argument array ends as launched: of the arguments, the three that are windows' arrays are inputs of
    the pipeline, which leaves an input's array as the region found it; the other four are touched by no window and
    written by no host operation. -/
theorem run_value (hH : Hyps m) : θ_run defs (onTc (τ := τ) (main (F := F))) ⟨m, fun _ => 0, ρ⟩ (fun r => ∀ c : Dev nD,
      r.2.mem ((c.tc : Thread nD τ).loc main_v79) = Pipeline.afterTail pcfgs (fun _ => adm m) (dats m hH) 0 (V0 m) [hostOps1] c main_v79
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c).2 main_v79 (Pipeline.mem_restRefs_of main_v79 (by decide) arr_ne_v79),
     ((h c).2 main_arg0 (Pipeline.mem_restRefs_of main_arg0 (by decide) arr_ne_arg0)).trans (tail_arg m hH c main_arg0 rfl arr_ne_arg0),
     ((h c).2 main_arg1 (Pipeline.mem_restRefs_of main_arg1 (by decide) arr_ne_arg1)).trans (tail_arg m hH c main_arg1 rfl arr_ne_arg1),
     ((h c).2 main_arg2 (Pipeline.mem_restRefs_of main_arg2 (by decide) arr_ne_arg2)).trans (tail_arg m hH c main_arg2 rfl arr_ne_arg2),
     ((h c).1 2).trans (((dats m hH 0 c).arrAt_in 2 rfl _).trans ((A_eq m hH c 2).trans (V_arg m c main_arg3 rfl))),
     ((h c).2 main_arg4 (Pipeline.mem_restRefs_of main_arg4 (by decide) arr_ne_arg4)).trans (tail_arg m hH c main_arg4 rfl arr_ne_arg4),
     ((h c).1 4).trans (((dats m hH 0 c).arrAt_in 4 rfl _).trans ((A_eq m hH c 4).trans (V_arg m c main_arg5 rfl))),
     ((h c).1 5).trans (((dats m hH 0 c).arrAt_in 5 rfl _).trans ((A_eq m hH c 5).trans (V_arg m c main_arg6 rfl)))⟩)
    (run_main m ρ hH)

/-- The frame: every argument array ends as launched. -/
theorem frame (hH : Hyps m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run_value m ρ hH)

end Cert.KernelIdeal.Hand

end
-- ==== Proof.Spec.lean ====
import Idealize.ShloMosaic.PureOps.Ideal
import Idealize.ShloMosaic.Lib.ValueIdx

/-!
# The encoder of one row, over the extended reals

A row `xr` of 128 numbers of type `t < 4` goes through that type's two-layer perceptron: the hidden unit `k` is
`max (Σ_d xr d · W1[t, d, k] + b1[t, k]) 0`, and output `j` is `Σ_k hidden k · W2[t, k, j] + b2[t, j]`.  A row of type 4
is the first embedding row, one of type 5 the second, and a row of any other type is zero.  Both programs compute,
for every row `n`, `encRow (type of n) (row n of x)`, and then read the rows through the sorting order of the types
twice.
-/

noncomputable section

namespace Cert.Spec

open Idealize.ShloMosaic Idealize.ShloMosaic.ValueIdx

abbrev SX : Shape := ⟨2, ![16384, 128]⟩
abbrev SW1 : Shape := ⟨3, ![4, 128, 2048]⟩
abbrev SB1 : Shape := ⟨2, ![4, 2048]⟩
abbrev SW2 : Shape := ⟨3, ![4, 2048, 1024]⟩
abbrev SB2 : Shape := ⟨2, ![4, 1024]⟩
abbrev SE : Shape := ⟨2, ![2, 1024]⟩
abbrev SO : Shape := ⟨2, ![16384, 1024]⟩

variable (W1 : FVec Ideal SW1 .f32) (b1 : FVec Ideal SB1 .f32) (W2 : FVec Ideal SW2 .f32) (b2 : FVec Ideal SB2 .f32)
  (emb : FVec Ideal SE .f32)

/-- Hidden unit `k` of type `t`'s perceptron on the row `xr`. -/
def hid (t : Fin 4) (xr : Fin 128 → EReal) (k : Fin 2048) : EReal :=
  max ((∑ d : Fin 128, xr d * W1 (ix3 t d k)) + b1 (ix2 t k)) 0

/-- Output `j` of type `t`'s perceptron on the row `xr`. -/
def mlp (t : Fin 4) (xr : Fin 128 → EReal) (j : Fin 1024) : EReal :=
  (∑ k : Fin 2048, hid W1 b1 t xr k * W2 (ix3 t k j)) + b2 (ix2 t j)

/-- Entry `j` of the encoding of a row `xr` whose type id is `g`. -/
def encRow (g : ℕ) (xr : Fin 128 → EReal) (j : Fin 1024) : EReal :=
  if h : g < 4 then mlp W1 b1 W2 b2 ⟨g, h⟩ xr j
  else if g = 4 then emb (ix2 0 j)
  else if g = 5 then emb (ix2 1 j)
  else 0

end Cert.Spec

end
-- ==== Proof.KI_Payload.lean ====
import proofs.«410392_j25512105739026_3_alg».proof.Proof.Gen.KernelIdeal.Skeleton
import proofs.«410392_j25512105739026_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.ValueIdx Idealize.SL.Sem
open scoped BigOperators

/-! # The three stored values of the encoder's body, entry by entry

The body stores one of three blocks of 512 rows by 1024 columns.  The first is the two-layer perceptron of a block of
rows: the rows times the first weights, plus the first bias, clipped below at zero, times the second weights, plus
the second bias.  The other two are one embedding row repeated on all 512 rows.  Over the extended reals every
operation is the exact one and a change of format is the identity, so each entry is a closed expression in the
entries of the loaded blocks; the last theorem matches the first block with the specification's perceptron. -/

/-! ## A row sent to a flat vector and back, then repeated down the rows -/

/-- A `[1, n]` row flattened to `[n]`, raised back to `[1, n]` and repeated on `m` rows reads, at row `r` and
    column `j`, the row's entry `j`: the two reshapes undo each other and the repetition forgets `r`. -/
theorem rowRepeated {α : Type} {m n : ℕ} (x : (⟨2, ![1, n]⟩ : Shape).Idx → α)
    (hdown : (⟨2, ![1, n]⟩ : Shape).ShapeCasts ⟨1, ![n]⟩) (hup : (⟨1, ![n]⟩ : Shape).ShapeCasts ⟨2, ![1, n]⟩)
    (hrep : (⟨2, ![1, n]⟩ : Shape).Broadcasts ⟨2, ![m, n]⟩) (r : Fin m) (j : Fin n) :
    broadcastTo ⟨2, ![m, n]⟩ (shapeCast ⟨2, ![1, n]⟩ (shapeCast ⟨1, ![n]⟩ x hdown) hup) hrep (ix2 r j) = x (ix2 0 j) := by
  rw [shapeCast_shapeCast x hdown hup]
  refine broadcastTo_apply x hrep (ix2 r j) (ix2 0 j) fun a => ?_
  match a with
  | ⟨0, _⟩ => exact (if_pos rfl).symm
  | ⟨1, _⟩ =>
    show j.val = if n = 1 then 0 else j.val
    by_cases hn : n = 1
    · rw [if_pos hn]; have := j.isLt; omega
    · rw [if_neg hn]

/-! ## The first product, rows by first weights: which entries it multiplies -/

/-- The left factor is read on the result's row … -/
theorem inRows_left_row (i : S512x2048.Idx) (q : dot_S512x128_S128x2048_S512x2048_1_0_0_1_n_n.contr.Idx) :
    (dot_S512x128_S128x2048_S512x2048_1_0_0_1_n_n.lhsIdx i q 0).val = (i 0).val := by
  unfold DotDims.lhsIdx
  rw [dif_neg (show ¬(0 : Fin S512x128.rank) ∈ dot_S512x128_S128x2048_S512x2048_1_0_0_1_n_n.lhsBatch by decide),
    dif_pos (show (0 : Fin S512x128.rank) ∈ dot_S512x128_S128x2048_S512x2048_1_0_0_1_n_n.lhsNonContracting by decide)]
  rfl
/-- … and on the summed coordinate as its column; -/
theorem inRows_left_col (i : S512x2048.Idx) (q : dot_S512x128_S128x2048_S512x2048_1_0_0_1_n_n.contr.Idx) :
    (dot_S512x128_S128x2048_S512x2048_1_0_0_1_n_n.lhsIdx i q 1).val = (q ⟨0, by decide⟩).val :=
  dot_S512x128_S128x2048_S512x2048_1_0_0_1_n_n.lhsIdx_val_of_single rfl i q
/-- the right factor is read on the summed coordinate as its row … -/
theorem inRows_right_row (i : S512x2048.Idx) (q : dot_S512x128_S128x2048_S512x2048_1_0_0_1_n_n.contr.Idx) :
    (dot_S512x128_S128x2048_S512x2048_1_0_0_1_n_n.rhsIdx i q 0).val = (q ⟨0, by decide⟩).val :=
  dot_S512x128_S128x2048_S512x2048_1_0_0_1_n_n.rhsIdx_val_of_single rfl i q
/-- … and on the result's column. -/
theorem inRows_right_col (i : S512x2048.Idx) (q : dot_S512x128_S128x2048_S512x2048_1_0_0_1_n_n.contr.Idx) :
    (dot_S512x128_S128x2048_S512x2048_1_0_0_1_n_n.rhsIdx i q 1).val = (i 1).val := by
  unfold DotDims.rhsIdx
  rw [dif_neg (show ¬(1 : Fin S128x2048.rank) ∈ dot_S512x128_S128x2048_S512x2048_1_0_0_1_n_n.rhsBatch by decide),
    dif_pos (show (1 : Fin S128x2048.rank) ∈ dot_S512x128_S128x2048_S512x2048_1_0_0_1_n_n.rhsNonContracting by decide)]
  rfl

/-- Entry `(r, k)` of a `[512, 128]` block times a `[128, 2048]` block, accumulated from zero, is
    `Σ_d a[r, d] · b[d, k]`: the sum over the one summed axis, re-indexed by its coordinate. -/
theorem inRows_prod_apply (a : FVec Ideal S512x128 .bf16) (b : FVec Ideal S128x2048 .bf16) (r : Fin 512) (k : Fin 2048) :
    matmul (F := Ideal) dot_S512x128_S128x2048_S512x2048_1_0_0_1_n_n none a b (constant (F := Ideal) S512x2048 .f32 0x00000000#32) (ix2 r k)
      = ∑ d : Fin 128, a (ix2 r d) * b (ix2 d k) := by
  simp only [matmul]
  rw [Ideal.matmul_constant_zero_apply,
    ← Equiv.sum_comp (contrEquiv1 dot_S512x128_S128x2048_S512x2048_1_0_0_1_n_n 128 rfl rfl).symm]
  refine Finset.sum_congr rfl fun d _ => ?_
  have hd := contrEquiv1_symm_val dot_S512x128_S128x2048_S512x2048_1_0_0_1_n_n 128 rfl rfl d
  have eleft : dot_S512x128_S128x2048_S512x2048_1_0_0_1_n_n.lhsIdx (ix2 r k)
      ((contrEquiv1 dot_S512x128_S128x2048_S512x2048_1_0_0_1_n_n 128 rfl rfl).symm d) = ix2 r d :=
    funext fun c => Fin.ext (by
      match c with
      | ⟨0, _⟩ => exact inRows_left_row _ _
      | ⟨1, _⟩ => exact (inRows_left_col _ _).trans hd)
  have eright : dot_S512x128_S128x2048_S512x2048_1_0_0_1_n_n.rhsIdx (ix2 r k)
      ((contrEquiv1 dot_S512x128_S128x2048_S512x2048_1_0_0_1_n_n 128 rfl rfl).symm d) = ix2 d k :=
    funext fun c => Fin.ext (by
      match c with
      | ⟨0, _⟩ => exact (inRows_right_row _ _).trans hd
      | ⟨1, _⟩ => exact inRows_right_col _ _)
  rw [eleft, eright]

/-! ## The second product, hidden units by second weights -/

/-- The left factor is read on the result's row … -/
theorem hidden_left_row (i : S512x1024.Idx) (q : dot_S512x2048_S2048x1024_S512x1024_1_0_0_1_n_n.contr.Idx) :
    (dot_S512x2048_S2048x1024_S512x1024_1_0_0_1_n_n.lhsIdx i q 0).val = (i 0).val := by
  unfold DotDims.lhsIdx
  rw [dif_neg (show ¬(0 : Fin S512x2048.rank) ∈ dot_S512x2048_S2048x1024_S512x1024_1_0_0_1_n_n.lhsBatch by decide),
    dif_pos (show (0 : Fin S512x2048.rank) ∈ dot_S512x2048_S2048x1024_S512x1024_1_0_0_1_n_n.lhsNonContracting by decide)]
  rfl
/-- … and on the summed coordinate as its column; -/
theorem hidden_left_col (i : S512x1024.Idx) (q : dot_S512x2048_S2048x1024_S512x1024_1_0_0_1_n_n.contr.Idx) :
    (dot_S512x2048_S2048x1024_S512x1024_1_0_0_1_n_n.lhsIdx i q 1).val = (q ⟨0, by decide⟩).val :=
  dot_S512x2048_S2048x1024_S512x1024_1_0_0_1_n_n.lhsIdx_val_of_single rfl i q
/-- the right factor is read on the summed coordinate as its row … -/
theorem hidden_right_row (i : S512x1024.Idx) (q : dot_S512x2048_S2048x1024_S512x1024_1_0_0_1_n_n.contr.Idx) :
    (dot_S512x2048_S2048x1024_S512x1024_1_0_0_1_n_n.rhsIdx i q 0).val = (q ⟨0, by decide⟩).val :=
  dot_S512x2048_S2048x1024_S512x1024_1_0_0_1_n_n.rhsIdx_val_of_single rfl i q
/-- … and on the result's column. -/
theorem hidden_right_col (i : S512x1024.Idx) (q : dot_S512x2048_S2048x1024_S512x1024_1_0_0_1_n_n.contr.Idx) :
    (dot_S512x2048_S2048x1024_S512x1024_1_0_0_1_n_n.rhsIdx i q 1).val = (i 1).val := by
  unfold DotDims.rhsIdx
  rw [dif_neg (show ¬(1 : Fin S2048x1024.rank) ∈ dot_S512x2048_S2048x1024_S512x1024_1_0_0_1_n_n.rhsBatch by decide),
    dif_pos (show (1 : Fin S2048x1024.rank) ∈ dot_S512x2048_S2048x1024_S512x1024_1_0_0_1_n_n.rhsNonContracting by decide)]
  rfl

/-- Entry `(r, j)` of a `[512, 2048]` block times a `[2048, 1024]` block, accumulated from zero, is
    `Σ_k a[r, k] · b[k, j]`. -/
theorem hidden_prod_apply (a : FVec Ideal S512x2048 .bf16) (b : FVec Ideal S2048x1024 .bf16) (r : Fin 512) (j : Fin 1024) :
    matmul (F := Ideal) dot_S512x2048_S2048x1024_S512x1024_1_0_0_1_n_n none a b (constant (F := Ideal) S512x1024 .f32 0x00000000#32) (ix2 r j)
      = ∑ k : Fin 2048, a (ix2 r k) * b (ix2 k j) := by
  simp only [matmul]
  rw [Ideal.matmul_constant_zero_apply,
    ← Equiv.sum_comp (contrEquiv1 dot_S512x2048_S2048x1024_S512x1024_1_0_0_1_n_n 2048 rfl rfl).symm]
  refine Finset.sum_congr rfl fun k _ => ?_
  have hk := contrEquiv1_symm_val dot_S512x2048_S2048x1024_S512x1024_1_0_0_1_n_n 2048 rfl rfl k
  have eleft : dot_S512x2048_S2048x1024_S512x1024_1_0_0_1_n_n.lhsIdx (ix2 r j)
      ((contrEquiv1 dot_S512x2048_S2048x1024_S512x1024_1_0_0_1_n_n 2048 rfl rfl).symm k) = ix2 r k :=
    funext fun c => Fin.ext (by
      match c with
      | ⟨0, _⟩ => exact hidden_left_row _ _
      | ⟨1, _⟩ => exact (hidden_left_col _ _).trans hk)
  have eright : dot_S512x2048_S2048x1024_S512x1024_1_0_0_1_n_n.rhsIdx (ix2 r j)
      ((contrEquiv1 dot_S512x2048_S2048x1024_S512x1024_1_0_0_1_n_n 2048 rfl rfl).symm k) = ix2 k j :=
    funext fun c => Fin.ext (by
      match c with
      | ⟨0, _⟩ => exact (hidden_right_row _ _).trans hk
      | ⟨1, _⟩ => exact hidden_right_col _ _)
  rw [eleft, eright]

/-! ## The three stored blocks at an entry -/

/-- Entry `(r, j)` of the perceptron block: `Σ_k max (Σ_d x[r, d] · w₁[d, k] + c₁[k]) 0 · w₂[k, j] + c₂[j]`. -/
theorem pay1_apply (v2 : Vec Ideal S512x128 .bf16) (v16 : Vec Ideal S128x2048 .bf16) (v20 : Vec Ideal S1x2048 .f32)
    (v31 : Vec Ideal S2048x1024 .bf16) (v35 : Vec Ideal S1x1024 .f32) (r : Fin 512) (j : Fin 1024) :
    k0_pay1 (F := Ideal) v2 v16 v20 v31 v35 (ix2 r j)
      = (∑ k : Fin 2048, max ((∑ d : Fin 128, v2 (ix2 r d) * v16 (ix2 d k)) + v20 (ix2 0 k)) 0 * v31 (ix2 k j))
        + v35 (ix2 0 j) := by
  unfold k0_pay1
  rw [shapeCast_self v2, shapeCast_self v16, shapeCast_self v31, addf_apply, hidden_prod_apply,
    rowRepeated v35 shapeCasts_S1x1024_S1024 shapeCasts_S1024_S1x1024 broadcasts_S1x1024_S512x1024 r j]
  refine congrArg (· + v35 (ix2 0 j)) (Finset.sum_congr rfl fun k _ => ?_)
  rw [truncf_apply, maximumf_apply, addf_apply, broadcast_apply, inRows_prod_apply,
    rowRepeated v20 shapeCasts_S1x2048_S2048 shapeCasts_S2048_S1x2048 broadcasts_S1x2048_S512x2048 r k,
    Ideal.ofBits_def, Ideal.ofBits_zero_f32]

/-- Entry `(r, j)` of the first embedding block is the embedding row's entry `j`. -/
theorem pay2_apply (v13 : Vec Ideal S1x1024 .f32) (r : Fin 512) (j : Fin 1024) :
    k0_pay2 (F := Ideal) v13 (ix2 r j) = v13 (ix2 0 j) := by
  unfold k0_pay2
  exact rowRepeated v13 shapeCasts_S1x1024_S1024 shapeCasts_S1024_S1x1024 broadcasts_S1x1024_S512x1024 r j

/-- Entry `(r, j)` of the second embedding block likewise. -/
theorem pay3_apply (v13 : Vec Ideal S1x1024 .f32) (r : Fin 512) (j : Fin 1024) :
    k0_pay3 (F := Ideal) v13 (ix2 r j) = v13 (ix2 0 j) := by
  unfold k0_pay3
  exact rowRepeated v13 shapeCasts_S1x1024_S1024 shapeCasts_S1024_S1x1024 broadcasts_S1x1024_S512x1024 r j

/-! ## Against the specification -/

/-- When the loaded weight and bias blocks are type `t`'s slices of the four arrays, row `r` of the perceptron block
    is the specification's perceptron of type `t` on row `r` of the loaded rows. -/
theorem pay1_eq_mlp (W1 : FVec Ideal Cert.Spec.SW1 .f32) (b1 : FVec Ideal Cert.Spec.SB1 .f32)
    (W2 : FVec Ideal Cert.Spec.SW2 .f32) (b2 : FVec Ideal Cert.Spec.SB2 .f32) (t : Fin 4)
    (v2 : Vec Ideal S512x128 .bf16) (v16 : Vec Ideal S128x2048 .bf16) (v20 : Vec Ideal S1x2048 .f32)
    (v31 : Vec Ideal S2048x1024 .bf16) (v35 : Vec Ideal S1x1024 .f32)
    (h16 : ∀ (d : Fin 128) (k : Fin 2048), v16 (ix2 d k) = W1 (ix3 t d k))
    (h20 : ∀ k : Fin 2048, v20 (ix2 0 k) = b1 (ix2 t k))
    (h31 : ∀ (k : Fin 2048) (j : Fin 1024), v31 (ix2 k j) = W2 (ix3 t k j))
    (h35 : ∀ j : Fin 1024, v35 (ix2 0 j) = b2 (ix2 t j)) (r : Fin 512) (j : Fin 1024) :
    k0_pay1 (F := Ideal) v2 v16 v20 v31 v35 (ix2 r j)
      = Cert.Spec.mlp W1 b1 W2 b2 t (fun d => v2 (ix2 r d)) j := by
  rw [pay1_apply]
  unfold Cert.Spec.mlp Cert.Spec.hid
  simp only [h16, h20, h31, h35]

end Cert.KernelIdeal.Hand
end
-- ==== Proof.KI_Region.lean ====
/-
  What the kernel region leaves in its padded output array, row by row.

  The region runs the body at 38 grid points.  At point `t` the body is handed block `t` (512 rows) of the padded
  rows, the four stacked weight and bias arrays and the two embedding rows whole, and one word of the block-type table;
  it stores one block of 512 rows by 1024 columns, which the region writes back as block `t` of the padded output.
  This module reads each input block off its array, shows that after the region the output's padded row `512 b + r` is
  row `r` of what the body stored at point `b` (every row lies in exactly the block of the point `q / 512`, and every
  point writes its block back), and evaluates that row from the block's type word: the perceptron of the word's type
  on the padded row for a word below 4, the first embedding row for 4, the second for 5.
-/
import proofs.«410392_j25512105739026_3_alg».proof.Proof.KI_Frame
import proofs.«410392_j25512105739026_3_alg».proof.Proof.KI_Hyps
import proofs.«410392_j25512105739026_3_alg».proof.Proof.KI_Payload
import proofs.«410392_j25512105739026_3_alg».proof.Proof.Spec
import Idealize.ShloMosaic.Lib.Pipeline.Value
import Idealize.ShloMosaic.Lib.Pipeline.FrameBody
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

variable {F : FTy → Type} [FloatOps F]

/-! ## The grid and the two moving index maps -/

/-- On the grid's one axis the coordinate of point `t` is `t`. -/
theorem coordG (t : Fin grid0.N) : (grid0.coords t 0).val = t.val := by
  have h : t.val < 38 := t.isLt
  show t.val / grid0.stride 0 % 38 = t.val
  rw [show grid0.stride 0 = 1 from by decide, Nat.div_one, Nat.mod_eq_of_lt h]

/-- The row-block index of the rows' window is the grid coordinate: a number below 38 survives the passage through a
    32-bit word. -/
theorem tr0_row (i : grid0.Coords) : cc0_transform_0 i (0 : Fin 2) = (i 0).val := by
  have h : (i 0).val < 38 := (i 0).isLt
  show (BitVec.ofNat 32 (i 0).val).toNat = (i 0).val
  rw [BitVec.toNat_ofNat]; omega

/-- The same for the output's window. -/
theorem tr6_row (i : grid0.Coords) : cc0_transform_6 i (0 : Fin 2) = (i 0).val := by
  have h : (i 0).val < 38 := (i 0).isLt
  show (BitVec.ofNat 32 (i 0).val).toNat = (i 0).val
  rw [BitVec.toNat_ofNat]; omega

/-! ## Each input window's block, read off any contents of its array -/

/-- Block `t` of the padded rows: entry `(r, d)` of the block is entry `(512 t + r, d)` of the array. -/
theorem readBlk0 (a : (pcfg0 (F := F)).Adm) (X : Vec F S19456x128 .bf16) (t : Fin (cfg0 a).N) (r : Fin 512) (d : Fin 128) :
    ((((cfg0 a).win 0).blk t).view.read (Elt F) X : Vec F S512x128 .bf16) (ix2 r d)
      = X (ix2 ⟨512 * t.val + r.val, by have : t.val < 38 := t.isLt; omega⟩ d) := by
  show X ((((cfg0 a).win 0).blk t).view.emb (ix2 r d)) = _
  refine congrArg X (funext fun b => Fin.ext ?_)
  match b with
  | ⟨0, _⟩ =>
    show cc0_transform_0 (grid0.coords t) (0 : Fin 2) * 512 + 1 * r.val = 512 * t.val + r.val
    rw [tr0_row, coordG]; omega
  | ⟨1, _⟩ =>
    show 0 * 128 + 1 * d.val = d.val
    omega

/-- The first weights' window is the whole stacked array, at block (0, 0). -/
theorem readBlk1 (a : (pcfg0 (F := F)).Adm) (X : Vec F S512x2048 .bf16) (t : Fin (cfg0 a).N) :
    ((((cfg0 a).win 1).blk t).view.read (Elt F) X : Vec F S512x2048 .bf16) = X := by
  refine funext fun (y : S512x2048.Idx) => ?_
  show X ((((cfg0 a).win 1).blk t).view.emb y) = X y
  refine congrArg X (funext fun b => Fin.ext ?_)
  match b with
  | ⟨0, _⟩ => show 0 * 512 + 1 * (y 0).val = (y 0).val; omega
  | ⟨1, _⟩ => show 0 * 2048 + 1 * (y 1).val = (y 1).val; omega

/-- The first biases' window is the whole array. -/
theorem readBlk2 (a : (pcfg0 (F := F)).Adm) (X : Vec F S4x2048 .f32) (t : Fin (cfg0 a).N) :
    ((((cfg0 a).win 2).blk t).view.read (Elt F) X : Vec F S4x2048 .f32) = X := by
  refine funext fun (y : S4x2048.Idx) => ?_
  show X ((((cfg0 a).win 2).blk t).view.emb y) = X y
  refine congrArg X (funext fun b => Fin.ext ?_)
  match b with
  | ⟨0, _⟩ => show 0 * 4 + 1 * (y 0).val = (y 0).val; omega
  | ⟨1, _⟩ => show 0 * 2048 + 1 * (y 1).val = (y 1).val; omega

/-- The second weights' window is the whole stacked array. -/
theorem readBlk3 (a : (pcfg0 (F := F)).Adm) (X : Vec F S8192x1024 .bf16) (t : Fin (cfg0 a).N) :
    ((((cfg0 a).win 3).blk t).view.read (Elt F) X : Vec F S8192x1024 .bf16) = X := by
  refine funext fun (y : S8192x1024.Idx) => ?_
  show X ((((cfg0 a).win 3).blk t).view.emb y) = X y
  refine congrArg X (funext fun b => Fin.ext ?_)
  match b with
  | ⟨0, _⟩ => show 0 * 8192 + 1 * (y 0).val = (y 0).val; omega
  | ⟨1, _⟩ => show 0 * 1024 + 1 * (y 1).val = (y 1).val; omega

/-- The second biases' window is the whole array. -/
theorem readBlk4 (a : (pcfg0 (F := F)).Adm) (X : Vec F S4x1024 .f32) (t : Fin (cfg0 a).N) :
    ((((cfg0 a).win 4).blk t).view.read (Elt F) X : Vec F S4x1024 .f32) = X := by
  refine funext fun (y : S4x1024.Idx) => ?_
  show X ((((cfg0 a).win 4).blk t).view.emb y) = X y
  refine congrArg X (funext fun b => Fin.ext ?_)
  match b with
  | ⟨0, _⟩ => show 0 * 4 + 1 * (y 0).val = (y 0).val; omega
  | ⟨1, _⟩ => show 0 * 1024 + 1 * (y 1).val = (y 1).val; omega

/-- The embedding rows' window is the whole array. -/
theorem readBlk5 (a : (pcfg0 (F := F)).Adm) (X : Vec F S2x1024 .f32) (t : Fin (cfg0 a).N) :
    ((((cfg0 a).win 5).blk t).view.read (Elt F) X : Vec F S2x1024 .f32) = X := by
  refine funext fun (y : S2x1024.Idx) => ?_
  show X ((((cfg0 a).win 5).blk t).view.emb y) = X y
  refine congrArg X (funext fun b => Fin.ext ?_)
  match b with
  | ⟨0, _⟩ => show 0 * 2 + 1 * (y 0).val = (y 0).val; omega
  | ⟨1, _⟩ => show 0 * 1024 + 1 * (y 1).val = (y 1).val; omega

/-! ## The output window's blocks -/

/-- The column-block index of the output's window is 0. -/
theorem tr6_col (i : grid0.Coords) : cc0_transform_6 i (1 : Fin 2) = 0 := rfl

/-- Block `t` of the padded output, read off any contents `G` of the array: entry `y` of the block is entry
    `(512 t + y₀, y₁)` of the array. -/
theorem readBlk6 (a : (pcfg0 (F := F)).Adm) (G : Vec F S19456x1024 .f32) (t : Fin (cfg0 a).N) (y : S512x1024.Idx) :
    ((((cfg0 a).win 6).blk t).view.read (Elt F) G : Vec F S512x1024 .f32) y
      = G (ix2 ⟨512 * t.val + (y 0).val, by have : t.val < 38 := t.isLt; have : (y 0).val < 512 := (y 0).isLt; omega⟩ (y 1)) := by
  show G ((((cfg0 a).win 6).blk t).view.emb y) = _
  refine congrArg G (funext fun b => Fin.ext ?_)
  match b with
  | ⟨0, _⟩ =>
    show cc0_transform_6 (grid0.coords t) (0 : Fin 2) * 512 + 1 * (y 0).val = 512 * t.val + (y 0).val
    rw [tr6_row, coordG]; omega
  | ⟨1, _⟩ =>
    show 0 * 1024 + 1 * (y 1).val = (y 1).val
    omega

/-- A padded row lies in point `t`'s block exactly when it is one of the rows `512 t, …, 512 t + 511` (the block spans
    all the columns). -/
theorem mem_blk6 (a : (pcfg0 (F := F)).Adm) (t : Fin (cfg0 a).N) (i : S19456x1024.Idx) :
    i ∈ (((cfg0 a).win 6).blk t).view.set ↔ 512 * t.val ≤ (i 0).val ∧ (i 0).val < 512 * t.val + 512 := by
  have key : i ∈ (((cfg0 a).win 6).blk t).view.set ↔ ∀ b : Fin 2,
      cc0_transform_6 (grid0.coords t) b * S512x1024.size b ≤ (i b).val
        ∧ (i b).val < cc0_transform_6 (grid0.coords t) b * S512x1024.size b + S512x1024.size b := by
    have e : (((cfg0 a).win 6).blk t).view.set = (((cfg0 a).win 6).rect t).set :=
      View.set_slice_whole main_v65 _
    rw [e]
    exact Rect.mem_set_unit
  rw [key]
  have hrow : cc0_transform_6 (grid0.coords t) (0 : Fin 2) = t.val := by rw [tr6_row, coordG]
  have hcol : (i 1).val < 1024 := (i 1).isLt
  constructor
  · intro h
    have h0 := h 0
    rw [hrow] at h0
    have e : S512x1024.size (0 : Fin 2) = 512 := rfl
    rw [e] at h0
    omega
  · intro h b
    match b with
    | ⟨0, _⟩ =>
      show cc0_transform_6 (grid0.coords t) (0 : Fin 2) * 512 ≤ (i 0).val ∧ (i 0).val < cc0_transform_6 (grid0.coords t) (0 : Fin 2) * 512 + 512
      rw [hrow]; omega
    | ⟨1, _⟩ =>
      show 0 * 1024 ≤ (i 1).val ∧ (i 1).val < 0 * 1024 + 1024
      omega

variable (m : (ℓ : Loc nD τ sig) → Buf (Elt F) ℓ)

/-! ## The blocks the body is handed, read off the arrays as the region finds them -/

/-- Row `r` of the rows' block at point `t` is padded row `512 t + r`. -/
theorem blk0_apply (c : Dev nD) (t : Fin (cfgM m).N) (r : Fin 512) (d : Fin 128) :
    (iblk m c 0 t : Vec F S512x128 .bf16) (ix2 r d)
      = (V m c main_v60 : Vec F S19456x128 .bf16) (ix2 ⟨512 * t.val + r.val, by have := point_lt m t; omega⟩ d) := by
  unfold iblk
  exact readBlk0 (adm m) (V m c main_v60) t r d

theorem blk1_whole (c : Dev nD) (t : Fin (cfgM m).N) :
    (iblk m c 1 t : Vec F S512x2048 .bf16) = (V m c main_v62 : Vec F S512x2048 .bf16) := by
  unfold iblk
  exact readBlk1 (adm m) (V m c main_v62) t

theorem blk2_whole (c : Dev nD) (t : Fin (cfgM m).N) :
    (iblk m c 2 t : Vec F S4x2048 .f32) = (V m c main_arg3 : Vec F S4x2048 .f32) := by
  unfold iblk
  exact readBlk2 (adm m) (V m c main_arg3) t

theorem blk3_whole (c : Dev nD) (t : Fin (cfgM m).N) :
    (iblk m c 3 t : Vec F S8192x1024 .bf16) = (V m c main_v64 : Vec F S8192x1024 .bf16) := by
  unfold iblk
  exact readBlk3 (adm m) (V m c main_v64) t

theorem blk4_whole (c : Dev nD) (t : Fin (cfgM m).N) :
    (iblk m c 4 t : Vec F S4x1024 .f32) = (V m c main_arg5 : Vec F S4x1024 .f32) := by
  unfold iblk
  exact readBlk4 (adm m) (V m c main_arg5) t

theorem blk5_whole (c : Dev nD) (t : Fin (cfgM m).N) :
    (iblk m c 5 t : Vec F S2x1024 .f32) = (V m c main_arg6 : Vec F S2x1024 .f32) := by
  unfold iblk
  exact readBlk5 (adm m) (V m c main_arg6) t

/-! ## The output array after the region -/

/-- The grid point whose block holds padded row `q`: `q / 512`. -/
def pointOf (q : Fin 19456) : Fin (cfgM m).N := ⟨q.val / 512, by have := q.isLt; show q.val / 512 < 38; omega⟩
/-- The place of padded row `q` inside that block: `q mod 512`. -/
def rowIn (q : Fin 19456) : Fin 512 := ⟨q.val % 512, Nat.mod_lt _ (by decide)⟩

/-- The whole padded output as one function: row `q` is row `q mod 512` of what the body leaves at point `q / 512`. -/
def outArr (hH : Hyps m) (c : Dev nD) : Vec F S19456x1024 .f32 :=
  fun i => outAt m hH c (pointOf m (i 0)) (ix2 (rowIn (i 0)) (i 1))

/-- At padded row `512 b + r` it is point `b`'s block at row `r`: the quotient is `b` and the remainder `r`. -/
theorem outArr_apply (hH : Hyps m) (c : Dev nD) (b : Fin (cfgM m).N) (r : Fin 512) (j : Fin 1024)
    (h : 512 * b.val + r.val < 19456) :
    outArr m hH c (ix2 ⟨512 * b.val + r.val, h⟩ j) = outAt m hH c b (ix2 r j) := by
  have e1 : pointOf m ⟨512 * b.val + r.val, h⟩ = b :=
    Fin.ext (by show (512 * b.val + r.val) / 512 = b.val; omega)
  have e2 : rowIn ⟨512 * b.val + r.val, h⟩ = r :=
    Fin.ext (by show (512 * b.val + r.val) % 512 = r.val; omega)
  show outAt m hH c (pointOf m ⟨512 * b.val + r.val, h⟩) (ix2 (rowIn ⟨512 * b.val + r.val, h⟩) j) = _
  rw [e1, e2]

/-- What point `t` writes back is block `t` of that function: the window is never cut, so the write-back moves all
    of what the body left. -/
theorem flushed6 (hH : Hyps m) (c : Dev nD) (t : Fin (cfgM m).N) :
    (dats m hH 0 c).flushed 6 t = (((cfgM m).win 6).blk t).view.read (Elt F) (outArr m hH c) := by
  refine funext fun (y : S512x1024.Idx) => ?_
  refine Eq.trans ?_ (readBlk6 (adm m) (outArr m hH c) t y).symm
  refine Eq.trans ?_ (outArr_apply m hH c t (y 0) (y 1) _).symm
  exact (congrFun (after6 m hH c t) y).trans (congrArg (outAt m hH c t) (eq_ix2 y))

/-- Every padded row lies in the block of the point `q / 512`, and every point writes its block back: the array
    ends holding that function. -/
theorem arr_eq (hH : Hyps m) (c : Dev nD) : (dats m hH 0 c).arrAt 6 (cfgM m).N = outArr m hH c :=
  (dats m hH 0 c).arrAt_eq_of_cover 6 (outArr m hH c) (fun t _ => flushed6 m hH c t) fun (i : S19456x1024.Idx) =>
    ⟨pointOf m (i 0), flush6 m _, (mem_blk6 (adm m) (pointOf m (i 0)) i).mpr
      ⟨by show 512 * ((i 0).val / 512) ≤ (i 0).val; omega,
       by show (i 0).val < 512 * ((i 0).val / 512) + 512; omega⟩⟩

/-- The array after the region at padded row `512 b + r` is point `b`'s block at row `r`. -/
theorem arr_apply (hH : Hyps m) (c : Dev nD) (b : Fin 38) (r : Fin 512) (j : Fin 1024) :
    ((dats m hH 0 c).arrAt 6 (cfgM m).N : Vec F S19456x1024 .f32)
        (ix2 ⟨512 * b.val + r.val, by have := b.isLt; have := r.isLt; omega⟩ j)
      = outAt m hH c ⟨b.val, b.isLt⟩ (ix2 r j) :=
  (congrFun (arr_eq m hH c) _).trans (outArr_apply m hH c ⟨b.val, b.isLt⟩ r j _)

/-! ## The block's value from its type word, over the extended reals -/

/-- A word below 4 meets the first condition. -/
theorem cond1_of_lt (g : ℕ) (hg : g < 4) : k0_cond1 (BitVec.ofNat 32 g) = 1#1 := by
  obtain rfl | rfl | rfl | rfl : g = 0 ∨ g = 1 ∨ g = 2 ∨ g = 3 := by omega
  all_goals decide

/-- The row offsets the body computes from a word `g` below 4: `128 g` into the stacked first weights, `g` into the
    first biases, `2048 g` into the stacked second weights, `g` into the second biases. -/
theorem offs_of_lt (g : ℕ) (hg : g < 4) :
    k0_off2 (BitVec.ofNat 32 g) (0 : Fin 2) = 128 * g ∧ k0_off3 (BitVec.ofNat 32 g) (0 : Fin 2) = g
      ∧ k0_off4 (BitVec.ofNat 32 g) (0 : Fin 2) = 2048 * g ∧ k0_off5 (BitVec.ofNat 32 g) (0 : Fin 2) = g := by
  obtain rfl | rfl | rfl | rfl : g = 0 ∨ g = 1 ∨ g = 2 ∨ g = 3 := by omega
  all_goals exact ⟨by decide, by decide, by decide, by decide⟩

/-- The column offsets are 0 whatever the word. -/
theorem offs_col (w : BitVec 32) :
    k0_off2 w (1 : Fin 2) = 0 ∧ k0_off3 w (1 : Fin 2) = 0 ∧ k0_off4 w (1 : Fin 2) = 0 ∧ k0_off5 w (1 : Fin 2) = 0 :=
  ⟨rfl, rfl, rfl, rfl⟩

/-- The perceptron block of a word `g` below 4, at row `r`: the slices the body cuts out of the stacked arrays at the
    word's offsets are type `g`'s weights and biases, so the row is type `g`'s perceptron of row `r` of the rows. -/
theorem expert_row (w : BitVec 32) (g : ℕ) (hg : g < 4) (hw : w = BitVec.ofNat 32 g) (chk : k0_chk1 w)
    (h1 : k0_cond1 w = 1#1)
    (X0 : Vec Ideal S512x128 .bf16) (X1 : Vec Ideal S512x2048 .bf16) (X2 : Vec Ideal S4x2048 .f32)
    (X3 : Vec Ideal S8192x1024 .bf16) (X4 : Vec Ideal S4x1024 .f32)
    (W1 : FVec Ideal Cert.Spec.SW1 .f32) (b1 : FVec Ideal Cert.Spec.SB1 .f32)
    (W2 : FVec Ideal Cert.Spec.SW2 .f32) (b2 : FVec Ideal Cert.Spec.SB2 .f32)
    (hw1 : ∀ (t : Fin 4) (d : Fin 128) (k : Fin 2048),
      X1 (ix2 ⟨128 * t.val + d.val, by have := t.isLt; have := d.isLt; omega⟩ k) = W1 (ix3 t d k))
    (hb1 : ∀ i, X2 i = b1 i)
    (hw2 : ∀ (t : Fin 4) (k : Fin 2048) (j : Fin 1024),
      X3 (ix2 ⟨2048 * t.val + k.val, by have := t.isLt; have := k.isLt; omega⟩ j) = W2 (ix3 t k j))
    (hb2 : ∀ i, X4 i = b2 i) (r : Fin 512) (j : Fin 1024) :
    k0_pay1 (F := Ideal) X0
        (View.ld X1 (Rect.unit (s := S512x2048) (k0_off2 w) S128x2048.size (k0_off2_inb w chk h1)))
        (View.ld X2 (Rect.unit (s := S4x2048) (k0_off3 w) S1x2048.size (k0_off3_inb w chk h1)))
        (View.ld X3 (Rect.unit (s := S8192x1024) (k0_off4 w) S2048x1024.size (k0_off4_inb w chk h1)))
        (View.ld X4 (Rect.unit (s := S4x1024) (k0_off5 w) S1x1024.size (k0_off5_inb w chk h1))) (ix2 r j)
      = Cert.Spec.mlp W1 b1 W2 b2 ⟨g, hg⟩ (fun d => X0 (ix2 r d)) j := by
  subst hw
  obtain ⟨o2, o3, o4, o5⟩ := offs_of_lt g hg
  refine pay1_eq_mlp W1 b1 W2 b2 ⟨g, hg⟩ X0 _ _ _ _ (fun d k => ?_) (fun k => ?_) (fun k j => ?_) (fun j => ?_) r j
  · refine Eq.trans (congrArg X1 (funext fun a => Fin.ext ?_)) (hw1 ⟨g, hg⟩ d k)
    match a with
    | ⟨0, _⟩ => show k0_off2 (BitVec.ofNat 32 g) (0 : Fin 2) + 1 * d.val = 128 * g + d.val; rw [o2]; omega
    | ⟨1, _⟩ => show 0 + 1 * k.val = k.val; omega
  · refine Eq.trans (congrArg X2 (funext fun a => Fin.ext ?_)) (hb1 (ix2 ⟨g, hg⟩ k))
    match a with
    | ⟨0, _⟩ => show k0_off3 (BitVec.ofNat 32 g) (0 : Fin 2) + 1 * 0 = g; rw [o3]; omega
    | ⟨1, _⟩ => show 0 + 1 * k.val = k.val; omega
  · refine Eq.trans (congrArg X3 (funext fun a => Fin.ext ?_)) (hw2 ⟨g, hg⟩ k j)
    match a with
    | ⟨0, _⟩ => show k0_off4 (BitVec.ofNat 32 g) (0 : Fin 2) + 1 * k.val = 2048 * g + k.val; rw [o4]; omega
    | ⟨1, _⟩ => show 0 + 1 * j.val = j.val; omega
  · refine Eq.trans (congrArg X4 (funext fun a => Fin.ext ?_)) (hb2 (ix2 ⟨g, hg⟩ j))
    match a with
    | ⟨0, _⟩ => show k0_off5 (BitVec.ofNat 32 g) (0 : Fin 2) + 1 * 0 = g; rw [o5]; omega
    | ⟨1, _⟩ => show 0 + 1 * j.val = j.val; omega

/-- The first fill block at row `r` is the embedding array's row 0. -/
theorem fill0_row (X5 : Vec Ideal S2x1024 .f32) (r : Fin 512) (j : Fin 1024) :
    k0_pay2 (F := Ideal) (View.ld X5 (Rect.unit (s := S2x1024) ![0, 0] S1x1024.size inb_S2x1024_S1x1024_0_0)) (ix2 r j)
      = X5 (ix2 0 j) := by
  rw [pay2_apply]
  refine congrArg X5 (funext fun a => Fin.ext ?_)
  match a with
  | ⟨0, _⟩ => show 0 + 1 * 0 = 0; rfl
  | ⟨1, _⟩ => show 0 + 1 * j.val = j.val; omega

/-- The second fill block at row `r` is the embedding array's row 1. -/
theorem fill1_row (X5 : Vec Ideal S2x1024 .f32) (r : Fin 512) (j : Fin 1024) :
    k0_pay3 (F := Ideal) (View.ld X5 (Rect.unit (s := S2x1024) ![1, 0] S1x1024.size inb_S2x1024_S1x1024_1_0)) (ix2 r j)
      = X5 (ix2 1 j) := by
  rw [pay3_apply]
  refine congrArg X5 (funext fun a => Fin.ext ?_)
  match a with
  | ⟨0, _⟩ => show 1 + 1 * 0 = 1; rfl
  | ⟨1, _⟩ => show 0 + 1 * j.val = j.val; omega

section AtIdeal

variable (m : (ℓ : Loc nD τ sig) → Buf (Elt Ideal) ℓ)

/-- The block of a point whose word is `g` below 4, at row `r`: type `g`'s perceptron of row `r` of the point's rows. -/
theorem outAt_expert (hH : Hyps m) (c : Dev nD) (t : Fin (cfgM m).N) (g : ℕ) (hg : g < 4)
    (hword : wd m c t = BitVec.ofNat 32 g)
    (W1 : FVec Ideal Cert.Spec.SW1 .f32) (b1 : FVec Ideal Cert.Spec.SB1 .f32)
    (W2 : FVec Ideal Cert.Spec.SW2 .f32) (b2 : FVec Ideal Cert.Spec.SB2 .f32)
    (hw1 : ∀ (t : Fin 4) (d : Fin 128) (k : Fin 2048),
      (V m c main_v62 : Vec Ideal S512x2048 .bf16) (ix2 ⟨128 * t.val + d.val, by have := t.isLt; have := d.isLt; omega⟩ k) = W1 (ix3 t d k))
    (hb1 : ∀ i, (V m c main_arg3 : Vec Ideal S4x2048 .f32) i = b1 i)
    (hw2 : ∀ (t : Fin 4) (k : Fin 2048) (j : Fin 1024),
      (V m c main_v64 : Vec Ideal S8192x1024 .bf16) (ix2 ⟨2048 * t.val + k.val, by have := t.isLt; have := k.isLt; omega⟩ j) = W2 (ix3 t k j))
    (hb2 : ∀ i, (V m c main_arg5 : Vec Ideal S4x1024 .f32) i = b2 i) (r : Fin 512) (j : Fin 1024) :
    outAt m hH c t (ix2 r j)
      = Cert.Spec.mlp W1 b1 W2 b2 ⟨g, hg⟩ (fun d => (iblk m c 0 t : Vec Ideal S512x128 .bf16) (ix2 r d)) j := by
  have h1 : k0_cond1 (wd m c t) = 1#1 := hword ▸ cond1_of_lt g hg
  refine (congrFun (outAt_A m hH c t h1) (ix2 r j)).trans ?_
  exact expert_row (wd m c t) g hg hword (hH.chk c t) h1 (iblk m c 0 t) (iblk m c 1 t) (iblk m c 2 t) (iblk m c 3 t)
    (iblk m c 4 t) W1 b1 W2 b2
    (fun t' d k => (congrFun (blk1_whole m c t) _).trans (hw1 t' d k))
    (fun i => (congrFun (blk2_whole m c t) i).trans (hb1 i))
    (fun t' k j => (congrFun (blk3_whole m c t) _).trans (hw2 t' k j))
    (fun i => (congrFun (blk4_whole m c t) i).trans (hb2 i)) r j

/-- The block of a point whose word is 4, at any row: the embedding array's row 0. -/
theorem outAt_fill0 (hH : Hyps m) (c : Dev nD) (t : Fin (cfgM m).N) (hword : wd m c t = 4#32) (r : Fin 512) (j : Fin 1024) :
    outAt m hH c t (ix2 r j) = (V m c main_arg6 : Vec Ideal S2x1024 .f32) (ix2 0 j) := by
  refine (congrFun (outAt_B m hH c t ((cond2_iff _).mpr hword)) (ix2 r j)).trans ?_
  exact (fill0_row (iblk m c 5 t) r j).trans (congrFun (blk5_whole m c t) _)

/-- The block of a point whose word is 5, at any row: the embedding array's row 1. -/
theorem outAt_fill1 (hH : Hyps m) (c : Dev nD) (t : Fin (cfgM m).N) (hword : wd m c t = 5#32) (r : Fin 512) (j : Fin 1024) :
    outAt m hH c t (ix2 r j) = (V m c main_arg6 : Vec Ideal S2x1024 .f32) (ix2 1 j) := by
  refine (congrFun (outAt_C m hH c t ((cond3_iff _).mpr hword)) (ix2 r j)).trans ?_
  exact (fill1_row (iblk m c 5 t) r j).trans (congrFun (blk5_whole m c t) _)

/-- Padded row `q` of the output after the region, when the word of block `q / 512` is `g ≤ 5`, the stacked arrays
    hold the four types' weights and biases, and padded row `q` of the rows is `xr`: the specification's encoding of
    `xr` at type `g`. -/
theorem arr_encRow (hH : Hyps m) (c : Dev nD)
    (W1 : FVec Ideal Cert.Spec.SW1 .f32) (b1 : FVec Ideal Cert.Spec.SB1 .f32)
    (W2 : FVec Ideal Cert.Spec.SW2 .f32) (b2 : FVec Ideal Cert.Spec.SB2 .f32) (emb : FVec Ideal Cert.Spec.SE .f32)
    (hw1 : ∀ (t : Fin 4) (d : Fin 128) (k : Fin 2048),
      (V m c main_v62 : Vec Ideal S512x2048 .bf16) (ix2 ⟨128 * t.val + d.val, by have := t.isLt; have := d.isLt; omega⟩ k) = W1 (ix3 t d k))
    (hb1 : ∀ i, (V m c main_arg3 : Vec Ideal S4x2048 .f32) i = b1 i)
    (hw2 : ∀ (t : Fin 4) (k : Fin 2048) (j : Fin 1024),
      (V m c main_v64 : Vec Ideal S8192x1024 .bf16) (ix2 ⟨2048 * t.val + k.val, by have := t.isLt; have := k.isLt; omega⟩ j) = W2 (ix3 t k j))
    (hb2 : ∀ i, (V m c main_arg5 : Vec Ideal S4x1024 .f32) i = b2 i)
    (hemb : ∀ i, (V m c main_arg6 : Vec Ideal S2x1024 .f32) i = emb i)
    (q : Fin 19456) (g : ℕ) (hg : g ≤ 5)
    (hbt : (V m c main_v44 : IVec S38 32) (ix1 ⟨q.val / 512, by have := q.isLt; omega⟩) = BitVec.ofNat 32 g)
    (xr : Fin 128 → EReal) (hx : ∀ d : Fin 128, (V m c main_v60 : Vec Ideal S19456x128 .bf16) (ix2 q d) = xr d)
    (j : Fin 1024) :
    ((dats m hH 0 c).arrAt 6 (cfgM m).N : Vec Ideal S19456x1024 .f32) (ix2 q j)
      = Cert.Spec.encRow W1 b1 W2 b2 emb g xr j := by
  -- row `q` of the array is row `q mod 512` of the block of point `q / 512`
  refine (congrFun (arr_eq m hH c) (ix2 q j)).trans ?_
  show outAt m hH c (pointOf m q) (ix2 (rowIn q) j) = _
  -- that point's word is `g`
  have hword : wd m c (pointOf m q) = BitVec.ofNat 32 g := (wordAt_tbl m c (pointOf m q)).trans hbt
  -- and row `q mod 512` of its rows is padded row `q`
  have hrow : (fun d : Fin 128 => (iblk m c 0 (pointOf m q) : Vec Ideal S512x128 .bf16) (ix2 (rowIn q) d)) = xr :=
    funext fun d => by
      refine (blk0_apply m c (pointOf m q) (rowIn q) d).trans (Eq.trans ?_ (hx d))
      refine congrArg (V m c main_v60 : Vec Ideal S19456x128 .bf16) (congrArg (ix2 · d) (Fin.ext ?_))
      show 512 * (q.val / 512) + q.val % 512 = q.val
      omega
  obtain rfl | rfl | rfl | rfl | rfl | rfl : g = 0 ∨ g = 1 ∨ g = 2 ∨ g = 3 ∨ g = 4 ∨ g = 5 := by omega
  · rw [outAt_expert m hH c _ 0 (by decide) hword W1 b1 W2 b2 hw1 hb1 hw2 hb2, hrow]
    unfold Cert.Spec.encRow; rw [dif_pos (by decide)]
  · rw [outAt_expert m hH c _ 1 (by decide) hword W1 b1 W2 b2 hw1 hb1 hw2 hb2, hrow]
    unfold Cert.Spec.encRow; rw [dif_pos (by decide)]
  · rw [outAt_expert m hH c _ 2 (by decide) hword W1 b1 W2 b2 hw1 hb1 hw2 hb2, hrow]
    unfold Cert.Spec.encRow; rw [dif_pos (by decide)]
  · rw [outAt_expert m hH c _ 3 (by decide) hword W1 b1 W2 b2 hw1 hb1 hw2 hb2, hrow]
    unfold Cert.Spec.encRow; rw [dif_pos (by decide)]
  · rw [outAt_fill0 m hH c _ hword, hemb]
    unfold Cert.Spec.encRow; rw [dif_neg (by decide), if_pos rfl]
  · rw [outAt_fill1 m hH c _ hword, hemb]
    unfold Cert.Spec.encRow; rw [dif_neg (by decide), if_neg (by decide), if_pos rfl]

end AtIdeal

end Cert.KernelIdeal.Hand

end
-- ==== Proof.SortOrder.lean ====
import Idealize.ShloMosaic.PureOps
import Idealize.ShloMosaic.Lib.SortFacts

/-!
# The stable argsort of a rank-1 table of signed words

A stable sort of `n` keys by signed less-than, a second table carried along, reads both tables through one self-map
`src keys` of the positions: sorted position `k` holds what position `src keys k` held.  `src keys` is a bijection,
the keys read through it are nondecreasing as signed integers (as naturals when all are nonnegative), and carrying the
identity table along returns `src keys` itself, word by word.
-/

namespace Cert.SortOrder

open Idealize.ShloMosaic

variable {n : ℕ}

/-- The position whose key lands at sorted position `k`. -/
def src (keys : (⟨1, ![n]⟩ : Shape).Idx → BitVec 32) (k : Fin n) : Fin n :=
  sortedFrom (fun a b => IntOp.cmpi .slt (keys (Shape.Idx.ofFin a)) (keys (Shape.Idx.ofFin b)) == 1#1) k

theorem src_injective (keys : (⟨1, ![n]⟩ : Shape).Idx → BitVec 32) : Function.Injective (src keys) :=
  sortedFrom_injective _

theorem src_surjective (keys : (⟨1, ![n]⟩ : Shape).Idx → BitVec 32) : Function.Surjective (src keys) :=
  sortedFrom_surjective _

/-- The signed less-than word is `1` exactly when the left word, read as a signed integer, is the smaller. -/
theorem slt_word_eq_one (x y : BitVec 32) : IntOp.cmpi .slt x y = 1#1 ↔ x.toInt < y.toInt := by
  rw [← BitVec.slt_iff_toInt_lt]
  show BitVec.ofBool (x.slt y) = 1#1 ↔ _
  cases x.slt y <;> decide

/-- A comparator that looks at the keys alone sorts the pairs as the keys are sorted: the first table read through
    `src keys`, -/
theorem sort2_fst (cmp : BitVec 32 × BitVec 32 → BitVec 32 × BitVec 32 → BitVec 1)
    (hcmp : ∀ l r, cmp l r = IntOp.cmpi .slt l.1 r.1) (keys y : (⟨1, ![n]⟩ : Shape).Idx → BitVec 32)
    (j : (⟨1, ![n]⟩ : Shape).Idx) :
    (Host.sort2 ⟨1, ![n]⟩ 0 cmp keys y).1 j = keys (Shape.Idx.ofFin (src keys (j 0))) := by
  unfold Host.sort2 src
  simp [hcmp]

/-- and the second table through the same map. -/
theorem sort2_snd (cmp : BitVec 32 × BitVec 32 → BitVec 32 × BitVec 32 → BitVec 1)
    (hcmp : ∀ l r, cmp l r = IntOp.cmpi .slt l.1 r.1) (keys y : (⟨1, ![n]⟩ : Shape).Idx → BitVec 32)
    (j : (⟨1, ![n]⟩ : Shape).Idx) :
    (Host.sort2 ⟨1, ![n]⟩ 0 cmp keys y).2 j = y (Shape.Idx.ofFin (src keys (j 0))) := by
  unfold Host.sort2 src
  simp [hcmp]

/-- The keys read through `src keys` are nondecreasing as signed integers: signed less-than is asymmetric and its
    negation is transitive, so the stable sort leaves no later key strictly below an earlier one. -/
theorem src_sorted (keys : (⟨1, ![n]⟩ : Shape).Idx → BitVec 32) {i j : Fin n} (h : i ≤ j) :
    (keys (Shape.Idx.ofFin (src keys i))).toInt ≤ (keys (Shape.Idx.ofFin (src keys j))).toInt := by
  rcases lt_or_eq_of_le h with hlt | heq
  · have hB : ∀ a b : Fin n,
        ((IntOp.cmpi .slt (keys (Shape.Idx.ofFin a)) (keys (Shape.Idx.ofFin b)) == 1#1) = true)
          ↔ (keys (Shape.Idx.ofFin a)).toInt < (keys (Shape.Idx.ofFin b)).toInt := by
      intro a b
      rw [beq_iff_eq, slt_word_eq_one]
    have hB' : ∀ a b : Fin n,
        ((IntOp.cmpi .slt (keys (Shape.Idx.ofFin a)) (keys (Shape.Idx.ofFin b)) == 1#1) = false)
          ↔ (keys (Shape.Idx.ofFin b)).toInt ≤ (keys (Shape.Idx.ofFin a)).toInt := by
      intro a b
      rw [← Bool.not_eq_true, hB, not_lt]
    have hno := sortedFrom_noInversion
      (fun a b => IntOp.cmpi .slt (keys (Shape.Idx.ofFin a)) (keys (Shape.Idx.ofFin b)) == 1#1)
      (fun a b => IntOp.cmpi .slt (keys (Shape.Idx.ofFin a)) (keys (Shape.Idx.ofFin b)) == 1#1)
      (fun a b hab => (hB' b a).mpr (le_of_lt ((hB a b).mp hab)))
      (fun _ _ hab => hab)
      (fun a b c hab hbc => (hB' a c).mpr (le_trans ((hB' b c).mp hbc) ((hB' a b).mp hab)))
      i j hlt
    exact (hB' _ _).mp hno
  · rw [heq]

/-- Nonnegative keys are nondecreasing as naturals too. -/
theorem src_monotone_toNat (keys : (⟨1, ![n]⟩ : Shape).Idx → BitVec 32) (hk : ∀ k, (keys k).toNat < 2 ^ 31) :
    Monotone fun p : Fin n => (keys (Shape.Idx.ofFin (src keys p))).toNat := by
  intro i j h
  have hs := src_sorted keys h
  have hi := hk (Shape.Idx.ofFin (src keys i))
  have hj := hk (Shape.Idx.ofFin (src keys j))
  rw [BitVec.toInt_eq_toNat_of_lt (by omega), BitVec.toInt_eq_toNat_of_lt (by omega)] at hs
  exact Int.ofNat_le.mp hs

/-- The identity table holds each position's own coordinate. -/
theorem iota_apply (n : ℕ) (j : (⟨1, ![n]⟩ : Shape).Idx) :
    iotaInDim ⟨1, ![n]⟩ 32 0 j = BitVec.ofNat 32 (j 0).val := rfl

/-- The stable argsort: the identity table carried through the sort holds, at sorted position `j`, the position its
    key came from. -/
theorem argsort_apply (cmp : BitVec 32 × BitVec 32 → BitVec 32 × BitVec 32 → BitVec 1)
    (hcmp : ∀ l r, cmp l r = IntOp.cmpi .slt l.1 r.1) (keys : (⟨1, ![n]⟩ : Shape).Idx → BitVec 32)
    (j : (⟨1, ![n]⟩ : Shape).Idx) :
    (Host.sort2 ⟨1, ![n]⟩ 0 cmp keys (iotaInDim ⟨1, ![n]⟩ 32 0)).2 j = BitVec.ofNat 32 (src keys (j 0)).val := by
  rw [sort2_snd cmp hcmp, iota_apply, Shape.Idx.ofFin_zero]

attribute [irreducible] src

end Cert.SortOrder
-- ==== Proof.Routing.lean ====
import Mathlib.Algebra.BigOperators.Fin
import Mathlib.Algebra.BigOperators.Intervals
import Mathlib.Algebra.Order.BigOperators.Group.Finset
import Mathlib.Data.Fintype.Card
import Mathlib.Order.Monotone.Basic
import Mathlib.Order.Interval.Finset.Fin

/-!
# Rows sorted by group, each group padded to whole blocks

`N` rows carry keys `s p < G` in nondecreasing order of the position `p`.  Group `g` is the run of positions
whose key is `g`; it starts at position `below s g` (the number of smaller keys) and has `cnt s g` rows.  Every group
is given `blocks tn s g = ⌈cnt s g / tn⌉` blocks of `tn` rows, the groups' block ranges laid one after the other, so
group `g`'s first block is `blocksBelow tn s g`.  Position `p` of group `g` goes to row
`dest tn s p = blocksBelow tn s g · tn + (p - below s g)` of the padded layout.

Stated here: a position lies in its group's run; destinations stay inside the `N / tn + G` blocks, are pairwise distinct,
and the block a destination falls in belongs to the row's own group, which is also the number of groups whose block
range has ended by that block.
-/

open scoped BigOperators

namespace Cert.Routing

variable {N : ℕ}

/-- How many positions carry key `g`. -/
def cnt (s : Fin N → ℕ) (g : ℕ) : ℕ := (Finset.univ.filter fun p : Fin N => s p = g).card

/-- How many positions carry a key below `g`: where group `g`'s run starts. -/
def below (s : Fin N → ℕ) (g : ℕ) : ℕ := ∑ g' ∈ Finset.range g, cnt s g'

/-- The blocks of `tn` rows group `g` is given: its row count rounded up. -/
def blocks (tn : ℕ) (s : Fin N → ℕ) (g : ℕ) : ℕ := (cnt s g + tn - 1) / tn

/-- The blocks given to the groups below `g`: group `g`'s first block. -/
def blocksBelow (tn : ℕ) (s : Fin N → ℕ) (g : ℕ) : ℕ := ∑ g' ∈ Finset.range g, blocks tn s g'

/-- The padded row position `p` is sent to. -/
def dest (tn : ℕ) (s : Fin N → ℕ) (p : Fin N) : ℕ := blocksBelow tn s (s p) * tn + (p.val - below s (s p))

/-- The number of groups, among the first `G`, whose block range ends at or before block `b`. -/
def endedBy (tn G : ℕ) (s : Fin N → ℕ) (b : ℕ) : ℕ := ((Finset.range G).filter fun g => blocksBelow tn s (g + 1) ≤ b).card

/-- The start of group `g`'s run is the number of positions whose key is below `g`: the keys below `g` are counted
one key at a time, and exchanging the two sums counts each position once, when its key is below `g`. -/
theorem below_eq_card (s : Fin N → ℕ) (g : ℕ) :
    below s g = (Finset.univ.filter fun p : Fin N => s p < g).card := by
  unfold below cnt
  simp only [Finset.card_filter]
  rw [Finset.sum_comm]
  refine Finset.sum_congr rfl fun p _ => ?_
  simp [Finset.sum_ite_eq, Finset.mem_range]

theorem below_succ (s : Fin N → ℕ) (g : ℕ) : below s (g + 1) = below s g + cnt s g :=
  Finset.sum_range_succ _ _

theorem blocksBelow_succ (tn : ℕ) (s : Fin N → ℕ) (g : ℕ) :
    blocksBelow tn s (g + 1) = blocksBelow tn s g + blocks tn s g :=
  Finset.sum_range_succ _ _

/-- A run never starts past the last position. -/
theorem below_le (s : Fin N → ℕ) (g : ℕ) : below s g ≤ N := by
  rw [below_eq_card]
  calc (Finset.univ.filter fun p : Fin N => s p < g).card
      ≤ (Finset.univ : Finset (Fin N)).card := Finset.card_filter_le _ _
    _ = N := by simp

/-- The keys are all below `G`: the groups' sizes add up to `N`. -/
theorem below_top (s : Fin N → ℕ) (G : ℕ) (hG : ∀ p, s p < G) : below s G = N := by
  rw [below_eq_card, Finset.filter_true_of_mem (fun p _ => hG p), Finset.card_univ, Fintype.card_fin]

theorem cnt_le (s : Fin N → ℕ) (g : ℕ) : cnt s g ≤ N := by
  unfold cnt
  calc (Finset.univ.filter fun p : Fin N => s p = g).card
      ≤ (Finset.univ : Finset (Fin N)).card := Finset.card_filter_le _ _
    _ = N := by simp

theorem below_mono (s : Fin N → ℕ) {g g' : ℕ} (h : g ≤ g') : below s g ≤ below s g' := by
  unfold below
  exact Finset.sum_le_sum_of_subset (Finset.range_mono h)

theorem blocksBelow_mono (tn : ℕ) (s : Fin N → ℕ) {g g' : ℕ} (h : g ≤ g') : blocksBelow tn s g ≤ blocksBelow tn s g' := by
  unfold blocksBelow
  exact Finset.sum_le_sum_of_subset (Finset.range_mono h)

/-- A group's blocks hold its rows: the quotient of `cnt + tn - 1` by `tn`, times `tn`, falls short of
`cnt + tn - 1` by a remainder below `tn`. -/
theorem cnt_le_blocks_mul (tn : ℕ) (htn : 0 < tn) (s : Fin N → ℕ) (g : ℕ) :
    cnt s g ≤ blocks tn s g * tn := by
  unfold blocks
  have h1 := Nat.div_add_mod (cnt s g + tn - 1) tn
  have h2 := Nat.mod_lt (cnt s g + tn - 1) htn
  rw [Nat.mul_comm] at h1
  omega

/-- A group gets at most one block beyond the whole blocks its rows fill. -/
theorem blocks_le (tn : ℕ) (htn : 0 < tn) (s : Fin N → ℕ) (g : ℕ) :
    blocks tn s g ≤ cnt s g / tn + 1 := by
  unfold blocks
  calc (cnt s g + tn - 1) / tn ≤ (cnt s g + tn) / tn := Nat.div_le_div_right (Nat.sub_le _ _)
    _ = cnt s g / tn + 1 := Nat.add_div_right _ htn

/-- The blocks given to the first `g` groups hold at least their rows. -/
theorem below_le_blocksBelow (tn : ℕ) (htn : 0 < tn) (s : Fin N → ℕ) (g : ℕ) : below s g ≤ blocksBelow tn s g * tn := by
  unfold below blocksBelow
  rw [Finset.sum_mul]
  exact Finset.sum_le_sum fun g' _ => cnt_le_blocks_mul tn htn s g'

/-- At most one block per group beyond the whole blocks the rows fill. -/
theorem blocksBelow_le (tn : ℕ) (htn : 0 < tn) (s : Fin N → ℕ) (g : ℕ) : blocksBelow tn s g ≤ N / tn + g := by
  have h1 : blocksBelow tn s g ≤ ∑ g' ∈ Finset.range g, (cnt s g' / tn + 1) := by
    unfold blocksBelow
    exact Finset.sum_le_sum fun g' _ => blocks_le tn htn s g'
  have h2 : ∑ g' ∈ Finset.range g, (cnt s g' / tn + 1) = (∑ g' ∈ Finset.range g, cnt s g' / tn) + g := by
    rw [Finset.sum_add_distrib]
    simp
  -- the whole blocks of the separate groups, put together, are whole blocks of all their rows
  have h3 : (∑ g' ∈ Finset.range g, cnt s g' / tn) ≤ below s g / tn := by
    rw [Nat.le_div_iff_mul_le htn, Finset.sum_mul]
    unfold below
    exact Finset.sum_le_sum fun g' _ => Nat.div_mul_le_self _ _
  have h4 : below s g / tn ≤ N / tn := Nat.div_le_div_right (below_le s g)
  omega

/-- A position lies in the run of its own key: past the smaller keys, -/
theorem below_le_pos (s : Fin N → ℕ) (hs : Monotone s) (p : Fin N) : below s (s p) ≤ p.val := by
  rw [below_eq_card]
  -- a position with a smaller key comes before `p`, the keys being nondecreasing
  calc (Finset.univ.filter fun q : Fin N => s q < s p).card ≤ (Finset.Iio p).card := by
        apply Finset.card_le_card
        intro q hq
        simp only [Finset.mem_filter, Finset.mem_univ, true_and] at hq
        rw [Finset.mem_Iio]
        by_contra h
        exact absurd (hs (not_lt.mp h)) (not_le.mpr hq)
    _ = p.val := Fin.card_Iio p

/-- and before the larger ones. -/
theorem pos_lt_below_succ (s : Fin N → ℕ) (hs : Monotone s) (p : Fin N) : p.val < below s (s p) + cnt s (s p) := by
  rw [← below_succ, below_eq_card]
  -- the positions up to `p` all carry a key at most `s p`
  have h : (Finset.Iic p).card ≤ (Finset.univ.filter fun q : Fin N => s q < s p + 1).card := by
    apply Finset.card_le_card
    intro q hq
    rw [Finset.mem_Iic] at hq
    simp only [Finset.mem_filter, Finset.mem_univ, true_and]
    exact Nat.lt_succ_of_le (hs hq)
  rw [Fin.card_Iic] at h
  omega

/-- A destination lies in a block of its own group's range. -/
theorem dest_div_ge (tn : ℕ) (htn : 0 < tn) (s : Fin N → ℕ) (hs : Monotone s) (p : Fin N) :
    blocksBelow tn s (s p) ≤ dest tn s p / tn := by
  rw [Nat.le_div_iff_mul_le htn]
  unfold dest
  exact Nat.le_add_right _ _

theorem dest_div_lt (tn : ℕ) (htn : 0 < tn) (s : Fin N → ℕ) (hs : Monotone s) (p : Fin N) :
    dest tn s p / tn < blocksBelow tn s (s p + 1) := by
  rw [blocksBelow_succ, Nat.div_lt_iff_lt_mul htn, Nat.add_mul]
  unfold dest
  -- the offset inside the run is below the group's row count, which its blocks hold
  have h1 := pos_lt_below_succ s hs p
  have h2 := below_le_pos s hs p
  have h3 := cnt_le_blocks_mul tn htn s (s p)
  omega

/-- Destinations stay inside the `N / tn + G` blocks. -/
theorem dest_lt (tn G : ℕ) (htn : 0 < tn) (s : Fin N → ℕ) (hs : Monotone s) (hG : ∀ p, s p < G) (p : Fin N) :
    dest tn s p < (N / tn + G) * tn := by
  rw [← Nat.div_lt_iff_lt_mul htn]
  calc dest tn s p / tn < blocksBelow tn s (s p + 1) := dest_div_lt tn htn s hs p
    _ ≤ blocksBelow tn s G := blocksBelow_mono tn s (Nat.succ_le_of_lt (hG p))
    _ ≤ N / tn + G := blocksBelow_le tn htn s G

/-- A smaller key is sent to an earlier block: its group's block range ends before the other's begins. -/
theorem dest_div_lt_of_lt (tn : ℕ) (htn : 0 < tn) (s : Fin N → ℕ) (hs : Monotone s) {p q : Fin N}
    (h : s p < s q) : dest tn s p / tn < dest tn s q / tn :=
  calc dest tn s p / tn < blocksBelow tn s (s p + 1) := dest_div_lt tn htn s hs p
    _ ≤ blocksBelow tn s (s q) := blocksBelow_mono tn s (Nat.succ_le_of_lt h)
    _ ≤ dest tn s q / tn := dest_div_ge tn htn s hs q

/-- Two positions are never sent to one row. -/
theorem dest_injective (tn : ℕ) (htn : 0 < tn) (s : Fin N → ℕ) (hs : Monotone s) : Function.Injective (dest tn s) := by
  intro p q h
  rcases Nat.lt_trichotomy (s p) (s q) with hlt | heq | hgt
  · have hd := dest_div_lt_of_lt tn htn s hs hlt
    rw [h] at hd
    exact absurd hd (lt_irrefl _)
  · -- one group: the two rows differ as the two offsets in the run do
    have hp := below_le_pos s hs p
    have hq := below_le_pos s hs q
    unfold dest at h
    rw [heq] at h hp
    apply Fin.ext
    omega
  · have hd := dest_div_lt_of_lt tn htn s hs hgt
    rw [h] at hd
    exact absurd hd (lt_irrefl _)

/-- The groups whose block range has ended by the block of a destination are exactly the groups below the row's own. -/
theorem endedBy_dest (tn G : ℕ) (htn : 0 < tn) (s : Fin N → ℕ) (hs : Monotone s) (hG : ∀ p, s p < G) (p : Fin N) :
    endedBy tn G s (dest tn s p / tn) = s p := by
  unfold endedBy
  have hset : ((Finset.range G).filter fun g => blocksBelow tn s (g + 1) ≤ dest tn s p / tn)
      = Finset.range (s p) := by
    ext g'
    simp only [Finset.mem_filter, Finset.mem_range]
    constructor
    · -- a group at or past the row's own ends after the row's block
      rintro ⟨_, hle⟩
      by_contra hnot
      have hge : s p ≤ g' := not_lt.mp hnot
      have h1 : blocksBelow tn s (s p + 1) ≤ blocksBelow tn s (g' + 1) :=
        blocksBelow_mono tn s (Nat.succ_le_succ hge)
      have h2 := dest_div_lt tn htn s hs p
      omega
    · -- a group below the row's own ends where a group at most the row's own begins
      intro hlt
      exact ⟨lt_trans hlt (hG p),
        (blocksBelow_mono tn s (Nat.succ_le_of_lt hlt)).trans (dest_div_ge tn htn s hs p)⟩
  rw [hset, Finset.card_range]

/-- It is at most `G`, whatever the block. -/
theorem endedBy_le (tn G : ℕ) (s : Fin N → ℕ) (b : ℕ) : endedBy tn G s b ≤ G := by
  unfold endedBy
  calc ((Finset.range G).filter fun g => blocksBelow tn s (g + 1) ≤ b).card
      ≤ (Finset.range G).card := Finset.card_filter_le _ _
    _ = G := Finset.card_range G

end Cert.Routing
-- ==== Proof.IntReads.lean ====
import Idealize.ShloMosaic.PureOps.Dims
import Idealize.ShloMosaic.PureOps.ShapeOps
import Idealize.ShloMosaic.PureOps.Reduce
import Idealize.ShloMosaic.Lib.ValueIdx
import Idealize.ShloMosaic.Lib.StableHlo.Predicate
import Mathlib.Data.BitVec

/-!
# Three integer reads, at one element each

A vector indexed by a column of positions; the sum of a two-axis array of words along either axis; and that sum taken
of a one-bit mask widened to words, which counts the set bits.  All extents are variables.
-/

namespace Cert.IntReads

open Idealize.ShloMosaic Idealize.ShloMosaic.ValueIdx

/-! ## A vector indexed by a column of positions -/

/-- A word whose unsigned value is below an extent `n ≤ 2^31`, read signed and clamped into `[0, n − 1]`, is its
    unsigned value: its top bit is clear, and the value is at most `n − 1` already. -/
theorem clamp_toNat (v : BitVec 32) (n : Nat) (hn : n ≤ 2 ^ 31) (hlt : v.toNat < n) :
    min v.toInt.toNat (n - 1) = v.toNat := by
  rw [BitVec.toInt_eq_toNat_of_lt (by omega), Int.toNat_natCast]
  exact Nat.min_eq_left (by omega)

/-- A rank-1 table `x` of `N` entries gathered by a column of `B` start indices (one collapsed, start-indexed operand
    axis; no offset or batching axes; the index vector on axis 1; slices of one entry): result entry `b` is the table's
    entry named by the `b`-th index word, when that word's unsigned value is below `N ≤ 2^31` — then reading the word
    signed and clamping it into the table change nothing. -/
theorem gather_vec_apply {N B : Nat} {α : Type} (d : GatherDims ⟨1, ![N]⟩ ⟨2, ![B, 1]⟩ ⟨1, ![B]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1]) (x : (⟨1, ![N]⟩ : Shape).Idx → α) (idx : IVec ⟨2, ![B, 1]⟩ 32) (b : Fin B)
    (hN : N ≤ 2 ^ 31) (hlt : (idx (ix2 b 0)).toNat < N) :
    Host.gather d x idx (ix1 b) = x (ix1 ⟨(idx (ix2 b 0)).toNat, hlt⟩) := by
  -- the two spellings of the result index and of the start index's place agree coordinate by coordinate
  have hb : (ix1 b : (⟨1, ![B]⟩ : Shape).Idx) = Shape.Idx.ofFin b := by
    funext a
    match a with
    | ⟨0, _⟩ => rfl
  have hp : (StableHlo.Predicate.ixP b : (⟨2, ![B, 1]⟩ : Shape).Idx) = ix2 b 0 := by
    funext a
    match a with
    | ⟨0, _⟩ => rfl
    | ⟨1, _⟩ => rfl
  have hlt' : (idx (StableHlo.Predicate.ixP b)).toNat < N := by rw [hp]; exact hlt
  rw [hb, StableHlo.Predicate.gather_take d h2 h3 h5 h6 x idx b (Nat.lt_of_le_of_lt (Nat.zero_le _) hlt)]
  refine congrArg x ?_
  funext a
  match a with
  | ⟨0, _⟩ =>
    refine Fin.ext ?_
    show min (idx (StableHlo.Predicate.ixP b)).toInt.toNat (N - 1) = (idx (ix2 b 0)).toNat
    rw [clamp_toNat _ N hN hlt', hp]

/-! ## The sum of a two-axis array of words along one axis -/

/-- Folding word addition over a finite set from `a` gives `a` plus the sum over the set. -/
theorem fold_addi_eq_add_sum {ι : Type} (S : Finset ι) (a : BitVec 32) (f : ι → BitVec 32) :
    S.fold IntOp.addi a f = a + ∑ i ∈ S, f i := by
  induction S using Finset.cons_induction with
  | empty => simp
  | cons k S hk ih =>
    rw [Finset.fold_cons, Finset.sum_cons, ih]
    show f k + (a + ∑ i ∈ S, f i) = a + (f k + ∑ i ∈ S, f i)
    exact add_left_comm _ _ _

/-- Reduced along axis 0, an `[N, G]` array of words gives at column `g` the initial word plus the sum down that
    column: the source indices that drop to `g` are the pairs `(p, g)`, one for each row `p`. -/
theorem reduce_addi_axis0 {N G : Nat} (x : IVec ⟨2, ![N, G]⟩ 32) (init : IVec ⟨0, ![]⟩ 32)
    (h : (⟨2, ![N, G]⟩ : Shape).ReducesTo [0] ⟨1, ![G]⟩) (hu : 0 < (⟨0, ![]⟩ : Shape).numel) (g : Fin G) :
    Host.reduce IntOp.addi x init h hu (ix1 g) = init ix0 + ∑ p : Fin N, x (ix2 p g) := by
  rw [Host.reduce_eq_fold, fold_addi_eq_add_sum, eq_ix0 (Shape.Idx.first hu)]
  congr 1
  -- dropping axis 0 keeps the column coordinate
  have hdrop : ∀ i : (⟨2, ![N, G]⟩ : Shape).Idx, h.drop i = ix1 g ↔ i 1 = g := by
    intro i
    have hv : (h.drop i 0 : Nat) = (i 1 : Nat) := Shape.ReducesTo.drop_apply_val h i 0
    constructor
    · intro e
      rw [e] at hv
      exact Fin.ext hv.symm
    · intro e
      funext c
      match c with
      | ⟨0, _⟩ => exact Fin.ext (hv.trans (congrArg Fin.val e))
  have hback : ∀ i : (⟨2, ![N, G]⟩ : Shape).Idx, i 1 = g → ix2 (i 0 : Fin N) g = i := by
    intro i e
    funext c
    match c with
    | ⟨0, _⟩ => rfl
    | ⟨1, _⟩ => exact e.symm
  refine Finset.sum_nbij' (fun i => (i 0 : Fin N)) (fun p => ix2 p g) ?_ ?_ ?_ ?_ ?_
  · intro i _
    exact Finset.mem_univ _
  · intro p _
    exact Finset.mem_filter.2 ⟨Finset.mem_univ _, (hdrop _).2 rfl⟩
  · intro i hi
    exact hback i ((hdrop i).1 (Finset.mem_filter.1 hi).2)
  · intro p _
    rfl
  · intro i hi
    exact congrArg x (hback i ((hdrop i).1 (Finset.mem_filter.1 hi).2)).symm

/-- Reduced along axis 1, it gives at row `n` the initial word plus the sum along that row. -/
theorem reduce_addi_axis1 {N G : Nat} (x : IVec ⟨2, ![N, G]⟩ 32) (init : IVec ⟨0, ![]⟩ 32)
    (h : (⟨2, ![N, G]⟩ : Shape).ReducesTo [1] ⟨1, ![N]⟩) (hu : 0 < (⟨0, ![]⟩ : Shape).numel) (n : Fin N) :
    Host.reduce IntOp.addi x init h hu (ix1 n) = init ix0 + ∑ g : Fin G, x (ix2 n g) := by
  rw [Host.reduce_eq_fold, fold_addi_eq_add_sum, eq_ix0 (Shape.Idx.first hu)]
  congr 1
  -- dropping axis 1 keeps the row coordinate
  have hdrop : ∀ i : (⟨2, ![N, G]⟩ : Shape).Idx, h.drop i = ix1 n ↔ i 0 = n := by
    intro i
    have hv : (h.drop i 0 : Nat) = (i 0 : Nat) := Shape.ReducesTo.drop_apply_val h i 0
    constructor
    · intro e
      rw [e] at hv
      exact Fin.ext hv.symm
    · intro e
      funext c
      match c with
      | ⟨0, _⟩ => exact Fin.ext (hv.trans (congrArg Fin.val e))
  have hback : ∀ i : (⟨2, ![N, G]⟩ : Shape).Idx, i 0 = n → ix2 n (i 1 : Fin G) = i := by
    intro i e
    funext c
    match c with
    | ⟨0, _⟩ => exact e.symm
    | ⟨1, _⟩ => rfl
  refine Finset.sum_nbij' (fun i => (i 1 : Fin G)) (fun g => ix2 n g) ?_ ?_ ?_ ?_ ?_
  · intro i _
    exact Finset.mem_univ _
  · intro g _
    exact Finset.mem_filter.2 ⟨Finset.mem_univ _, (hdrop _).2 rfl⟩
  · intro i hi
    exact hback i ((hdrop i).1 (Finset.mem_filter.1 hi).2)
  · intro g _
    rfl
  · intro i hi
    exact congrArg x (hback i ((hdrop i).1 (Finset.mem_filter.1 hi).2)).symm

/-! ## Counting the set bits of a mask -/

/-- The sum of one-bit words widened to 32 bits is the number of them that are set, as a word. -/
theorem sum_widened_bits {ι : Type} [Fintype ι] (f : ι → BitVec 1) :
    ∑ i, (f i).setWidth 32 = BitVec.ofNat 32 (Finset.univ.filter fun i => f i = 1#1).card := by
  have hbit : ∀ v : BitVec 1, v.setWidth 32 = if v = 1#1 then (1 : BitVec 32) else 0 := by
    intro v
    rcases BitVec.eq_zero_or_eq_one v with rfl | rfl <;> rfl
  simp only [hbit]
  rw [Finset.sum_boole]
  rfl

/-- Down a column: the widened mask summed along axis 0 from zero counts, at column `g`, the rows whose bit is set. -/
theorem count_axis0 {N G : Nat} (b : IVec ⟨2, ![N, G]⟩ 1) (hw : 1 < 32)
    (h : (⟨2, ![N, G]⟩ : Shape).ReducesTo [0] ⟨1, ![G]⟩) (hu : 0 < (⟨0, ![]⟩ : Shape).numel) (g : Fin G) :
    Host.reduce IntOp.addi (extui 32 b hw) (constantI ⟨0, ![]⟩ 32 0#32) h hu (ix1 g)
      = BitVec.ofNat 32 (Finset.univ.filter fun p : Fin N => b (ix2 p g) = 1#1).card := by
  rw [reduce_addi_axis0]
  show 0#32 + ∑ p : Fin N, (b (ix2 p g)).setWidth 32 = _
  rw [BitVec.zero_add, sum_widened_bits]

/-- Along a row: summed along axis 1 it counts, at row `n`, the columns whose bit is set. -/
theorem count_axis1 {N G : Nat} (b : IVec ⟨2, ![N, G]⟩ 1) (hw : 1 < 32)
    (h : (⟨2, ![N, G]⟩ : Shape).ReducesTo [1] ⟨1, ![N]⟩) (hu : 0 < (⟨0, ![]⟩ : Shape).numel) (n : Fin N) :
    Host.reduce IntOp.addi (extui 32 b hw) (constantI ⟨0, ![]⟩ 32 0#32) h hu (ix1 n)
      = BitVec.ofNat 32 (Finset.univ.filter fun g : Fin G => b (ix2 n g) = 1#1).card := by
  rw [reduce_addi_axis1]
  show 0#32 + ∑ g : Fin G, (b (ix2 n g)).setWidth 32 = _
  rw [BitVec.zero_add, sum_widened_bits]

/-- With fewer than `2^32` rows the count is the word's value. -/
theorem count_axis0_toNat {N G : Nat} (hN : N < 2 ^ 32) (b : IVec ⟨2, ![N, G]⟩ 1) (hw : 1 < 32)
    (h : (⟨2, ![N, G]⟩ : Shape).ReducesTo [0] ⟨1, ![G]⟩) (hu : 0 < (⟨0, ![]⟩ : Shape).numel) (g : Fin G) :
    (Host.reduce IntOp.addi (extui 32 b hw) (constantI ⟨0, ![]⟩ 32 0#32) h hu (ix1 g)).toNat
      = (Finset.univ.filter fun p : Fin N => b (ix2 p g) = 1#1).card := by
  rw [count_axis0, BitVec.toNat_ofNat]
  refine Nat.mod_eq_of_lt (lt_of_le_of_lt ?_ hN)
  calc (Finset.univ.filter fun p : Fin N => b (ix2 p g) = 1#1).card
      ≤ (Finset.univ : Finset (Fin N)).card := Finset.card_filter_le _ _
    _ = N := by simp

/-- With fewer than `2^32` columns likewise. -/
theorem count_axis1_toNat {N G : Nat} (hG : G < 2 ^ 32) (b : IVec ⟨2, ![N, G]⟩ 1) (hw : 1 < 32)
    (h : (⟨2, ![N, G]⟩ : Shape).ReducesTo [1] ⟨1, ![N]⟩) (hu : 0 < (⟨0, ![]⟩ : Shape).numel) (n : Fin N) :
    (Host.reduce IntOp.addi (extui 32 b hw) (constantI ⟨0, ![]⟩ 32 0#32) h hu (ix1 n)).toNat
      = (Finset.univ.filter fun g : Fin G => b (ix2 n g) = 1#1).card := by
  rw [count_axis1, BitVec.toNat_ofNat]
  refine Nat.mod_eq_of_lt (lt_of_le_of_lt ?_ hG)
  calc (Finset.univ.filter fun g : Fin G => b (ix2 n g) = 1#1).card
      ≤ (Finset.univ : Finset (Fin G)).card := Finset.card_filter_le _ _
    _ = G := by simp

end Cert.IntReads
-- ==== Proof.KI_ReadCounts.lean ====
/-
  Four of the integer tensors computed before the kernel region, read at one index each: a row index that is not
  negative is left alone by the wrap-around of negative indices; the row order holds, at sorted position p, the position
  the stable sort took its key from; the type ids read through the order are the ids at those positions; and the one-hot
  table summed over the rows counts, for each of the six types, the rows that carry it.  Then the same for the ids in
  sorted order as natural numbers: they stay below six and never decrease.
-/
import proofs.«410392_j25512105739026_3_alg».proof.Proof.KI_StageDefs
import proofs.«410392_j25512105739026_3_alg».proof.Proof.SortOrder
import proofs.«410392_j25512105739026_3_alg».proof.Proof.Routing
import proofs.«410392_j25512105739026_3_alg».proof.Proof.IntReads

noncomputable section

namespace Cert.KernelIdeal.Hand

open Cert.KernelIdeal
open Idealize.ShloMosaic Idealize.ShloMosaic.ValueIdx
open Facts₀

variable [Facts₀]

/-! ## Words -/

/-- A word whose unsigned value is below 2^31 is not below zero as a signed integer. -/
theorem slt_zero_of_small (x : BitVec 32) (h : x.toNat < 2 ^ 31) : IntOp.cmpi .slt x 0#32 = 0#1 := by
  apply eq_zero_of_ne_one
  rw [Cert.SortOrder.slt_word_eq_one, BitVec.toInt_eq_toNat_of_lt (by omega)]
  simp

/-- Two naturals below 2^32, as words, compare equal exactly when they are equal. -/
theorem eq_word_eq_one (a b : ℕ) (ha : a < 2 ^ 32) (hb : b < 2 ^ 32) :
    IntOp.cmpi .eq (BitVec.ofNat 32 a) (BitVec.ofNat 32 b) = 1#1 ↔ a = b := by
  show BitVec.ofBool (BitVec.ofNat 32 a == BitVec.ofNat 32 b) = 1#1 ↔ a = b
  constructor
  · intro h
    have hne : (BitVec.ofNat 32 a == BitVec.ofNat 32 b) = true := by
      cases hc : (BitVec.ofNat 32 a == BitVec.ofNat 32 b)
      · rw [hc] at h; exact absurd h (by decide)
      · rfl
    have he := congrArg BitVec.toNat (beq_iff_eq.mp hne)
    rw [BitVec.toNat_ofNat, BitVec.toNat_ofNat, Nat.mod_eq_of_lt ha, Nat.mod_eq_of_lt hb] at he
    exact he
  · rintro rfl
    rw [beq_self_eq_true]
    rfl

/-! ## Indices -/

/-- The rank-1 index of a position, in either spelling. -/
theorem ofFin_eq_ix1 {n : ℕ} (k : Fin n) : (Shape.Idx.ofFin k : (⟨1, ![n]⟩ : Shape).Idx) = ix1 k := by
  funext a
  match a with
  | ⟨0, _⟩ => rfl

/-- A position given by a natural and a bound is the position whose value that natural is. -/
theorem fin_mk_eq_of_val {n : ℕ} (x : ℕ) (h : x < n) (k : Fin n) (e : x = k.val) : (⟨x, h⟩ : Fin n) = k := by
  subst e
  rfl

/-- The one-column index table of a vector holds the vector's entry p in row p. -/
theorem rowIdx_apply (v : IVec S16384 32) (p : Fin 16384) (c : Fin 1) : rowIdx v (ix2 p c) = v (ix1 p) := by
  show v _ = v _
  refine congrArg v ?_
  funext a
  match a with
  | ⟨0, _⟩ => rfl

/-! ## (a) A row index that is not negative -/

theorem wrapNeg_apply_of_nonneg (n : BitVec 32) (v : IVec S16384 32) (p : Fin 16384)
    (h : (v (ix1 p)).toNat < 2 ^ 31) : wrapNeg n v (ix1 p) = v (ix1 p) := by
  show Scalar.select (IntOp.cmpi .slt (v (ix1 p)) 0#32) _ (v (ix1 p)) = v (ix1 p)
  rw [slt_zero_of_small _ h, select_zero]

/-! ## (b) The row order -/

theorem ord_apply (mask : IVec S16384 32) (p : Fin 16384) :
    ordOf mask (ix1 p) = BitVec.ofNat 32 (Cert.SortOrder.src mask p).val := by
  unfold ordOf
  rw [Cert.SortOrder.argsort_apply comparator_i32_i32_d0 (fun _ _ => rfl) mask (ix1 p)]

/-- A position of the order is below 16384, so far below 2^31. -/
theorem ord_toNat (mask : IVec S16384 32) (p : Fin 16384) :
    (ordOf mask (ix1 p)).toNat = (Cert.SortOrder.src mask p).val := by
  rw [ord_apply, BitVec.toNat_ofNat]
  exact Nat.mod_eq_of_lt (by have := (Cert.SortOrder.src mask p).isLt; omega)

/-! ## (c) The ids read through the order -/

theorem smask_apply (mask : IVec S16384 32) (p : Fin 16384) :
    smaskOf mask (ordOf mask) (ix1 p) = mask (ix1 (Cert.SortOrder.src mask p)) := by
  have hlt31 : (ordOf mask (ix1 p)).toNat < 2 ^ 31 := by
    rw [ord_toNat]; have := (Cert.SortOrder.src mask p).isLt; omega
  have hv : (rowIdx (wrapNeg 16384#32 (ordOf mask)) (ix2 p 0)).toNat = (Cert.SortOrder.src mask p).val := by
    rw [rowIdx_apply, wrapNeg_apply_of_nonneg _ _ _ hlt31, ord_toNat]
  have hlt : (rowIdx (wrapNeg 16384#32 (ordOf mask)) (ix2 p 0)).toNat < 16384 := by
    rw [hv]; exact (Cert.SortOrder.src mask p).isLt
  unfold smaskOf
  rw [Cert.IntReads.gather_vec_apply gather_S16384_S16384x1_S16384_n_0_n_n_0_1_1 rfl rfl rfl rfl rfl rfl rfl mask _ p
    (by norm_num) hlt]
  rw [fin_mk_eq_of_val _ hlt (Cert.SortOrder.src mask p) hv]

/-! ## (d) The rows of each type -/

/-- The one-hot table's left operand at (p, g): the id of row p. -/
theorem oneHot_lhs_apply (sm : IVec S16384 32) (p : Fin 16384) (g : Fin 6) :
    broadcastInDim S16384x6 ![0, 1] bcast_S16384x1_S16384x6_0_1 (rowIdx sm) (ix2 p g) = sm (ix1 p) := by
  show sm _ = sm _
  refine congrArg sm ?_
  funext a
  match a with
  | ⟨0, _⟩ => rfl

/-- The one-hot table's right operand at (p, g): the type number g. -/
theorem oneHot_rhs_apply (p : Fin 16384) (g : Fin 6) :
    broadcastInDim S16384x6 ![0, 1] bcast_S1x6_S16384x6_0_1
      (broadcastInDim S1x6 ![1] bcast_S6_S1x6_1 (iotaInDim S6 32 0)) (ix2 p g) = BitVec.ofNat 32 g.val := by
  show BitVec.ofNat 32 _ = BitVec.ofNat 32 _
  refine congrArg (BitVec.ofNat 32) ?_
  rfl

theorem counts_apply (sm : IVec S16384 32) (s : Fin 16384 → ℕ) (hs : ∀ p, s p < 6)
    (hsm : ∀ p, sm (ix1 p) = BitVec.ofNat 32 (s p)) (g : Fin 6) :
    countsOf sm (ix1 g) = BitVec.ofNat 32 (Cert.Routing.cnt s g.val) := by
  unfold countsOf oneHotOf
  rw [Cert.IntReads.count_axis0]
  unfold Cert.Routing.cnt
  refine congrArg (fun S : Finset (Fin 16384) => BitVec.ofNat 32 S.card) ?_
  refine Finset.filter_congr ?_
  intro p _
  show IntOp.cmpi .eq _ _ = 1#1 ↔ _
  rw [oneHot_lhs_apply, oneHot_rhs_apply, hsm p]
  exact eq_word_eq_one (s p) g.val (by have := hs p; omega) (by have := g.isLt; omega)

/-! ## The ids in sorted order, as naturals -/

/-- The id at sorted position p. -/
def sOf (mask : IVec S16384 32) : Fin 16384 → ℕ :=
  fun p => (mask (ix1 (Cert.SortOrder.src mask p))).toNat

theorem s_lt (mask : IVec S16384 32) (hm : ∀ n, (mask (ix1 n)).toNat ≤ 5) (p : Fin 16384) : sOf mask p < 6 :=
  Nat.lt_succ_of_le (hm _)

theorem s_mono (mask : IVec S16384 32) (hm : ∀ n, (mask (ix1 n)).toNat ≤ 5) : Monotone (sOf mask) := by
  have hk : ∀ k, (mask k).toNat < 2 ^ 31 := by
    intro k
    have h5 : (mask (ix1 (k 0))).toNat ≤ 5 := hm (k 0)
    rw [eq_ix1 k]
    exact Nat.lt_of_le_of_lt h5 (by norm_num)
  have h := Cert.SortOrder.src_monotone_toNat mask hk
  simp only [ofFin_eq_ix1] at h
  exact h

theorem smask_eq_ofNat (mask : IVec S16384 32) (p : Fin 16384) :
    smaskOf mask (ordOf mask) (ix1 p) = BitVec.ofNat 32 (sOf mask p) := by
  rw [smask_apply]
  show _ = BitVec.ofNat 32 (mask (ix1 (Cert.SortOrder.src mask p))).toNat
  rw [BitVec.ofNat_toNat, BitVec.setWidth_eq]

/-- The rows of each type, counted on the sorted ids. -/
theorem counts_sorted (mask : IVec S16384 32) (hm : ∀ n, (mask (ix1 n)).toNat ≤ 5) (g : Fin 6) :
    countsOf (smaskOf mask (ordOf mask)) (ix1 g) = BitVec.ofNat 32 (Cert.Routing.cnt (sOf mask) g.val) :=
  counts_apply _ (sOf mask) (s_lt mask hm) (smask_eq_ofNat mask) g

end Cert.KernelIdeal.Hand

end
-- ==== Proof.KI_ReadBlocks.lean ====
/-
  The six row counts, the blocks they are given, and the two running totals, read entry by entry.

  Around its kernel region the program turns the number of rows of each of the six types into the number of 512-row
  blocks each type is given (a floored division), into the running totals of rows and of blocks with a zero in front,
  and into each type's shift: 512 times the blocks before it, less the rows before it.  Every word here is a small
  natural number, far below 2^31, so the signed operations agree with the natural ones and nothing wraps.  Each lemma
  below reads one of these tensors at one entry, over an arbitrary array whose entries are the words of given
  naturals, and the last three name the results as the sums of the routing arithmetic.
-/
import proofs.«410392_j25512105739026_3_alg».proof.Proof.KI_StageDefs
import proofs.«410392_j25512105739026_3_alg».proof.Proof.Routing
import Idealize.ShloMosaic.PureOps
import Idealize.ShloMosaic.Lib.ValueIdx
import Idealize.ShloMosaic.Lib.Pipeline.Value
import Idealize.ShloMosaic.Lib.StableHlo.Predicate
import Mathlib.Data.BitVec

namespace Cert.KernelIdeal.Hand

open Cert.KernelIdeal Idealize.ShloMosaic Idealize.ShloMosaic.ValueIdx
open Facts₀
open scoped BigOperators

variable [Facts₀]

/-! Auxiliary facts live in the sub-namespace `ReadBlocks`; the reads of the tensors keep the enclosing one. -/

namespace ReadBlocks

/-! ## Small words divide as their values -/

/-- A natural number below 2^31 as a word has its top bit clear. -/
theorem msb_ofNat_small (a : ℕ) (ha : a < 2 ^ 31) : (BitVec.ofNat 32 a).msb = false :=
  BitVec.msb_eq_false_iff_two_mul_lt.mpr (by rw [BitVec.toNat_ofNat]; omega)

/-- A positive divisor below 2^31 is neither zero nor minus one: the signed division meets no corner. -/
theorem not_corner_ofNat (x : BitVec 32) (d : ℕ) (hd : d < 2 ^ 31) (hd0 : 0 < d) :
    ¬ IntOp.SDivCorner x (BitVec.ofNat 32 d) := by
  rintro (hc | ⟨_, hc⟩)
  · have h := congrArg BitVec.toNat hc
    rw [BitVec.toNat_ofNat] at h
    simp at h
    omega
  · have h := congrArg BitVec.toNat hc
    rw [BitVec.toNat_ofNat] at h
    simp at h
    omega

/-- The signed quotient of two small natural words is the word of the natural quotient, on any unit. -/
theorem divsi_ofNat (u : ArithUnit) (a d : ℕ) (ha : a < 2 ^ 31) (hd : d < 2 ^ 31) (hd0 : 0 < d) :
    IntOp.divsi u (BitVec.ofNat 32 a) (BitVec.ofNat 32 d) = BitVec.ofNat 32 (a / d) := by
  have hq : a / d ≤ a := Nat.div_le_self a d
  apply BitVec.eq_of_toNat_eq
  simp only [IntOp.divsi, if_neg (not_corner_ofNat _ d hd hd0), BitVec.sdiv_eq, msb_ofNat_small a ha,
    msb_ofNat_small d hd, BitVec.udiv_eq, BitVec.toNat_udiv, BitVec.toNat_ofNat]
  rw [Nat.mod_eq_of_lt (by omega : a < 2 ^ 32), Nat.mod_eq_of_lt (by omega : d < 2 ^ 32),
    Nat.mod_eq_of_lt (by omega : a / d < 2 ^ 32)]

/-- The signed remainder of two small natural words is the word of the natural remainder, on any unit. -/
theorem remsi_ofNat (u : ArithUnit) (a d : ℕ) (ha : a < 2 ^ 31) (hd : d < 2 ^ 31) (hd0 : 0 < d) :
    IntOp.remsi u (BitVec.ofNat 32 a) (BitVec.ofNat 32 d) = BitVec.ofNat 32 (a % d) := by
  have hr : a % d < d := Nat.mod_lt a hd0
  apply BitVec.eq_of_toNat_eq
  simp only [IntOp.remsi, if_neg (not_corner_ofNat _ d hd hd0), BitVec.srem_eq, msb_ofNat_small a ha,
    msb_ofNat_small d hd, BitVec.umod_eq, BitVec.toNat_umod, BitVec.toNat_ofNat]
  rw [Nat.mod_eq_of_lt (by omega : a < 2 ^ 32), Nat.mod_eq_of_lt (by omega : d < 2 ^ 32),
    Nat.mod_eq_of_lt (by omega : a % d < 2 ^ 32)]

end ReadBlocks

open ReadBlocks

/-! ## The floored division by 512 -/

/-- (a) Six small natural words floor-divided by 512: the truncating quotient, which is the natural quotient.  The
    correction applies where the signs differ and the remainder is not zero; a positive dividend has the divisor's
    sign, and a zero dividend, whose sign differs, leaves a zero remainder. -/
theorem floorDiv512_apply (a : IVec S6 32) (n : Fin 6 → ℕ) (hn : ∀ g, n g < 2 ^ 30)
    (ha : ∀ g, a (ix1 g) = BitVec.ofNat 32 (n g)) (g : Fin 6) :
    floorDiv6 a (constantI S_ 32 512#32) (ix1 g) = BitVec.ofNat 32 (n g / 512) := by
  have hlt : n g < 2 ^ 31 := by have := hn g; omega
  have hq : IntOp.divsi .host (BitVec.ofNat 32 (n g)) 512#32 = BitVec.ofNat 32 (n g / 512) :=
    divsi_ofNat .host (n g) 512 hlt (by norm_num) (by norm_num)
  have hr : IntOp.remsi .host (BitVec.ofNat 32 (n g)) 512#32 = BitVec.ofNat 32 (n g % 512) :=
    remsi_ofNat .host (n g) 512 hlt (by norm_num) (by norm_num)
  -- the scalar words spread over the six entries, read at this entry
  have e512 : broadcastInDim S6 ![] bcast_S_S6 (constantI S_ 32 512#32) (ix1 g) = 512#32 := rfl
  have e0 : broadcastInDim S6 ![] bcast_S_S6 (constantI S_ 32 0#32) (ix1 g) = 0#32 := rfl
  have e1 : broadcastInDim S6 ![] bcast_S_S6 (constantI S_ 32 1#32) (ix1 g) = 1#32 := rfl
  have es : broadcastInDim S6 ![] bcast_S_S6 (signi (constantI S_ 32 512#32)) (ix1 g) = 1#32 := by
    show (if (512#32 : BitVec 32) = 0 then (0 : BitVec 32) else if (512#32 : BitVec 32).msb then -1 else 1) = 1#32
    decide
  -- the sign of the dividend: zero where it is zero, one elsewhere
  have hs : signi a (ix1 g) = if n g = 0 then 0#32 else 1#32 := by
    show (if a (ix1 g) = 0 then (0 : BitVec 32) else if (a (ix1 g)).msb then -1 else 1) = _
    rw [ha g, msb_ofNat_small _ hlt]
    by_cases h0 : n g = 0
    · rw [h0]; rfl
    · have hne : BitVec.ofNat 32 (n g) ≠ 0 := by
        intro h
        have h' := congrArg BitVec.toNat h
        rw [BitVec.toNat_ofNat] at h'
        simp at h'
        omega
      rw [if_neg hne, if_neg h0]
      rfl
  -- the correction's condition is never met
  have hc : IntOp.andi (IntOp.cmpi .ne (signi a (ix1 g)) 1#32) (IntOp.cmpi .ne (BitVec.ofNat 32 (n g % 512)) 0#32)
      = 0#1 := by
    by_cases h0 : n g = 0
    · have h2 : IntOp.cmpi .ne (BitVec.ofNat 32 (n g % 512)) 0#32 = 0#1 := by rw [h0]; rfl
      rw [h2]
      exact BitVec.and_zero
    · have h2 : IntOp.cmpi .ne (signi a (ix1 g)) 1#32 = 0#1 := by rw [hs, if_neg h0]; rfl
      rw [h2]
      exact BitVec.zero_and
  unfold floorDiv6
  simp only [select, andi, cmpi, Host.divsi, Host.remsi, subi]
  rw [es, e512, e0, e1, ha g, hq, hr, hc]
  rfl

/-! ## The blocks given to each type -/

/-- (b) The blocks of 512 rows given to a type with n rows, n at most 16384: (n + 512 - 1) / 512, nothing wrapping. -/
theorem bpg_apply (c : IVec S6 32) (n : Fin 6 → ℕ) (hn : ∀ g, n g ≤ 16384)
    (hc : ∀ g, c (ix1 g) = BitVec.ofNat 32 (n g)) (g : Fin 6) :
    bpgOf c (ix1 g) = BitVec.ofNat 32 ((n g + 512 - 1) / 512) := by
  unfold bpgOf
  refine floorDiv512_apply _ (fun g => n g + 512 - 1) (fun g' => ?_) (fun g' => ?_) g
  · have := hn g'
    show n g' + 512 - 1 < 2 ^ 30
    omega
  · show IntOp.subi (IntOp.addi (c (ix1 g')) 512#32) 1#32 = BitVec.ofNat 32 (n g' + 512 - 1)
    rw [hc g']
    have := hn g'
    apply BitVec.eq_of_toNat_eq
    simp only [IntOp.subi, IntOp.addi, BitVec.toNat_sub, BitVec.toNat_add, BitVec.toNat_ofNat]
    omega

namespace ReadBlocks

/-! ## The running totals -/

/-- A fold over the positions below N is the same fold over the positions below an equal bound. -/
theorem foldl_finRange_cast {β : Type} {N M : ℕ} (h : N = M) (f : β → Fin N → β) (b : β) :
    (List.finRange N).foldl f b = (List.finRange M).foldl (fun r k => f r (k.cast h.symm)) b := by
  subst h; rfl

/-- A row-major position in a shape of one axis is its one coordinate. -/
theorem symm_rowMajor_rank1 {d : Fin 1 → ℕ} (n : Fin (⟨1, d⟩ : Shape).numel) (a : Fin 1) :
    ((⟨1, d⟩ : Shape).rowMajor.symm n a).val = n.val := by
  have h := Shape.rowMajor_val_one ((⟨1, d⟩ : Shape).rowMajor.symm n)
  rw [Equiv.apply_symm_apply] at h
  have ha : a = 0 := Subsingleton.elim _ _
  rw [ha]
  exact h.symm

/-- A window of six positions along one axis. -/
theorem numel_window6 : (⟨1, ![6]⟩ : Shape).numel = 6 := by
  simp [Shape.numel]

/-- Two choices under equivalent conditions, with equal values where both hold and one fallback. -/
theorem dite_congr_iff {α : Type} {P Q : Prop} {dP : Decidable P} {dQ : Decidable Q} (hPQ : P ↔ Q) {f : P → α}
    {f' : Q → α} {e : α} (hf : ∀ (p : P) (q : Q), f p = f' q) :
    @dite α P dP f (fun _ => e) = @dite α Q dQ f' (fun _ => e) := by
  by_cases q : Q
  · rw [dif_pos q, dif_pos (hPQ.mpr q)]
    exact hf _ _
  · rw [dif_neg q, dif_neg (fun p => q (hPQ.mp p))]

/-- What window position k adds to the running total at entry g: with five zeros of padding in front, entry
    g + k - 5 where that is not padding, and zero where it is. -/
def winTerm (v : IVec S6 32) (g k : Fin 6) : BitVec 32 :=
  if h : 5 ≤ g.val + k.val then v (ix1 ⟨g.val + k.val - 5, by have := g.isLt; have := k.isLt; omega⟩) else 0#32

/-- The running total at entry g is the left fold, from zero, of the six window positions' contributions. -/
theorem cumsum6_fold (v : IVec S6 32) (g : Fin 6) :
    cumsum6 v (ix1 g) = (List.finRange 6).foldl (fun r k => r + winTerm v g k) 0#32 := by
  have e0 : broadcastInDim S_ ![] bcast_S_S_ (constantI S_ 32 0#32) (Shape.Idx.first h_S_) = 0#32 := rfl
  unfold cumsum6 Host.reduceWindow
  dsimp only
  rw [foldl_finRange_cast numel_window6, e0]
  congr 1
  funext r k
  show r + _ = r + _
  congr 1
  unfold winTerm
  have hkv : (k.cast numel_window6.symm).val = k.val := rfl
  refine dite_congr_iff ⟨fun hin => ?_, fun hk a => ?_⟩ (fun hin hk => ?_)
  · have h : 5 ≤ g.val * 1 + ((⟨1, ![6]⟩ : Shape).rowMajor.symm (k.cast numel_window6.symm) 0).val
        ∧ g.val * 1 + ((⟨1, ![6]⟩ : Shape).rowMajor.symm (k.cast numel_window6.symm) 0).val - 5 < 6 := hin 0
    rw [symm_rowMajor_rank1] at h
    omega
  · have ha : a = 0 := Subsingleton.elim _ _
    subst ha
    show 5 ≤ g.val * 1 + ((⟨1, ![6]⟩ : Shape).rowMajor.symm (k.cast numel_window6.symm) 0).val
        ∧ g.val * 1 + ((⟨1, ![6]⟩ : Shape).rowMajor.symm (k.cast numel_window6.symm) 0).val - 5 < 6
    rw [symm_rowMajor_rank1]
    have := g.isLt
    have := k.isLt
    omega
  · refine congrArg v (funext fun a => ?_)
    have ha : a = 0 := Subsingleton.elim _ _
    subst ha
    apply Fin.ext
    show g.val * 1 + ((⟨1, ![6]⟩ : Shape).rowMajor.symm (k.cast numel_window6.symm) 0).val - 5 = g.val + k.val - 5
    rw [symm_rowMajor_rank1]
    omega

end ReadBlocks

namespace ReadBlocks

/-- A left fold of additions from zero over the positions below n is the sum over them. -/
theorem foldl_add_finRange {n : ℕ} (t : Fin n → BitVec 32) :
    (List.finRange n).foldl (fun r k => r + t k) 0#32 = ∑ k, t k := by
  rw [Fin.sum_univ_def, List.sum_eq_foldl, List.foldl_map]
  rfl

/-- The word of a sum of naturals is the sum of their words. -/
theorem ofNat_sum {ι : Type} (S : Finset ι) (f : ι → ℕ) :
    BitVec.ofNat 32 (∑ i ∈ S, f i) = ∑ i ∈ S, BitVec.ofNat 32 (f i) := by
  simp only [← BitVec.natCast_eq_ofNat]
  exact Nat.cast_sum S f

/-- Six window positions ending at entry g, five of padding in front: the positions from 5 - g on are the entries
    0 … g, the earlier ones padding. -/
theorem window_sum (a : ℕ → ℕ) (g : ℕ) (hg : g < 6) :
    (∑ k ∈ Finset.range 6, if 5 ≤ g + k then a (g + k - 5) else 0) = ∑ i ∈ Finset.range (g + 1), a i := by
  rw [← Finset.sum_range_add_sum_Ico _ (show 5 - g ≤ 6 by omega)]
  have hz : (∑ k ∈ Finset.range (5 - g), if 5 ≤ g + k then a (g + k - 5) else 0) = 0 := by
    refine Finset.sum_eq_zero fun k hk => ?_
    rw [Finset.mem_range] at hk
    exact if_neg (by omega)
  rw [hz, Nat.zero_add, Finset.sum_Ico_eq_sum_range, show 6 - (5 - g) = g + 1 by omega]
  refine Finset.sum_congr rfl fun i hi => ?_
  rw [Finset.mem_range] at hi
  rw [if_pos (by omega)]
  congr 1
  omega

end ReadBlocks

/-- (c) The running totals of six natural words: entry g is the word of the sum of the entries 0 … g.  Stated over
    a function on all naturals, of which the six entries are the first six values. -/
theorem cumsum6_apply_nat (v : IVec S6 32) (a : ℕ → ℕ) (hv : ∀ g : Fin 6, v (ix1 g) = BitVec.ofNat 32 (a g.val))
    (g : Fin 6) : cumsum6 v (ix1 g) = BitVec.ofNat 32 (∑ i ∈ Finset.range (g.val + 1), a i) := by
  have ht : ∀ k : Fin 6, winTerm v g k
      = BitVec.ofNat 32 ((fun k : ℕ => if 5 ≤ g.val + k then a (g.val + k - 5) else 0) k.val) := by
    intro k
    unfold winTerm
    by_cases hk : 5 ≤ g.val + k.val
    · rw [dif_pos hk, hv]
      show _ = BitVec.ofNat 32 (if 5 ≤ g.val + k.val then a (g.val + k.val - 5) else 0)
      rw [if_pos hk]
    · rw [dif_neg hk]
      show _ = BitVec.ofNat 32 (if 5 ≤ g.val + k.val then a (g.val + k.val - 5) else 0)
      rw [if_neg hk]
  rw [cumsum6_fold, foldl_add_finRange, Finset.sum_congr rfl (fun k _ => ht k), ← ofNat_sum,
    Fin.sum_univ_eq_sum_range (fun k : ℕ => if 5 ≤ g.val + k then a (g.val + k - 5) else 0) 6,
    window_sum a g.val g.isLt]

/-- (c), over the six entries alone: entry g of the running totals is the word of the sum of the entries 0 … g. -/
theorem cumsum6_apply (v : IVec S6 32) (a : Fin 6 → ℕ) (hv : ∀ g, v (ix1 g) = BitVec.ofNat 32 (a g)) (g : Fin 6) :
    cumsum6 v (ix1 g)
      = BitVec.ofNat 32 (∑ g' ∈ Finset.range (g.val + 1), if h : g' < 6 then a ⟨g', h⟩ else 0) :=
  cumsum6_apply_nat v (fun g' => if h : g' < 6 then a ⟨g', h⟩ else 0)
    (fun g' => by rw [hv g', dif_pos g'.isLt]) g

/-! ## A zero in front -/

/-- (d) Six words with a zero in front: entry 0 is the zero. -/
theorem lead0_zero (v : IVec S6 32) : lead0 v (ix1 (0 : Fin 7)) = 0#32 := by
  unfold lead0
  refine (concatenate_pair_apply_left (0 : Fin S7.rank) _ v concatenates_S1_S6_S7_d0 (ix1 (0 : Fin 7)) rfl
    (ix1 (0 : Fin 1)) (fun b => ?_)).trans rfl
  have hb : b = 0 := Subsingleton.elim _ _
  subst hb
  rfl

/-- (d) Six words with a zero in front: entry g + 1 is the g-th word. -/
theorem lead0_succ (v : IVec S6 32) (g : Fin 6) : lead0 v (ix1 g.succ) = v (ix1 g) := by
  unfold lead0
  refine concatenate_pair_apply_right (0 : Fin S7.rank) _ v concatenates_S1_S6_S7_d0 (ix1 g.succ) rfl rfl
    (ix1 g) (fun b hb => ?_) ?_
  · exact absurd (Subsingleton.elim _ _) hb
  · show g.val + 1 = g.succ.val
    rfl

/-- The first six of seven words. -/
theorem slice6_apply (w : IVec S7 32) (g : Fin 6) :
    extractStridedSlice S6 ![0] w slices_S7_S6_0 (ix1 g) = w (ix1 g.castSucc) := by
  refine extractStridedSlice_apply ![0] w slices_S7_S6_0 (ix1 g) (ix1 g.castSucc) fun a => ?_
  have ha : a = 0 := Subsingleton.elim _ _
  subst ha
  show g.val = 0 + g.val
  omega

/-! ## Against the routing arithmetic -/

section Routing

variable (s : Fin 16384 → ℕ) (c : IVec S6 32)
variable (hc : ∀ g : Fin 6, c (ix1 g) = BitVec.ofNat 32 (Cert.Routing.cnt s g.val))

include hc

/-- (e) The running totals of rows with a zero in front: entry g is the number of rows of the types below g. -/
theorem gsp7_apply (g : Fin 7) :
    lead0 (cumsum6 c) (ix1 g) = BitVec.ofNat 32 (Cert.Routing.below s g.val) := by
  induction g using Fin.cases with
  | zero => exact lead0_zero _
  | succ g' =>
    rw [lead0_succ, cumsum6_apply_nat c (fun i => Cert.Routing.cnt s i) hc g']
    rfl

/-- The blocks given to each type, as the routing arithmetic counts them. -/
theorem bpg_routing (g : Fin 6) : bpgOf c (ix1 g) = BitVec.ofNat 32 (Cert.Routing.blocks 512 s g.val) :=
  bpg_apply c (fun g => Cert.Routing.cnt s g.val) (fun g => Cert.Routing.cnt_le s g.val) hc g

/-- (e) The running totals of blocks with a zero in front: entry g is the number of blocks given to the types
    below g. -/
theorem cb7_apply (g : Fin 7) :
    lead0 (cumsum6 (bpgOf c)) (ix1 g) = BitVec.ofNat 32 (Cert.Routing.blocksBelow 512 s g.val) := by
  induction g using Fin.cases with
  | zero => exact lead0_zero _
  | succ g' =>
    rw [lead0_succ, cumsum6_apply_nat (bpgOf c) (fun i => Cert.Routing.blocks 512 s i) (bpg_routing s c hc) g']
    rfl

/-- (e) The shift of type g: 512 times the blocks before it, less the rows before it.  The blocks before a type hold
    the rows before it, so the subtraction is the natural one, and at most 38 blocks keep the product small. -/
theorem pad_apply (g : Fin 6) :
    padOf (lead0 (cumsum6 (bpgOf c))) (lead0 (cumsum6 c)) (ix1 g)
      = BitVec.ofNat 32 (Cert.Routing.blocksBelow 512 s g.val * 512 - Cert.Routing.below s g.val) := by
  have hB := cb7_apply s c hc g.castSucc
  have hb := gsp7_apply s c hc g.castSucc
  have hle := Cert.Routing.below_le_blocksBelow 512 (by decide) s g.val
  have hub := Cert.Routing.blocksBelow_le 512 (by decide) s g.val
  have hg := g.isLt
  show IntOp.subi (IntOp.muli (extractStridedSlice S6 ![0] (lead0 (cumsum6 (bpgOf c))) slices_S7_S6_0 (ix1 g)) 512#32)
      (extractStridedSlice S6 ![0] (lead0 (cumsum6 c)) slices_S7_S6_0 (ix1 g)) = _
  rw [slice6_apply, slice6_apply, hB, hb]
  show IntOp.subi (IntOp.muli (BitVec.ofNat 32 (Cert.Routing.blocksBelow 512 s g.val)) 512#32)
      (BitVec.ofNat 32 (Cert.Routing.below s g.val)) = _
  generalize Cert.Routing.blocksBelow 512 s g.val = B at hle hub ⊢
  generalize Cert.Routing.below s g.val = b at hle ⊢
  apply BitVec.eq_of_toNat_eq
  simp only [IntOp.subi, IntOp.muli, BitVec.toNat_sub, BitVec.toNat_mul, BitVec.toNat_ofNat]
  omega

end Routing

end Cert.KernelIdeal.Hand
-- ==== Proof.LibAndReduce.lean ====
/-
  An and-reduce of an array of one-bit words that are all 1.

  General facts, independent of any program: a left fold by `and` that starts at 1 and meets only 1s ends at 1; so a
  `stablehlo.reduce` by `and` from the constant 1, over whichever axes, of an array whose every entry is 1 is 1 at
  every index of its result. (The library has the other direction: a reduce that came out 1 met only 1s.) This is what
  a range test `all(lo <= idx <= hi)` along an axis comes to when every index is known to be in range, for instance
  the test a take in fill mode makes before it chooses between the gathered row and its fill.
-/
import Idealize.ShloMosaic.PureOps.Reduce
import Idealize.ShloMosaic.Lib.ReduceAll

namespace Cert.LibAndReduce

open Idealize.ShloMosaic

/-- A left fold by `and` from 1 over words that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_one f hf l

/-- An and-reduce, from initial values that are 1, of an array whose every entry is 1 is 1 at every index of the
    result, whatever the shapes and the reduced axes. -/
theorem reduce_andi_one {s t u : Shape} {axes : List (Fin s.rank)} (x : s.Idx → BitVec 1) (init : u.Idx → BitVec 1)
    (h : s.ReducesTo axes t) (hu : 0 < u.numel) (hx : ∀ i, x i = 1#1) (hi : ∀ i, init i = 1#1) (j : t.Idx) :
    Host.reduce IntOp.andi x init h hu j = 1#1 := by
  unfold Host.reduce
  rw [hi]
  exact foldl_andi_one (fun n => x (s.rowMajor.symm n)) (fun n => hx _) _

end Cert.LibAndReduce
-- ==== Proof.KI_ReadDest.lean ====
/-
  Destinations and block types, read one entry at a time.

  The sorted type ids are numbers below six.  Read at a position, the lookup of a row's shift finds its index inside the
  table of six shifts, so the row's shift is its type's shift and its destination is its position plus that shift.  Read
  at a block, the count of running block totals the block has reached is the number of types whose total is at most
  the block's number, and the block's type is that count capped at five.  Against the arithmetic of rows sorted by
  group and padded to whole blocks: the position plus the shift is the padded row the arithmetic sends the position to,
  and the count is the number of groups whose block range has ended by the block.
-/
import proofs.«410392_j25512105739026_3_alg».proof.Proof.KI_StageDefs
import proofs.«410392_j25512105739026_3_alg».proof.Proof.Routing
import proofs.«410392_j25512105739026_3_alg».proof.Proof.IntReads
import proofs.«410392_j25512105739026_3_alg».proof.Proof.LibAndReduce
import Idealize.ShloMosaic.Lib.ValueIdx
import Idealize.ShloMosaic.Lib.WordArith

noncomputable section

namespace Cert.KernelIdeal.Hand

open Cert.KernelIdeal
open Idealize.ShloMosaic Idealize.ShloMosaic.ValueIdx
open Facts₀

variable [Facts₀]

/-! ## Small natural numbers as signed words -/

/-- A natural number below 2^31, as a word, is not signed-below zero. -/
theorem word_not_neg (k : ℕ) (hk : k < 2 ^ 31) : (BitVec.ofNat 32 k).slt 0#32 = false := by
  rw [BitVec.slt_eq_decide, WordArith.toInt_ofNat_small k hk]
  have h0 : (0#32 : BitVec 32).toInt = 0 := by decide
  rw [h0]
  exact decide_eq_false (by omega)

/-- Signed less-than of two such words is less-than of the numbers. -/
theorem word_slt (m n : ℕ) (hm : m < 2 ^ 31) (hn : n < 2 ^ 31) :
    (BitVec.ofNat 32 m).slt (BitVec.ofNat 32 n) = decide (m < n) := by
  rw [BitVec.slt_eq_decide, WordArith.toInt_ofNat_small m hm, WordArith.toInt_ofNat_small n hn]
  exact decide_eq_decide.mpr Int.ofNat_lt

/-- Signed at-most of two such words is at-most of the numbers. -/
theorem word_sle (m n : ℕ) (hm : m < 2 ^ 31) (hn : n < 2 ^ 31) :
    (BitVec.ofNat 32 m).sle (BitVec.ofNat 32 n) = decide (m ≤ n) := by
  rw [BitVec.sle_eq_decide, WordArith.toInt_ofNat_small m hm, WordArith.toInt_ofNat_small n hn]
  exact decide_eq_decide.mpr Int.ofNat_le

/-- The comparison "at least", as a one-bit word, is 1 exactly when the right number is at most the left. -/
theorem word_sge_eq_one (m n : ℕ) (hm : m < 2 ^ 31) (hn : n < 2 ^ 31) :
    IntOp.cmpi .sge (BitVec.ofNat 32 m) (BitVec.ofNat 32 n) = 1#1 ↔ n ≤ m := by
  show BitVec.ofBool ((BitVec.ofNat 32 n).sle (BitVec.ofNat 32 m)) = 1#1 ↔ _
  rw [WordArith.ofBool_eq_one_iff, word_sle n m hn hm, decide_eq_true_eq]

/-- The comparison "at most", as a one-bit word, is 1 exactly when the left number is at most the right. -/
theorem word_sle_eq_one (m n : ℕ) (hm : m < 2 ^ 31) (hn : n < 2 ^ 31) :
    IntOp.cmpi .sle (BitVec.ofNat 32 m) (BitVec.ofNat 32 n) = 1#1 ↔ m ≤ n := by
  show BitVec.ofBool ((BitVec.ofNat 32 m).sle (BitVec.ofNat 32 n)) = 1#1 ↔ _
  rw [WordArith.ofBool_eq_one_iff, word_sle m n hm hn, decide_eq_true_eq]

/-! ## Row indices at an entry -/

/-- Counting from the end changes nothing at an entry that is a small natural number: it is not negative. -/
theorem wrapNeg_apply_nat (n : BitVec 32) (v : IVec S16384 32) (i : S16384.Idx) (k : ℕ) (hk : k < 2 ^ 31)
    (hv : v i = BitVec.ofNat 32 k) : wrapNeg n v i = BitVec.ofNat 32 k := by
  show Scalar.select (IntOp.cmpi .slt (v i) 0#32) (IntOp.addi (v i) n) (v i) = _
  rw [hv]
  show Scalar.select (BitVec.ofBool ((BitVec.ofNat 32 k).slt 0#32)) _ _ = _
  rw [word_not_neg k hk]
  exact select_zero _ _

/-- The one-column index table reads, in row p, the vector's entry p. -/
theorem rowIdx_apply_dest (v : IVec S16384 32) (p : Fin 16384) (c : Fin 1) : rowIdx v (ix2 p c) = v (ix1 p) := by
  show v _ = v _
  refine congrArg v (funext fun a => ?_)
  match a with
  | ⟨0, _⟩ => rfl

/-- The lookup's index table reads, in row p, the sorted id of position p. -/
theorem takeIdx_apply (sm : IVec S16384 32) (s : Fin 16384 → ℕ) (hs : ∀ p, s p < 6)
    (hsm : ∀ p, sm (ix1 p) = BitVec.ofNat 32 (s p)) (p : Fin 16384) (c : Fin 1) :
    takeIdx sm (ix2 p c) = BitVec.ofNat 32 (s p) := by
  unfold takeIdx
  rw [rowIdx_apply_dest]
  exact wrapNeg_apply_nat 6#32 sm (ix1 p) (s p) (by have := hs p; omega) (hsm p)

/-! ## The shift and the destination of a sorted row -/

/-- Every index of the lookup is inside the table of six shifts. -/
theorem takeOk_apply (sm : IVec S16384 32) (s : Fin 16384 → ℕ) (hs : ∀ p, s p < 6)
    (hsm : ∀ p, sm (ix1 p) = BitVec.ofNat 32 (s p)) (p : Fin 16384) : takeOk sm (ix1 p) = 1#1 := by
  unfold takeOk
  refine Cert.LibAndReduce.reduce_andi_one _ _ _ _ ?_ (fun _ => rfl) _
  intro i
  obtain ⟨a, c, rfl⟩ : ∃ (a : Fin 16384) (c : Fin 1), i = ix2 a c := ⟨i 0, i 1, eq_ix2 i⟩
  show IntOp.andi (IntOp.cmpi .sge (takeIdx sm (ix2 a c)) 0#32) (IntOp.cmpi .sle (takeIdx sm (ix2 a c)) 5#32) = 1#1
  rw [takeIdx_apply sm s hs hsm a c]
  have hk := hs a
  have h1 : IntOp.cmpi .sge (BitVec.ofNat 32 (s a)) 0#32 = 1#1 :=
    (word_sge_eq_one (s a) 0 (by omega) (by norm_num)).mpr (Nat.zero_le _)
  have h2 : IntOp.cmpi .sle (BitVec.ofNat 32 (s a)) 5#32 = 1#1 :=
    (word_sle_eq_one (s a) 5 (by omega) (by norm_num)).mpr (by omega)
  rw [h1, h2]
  rfl

/-- A sorted row's shift is the shift of its type: the lookup's index is in range, so the looked-up entry is chosen,
    and it is the table's entry at the row's sorted id. -/
theorem shift_apply (pad : IVec S6 32) (P : Fin 6 → ℕ) (hP : ∀ g, pad (ix1 g) = BitVec.ofNat 32 (P g))
    (sm : IVec S16384 32) (s : Fin 16384 → ℕ) (hs : ∀ p, s p < 6)
    (hsm : ∀ p, sm (ix1 p) = BitVec.ofNat 32 (s p)) (p : Fin 16384) :
    shiftOf pad sm (ix1 p) = BitVec.ofNat 32 (P ⟨s p, hs p⟩) := by
  unfold shiftOf
  rw [select_apply, takeOk_apply sm s hs hsm p, select_one]
  -- the index word of row p is the sorted id, a number below six
  have hidx : takeIdx sm (ix2 p 0) = BitVec.ofNat 32 (s p) := takeIdx_apply sm s hs hsm p 0
  have hnat : (takeIdx sm (ix2 p 0)).toNat = s p := by
    rw [hidx, BitVec.toNat_ofNat]
    exact Nat.mod_eq_of_lt (by have := hs p; omega)
  have hlt : (takeIdx sm (ix2 p 0)).toNat < 6 := by rw [hnat]; exact hs p
  rw [Cert.IntReads.gather_vec_apply gather_S6_S16384x1_S16384_n_0_n_n_0_1_1 rfl rfl rfl rfl rfl rfl rfl pad
    (takeIdx sm) p (by norm_num) hlt]
  have hg : (⟨(takeIdx sm (ix2 p 0)).toNat, hlt⟩ : Fin 6) = ⟨s p, hs p⟩ := Fin.ext hnat
  rw [hg]
  exact hP _

/-- A sorted row's destination is its position plus its type's shift. -/
theorem dest_apply (pad : IVec S6 32) (P : Fin 6 → ℕ) (hP : ∀ g, pad (ix1 g) = BitVec.ofNat 32 (P g))
    (sm : IVec S16384 32) (s : Fin 16384 → ℕ) (hs : ∀ p, s p < 6)
    (hsm : ∀ p, sm (ix1 p) = BitVec.ofNat 32 (s p)) (hb : ∀ p : Fin 16384, p.val + P ⟨s p, hs p⟩ < 2 ^ 31)
    (p : Fin 16384) :
    destOf pad sm (ix1 p) = BitVec.ofNat 32 (p.val + P ⟨s p, hs p⟩) := by
  show IntOp.addi (iotaInDim S16384 32 0 (ix1 p)) (shiftOf pad sm (ix1 p)) = _
  rw [shift_apply pad P hP sm s hs hsm p]
  show BitVec.ofNat 32 p.val + BitVec.ofNat 32 (P ⟨s p, hs p⟩) = _
  exact (BitVec.ofNat_add p.val (P ⟨s p, hs p⟩)).symm

/-- With the shifts of the padded layout, 512 rows to a block — a type's first padded row less its first sorted
    position — the position plus the shift is the padded row the position is sent to: the run of the row's type starts
    at or before the position, and at or before the type's first padded row, so both subtractions are exact. -/
theorem dest_routing (s : Fin 16384 → ℕ) (hmono : Monotone s) (hs : ∀ p, s p < 6) (P : Fin 6 → ℕ)
    (hPdef : ∀ g : Fin 6, P g = Cert.Routing.blocksBelow 512 s g.val * 512 - Cert.Routing.below s g.val)
    (p : Fin 16384) : p.val + P ⟨s p, hs p⟩ = Cert.Routing.dest 512 s p := by
  rw [hPdef]
  unfold Cert.Routing.dest
  have h1 := Cert.Routing.below_le_pos s hmono p
  have h2 := Cert.Routing.below_le_blocksBelow 512 (by norm_num) s (s p)
  show p.val + (Cert.Routing.blocksBelow 512 s (s p) * 512 - Cert.Routing.below s (s p))
    = Cert.Routing.blocksBelow 512 s (s p) * 512 + (p.val - Cert.Routing.below s (s p))
  omega

/-- That padded row is one of the 19456. -/
theorem dest_routing_lt (s : Fin 16384 → ℕ) (hmono : Monotone s) (hs : ∀ p, s p < 6) (p : Fin 16384) :
    Cert.Routing.dest 512 s p < 19456 :=
  calc Cert.Routing.dest 512 s p < (16384 / 512 + 6) * 512 :=
        Cert.Routing.dest_lt 512 6 (by norm_num) s hmono hs p
    _ = 19456 := by norm_num

/-! ## The type of a block -/

/-- The block numbers spread over the six columns read, in row b, the number b. -/
theorem blockIota_apply (b : Fin 38) (g : Fin 6) :
    broadcastInDim S38x6 ![0, 1] bcast_S38x1_S38x6_0_1
        (broadcastInDim S38x1 ![0] bcast_S38_S38x1_0 (iotaInDim S38 32 0)) (ix2 b g)
      = BitVec.ofNat 32 b.val := rfl

/-- The last six of the seven running totals spread over the 38 rows read, in column g, total g + 1. -/
theorem tailTotals_apply (cb7 : IVec S7 32) (b : Fin 38) (g : Fin 6) :
    broadcastInDim S38x6 ![0, 1] bcast_S1x6_S38x6_0_1
        (broadcastInDim S1x6 ![1] bcast_S6_S1x6_1 (extractStridedSlice S6 ![1] cb7 slices_S7_S6_1)) (ix2 b g)
      = cb7 (ix1 g.succ) := by
  show cb7 _ = cb7 _
  refine congrArg cb7 (funext fun a => ?_)
  match a with
  | ⟨0, _⟩ =>
    refine Fin.ext ?_
    show 1 + g.val = g.val + 1
    omega

/-- The number of running block totals block b has reached is the number of types whose total is at most b. -/
theorem reached_apply (cb7 : IVec S7 32) (B : Fin 7 → ℕ) (hB : ∀ g, B g < 2 ^ 31)
    (hcb : ∀ g, cb7 (ix1 g) = BitVec.ofNat 32 (B g)) (b : Fin 38) :
    reachedOf cb7 (ix1 b) = BitVec.ofNat 32 ((Finset.univ.filter fun g : Fin 6 => B g.succ ≤ b.val).card) := by
  unfold reachedOf
  rw [Cert.IntReads.count_axis1]
  refine congrArg (fun S : Finset (Fin 6) => BitVec.ofNat 32 S.card) (Finset.filter_congr fun g _ => ?_)
  -- the bit at (b, g) compares the block's number with total g + 1
  show IntOp.cmpi .sge
      (broadcastInDim S38x6 ![0, 1] bcast_S38x1_S38x6_0_1
        (broadcastInDim S38x1 ![0] bcast_S38_S38x1_0 (iotaInDim S38 32 0)) (ix2 b g))
      (broadcastInDim S38x6 ![0, 1] bcast_S1x6_S38x6_0_1
        (broadcastInDim S1x6 ![1] bcast_S6_S1x6_1 (extractStridedSlice S6 ![1] cb7 slices_S7_S6_1)) (ix2 b g))
      = 1#1 ↔ _
  rw [blockIota_apply, tailTotals_apply, hcb]
  exact word_sge_eq_one b.val (B g.succ) (by have := b.isLt; omega) (hB _)

/-- The signed maximum of zero and a small natural number is the number. -/
theorem word_maxsi_zero (n : ℕ) (hn : n < 2 ^ 31) : IntOp.maxsi 0#32 (BitVec.ofNat 32 n) = BitVec.ofNat 32 n := by
  unfold IntOp.maxsi
  rw [word_not_neg n hn]
  rfl

/-- The signed minimum of two small natural numbers is their minimum. -/
theorem word_minsi (m n : ℕ) (hm : m < 2 ^ 31) (hn : n < 2 ^ 31) :
    IntOp.minsi (BitVec.ofNat 32 m) (BitVec.ofNat 32 n) = BitVec.ofNat 32 (min m n) := by
  unfold IntOp.minsi
  rw [word_slt m n hm hn]
  by_cases h : m < n
  · rw [decide_eq_true h, if_pos rfl, Nat.min_eq_left (le_of_lt h)]
  · rw [decide_eq_false h, if_neg (by decide), Nat.min_eq_right (not_lt.mp h)]

/-- A block's type is the number of types whose running total it has reached, capped at five. -/
theorem btype_apply (cb7 : IVec S7 32) (B : Fin 7 → ℕ) (hB : ∀ g, B g < 2 ^ 31)
    (hcb : ∀ g, cb7 (ix1 g) = BitVec.ofNat 32 (B g)) (b : Fin 38) :
    btypeOf cb7 (ix1 b)
      = BitVec.ofNat 32 (min 5 ((Finset.univ.filter fun g : Fin 6 => B g.succ ≤ b.val).card)) := by
  show IntOp.minsi 5#32 (IntOp.maxsi 0#32 (reachedOf cb7 (ix1 b))) = _
  rw [reached_apply cb7 B hB hcb b]
  -- at most six types are counted
  have hn : (Finset.univ.filter fun g : Fin 6 => B g.succ ≤ b.val).card ≤ 6 :=
    (Finset.card_filter_le _ _).trans (by simp)
  generalize (Finset.univ.filter fun g : Fin 6 => B g.succ ≤ b.val).card = n at hn ⊢
  rw [word_maxsi_zero n (by omega)]
  exact word_minsi 5 n (by norm_num) (by omega)

/-- With the running block totals of the padded layout, that number of types is the number of groups whose block range
    has ended by the block: the six types are the numbers below six. -/
theorem reached_card_routing (s : Fin 16384 → ℕ) (B : Fin 7 → ℕ)
    (hBdef : ∀ g : Fin 7, B g = Cert.Routing.blocksBelow 512 s g.val) (b : ℕ) :
    (Finset.univ.filter fun g : Fin 6 => B g.succ ≤ b).card = Cert.Routing.endedBy 512 6 s b := by
  unfold Cert.Routing.endedBy
  rw [Finset.card_filter, Finset.card_filter,
    ← Fin.sum_univ_eq_sum_range (fun g => if Cert.Routing.blocksBelow 512 s (g + 1) ≤ b then 1 else 0) 6]
  refine Finset.sum_congr rfl fun g _ => ?_
  rw [hBdef g.succ, Fin.val_succ]

end Cert.KernelIdeal.Hand

end
-- ==== Proof.LibGather.lean ====
/-
  The two rank-2 forms of StableHLO's gather that indexing a matrix by a vector of positions produces, each read at
  one result index.

  A ROW gather takes an operand [N, D] and a column [B, 1] of start indices to the result [B, D] whose row b is the
  operand's row named by the b-th start index. A COLUMN gather takes an operand [N, M] and a column [B, 1] of start
  indices to the result [N, B] whose column b is the operand's column named by the b-th start index. StableHLO reads a
  start index as a signed word and clamps it so that the slice fits inside the operand. For a 32-bit word whose
  unsigned value is below the extent of the indexed axis, and an extent of at most 2^31, the signed reading is the
  unsigned value and the clamp does nothing: the result element is the operand's element at that row (column).

  Both theorems are stated for any record of dimension numbers whose fields are the lists of these two
  forms; the record's well-formedness proof is left abstract.
-/
import Idealize.ShloMosaic.PureOps.Dims
import Idealize.ShloMosaic.PureOps.ShapeOps
import Idealize.ShloMosaic.Lib.ValueIdx

namespace Cert.LibGather

open Idealize.ShloMosaic Idealize.ShloMosaic.ValueIdx

/-- A 32-bit start index whose unsigned value is below an extent n ≤ 2^31, read signed and clamped into [0, n − 1],
    is its unsigned value: the sign bit is clear, and the value is already at most n − 1. -/
private theorem clamp_eq (v : BitVec 32) (n : Nat) (hn : n ≤ 2 ^ 31) (hlt : v.toNat < n) :
    min v.toInt.toNat (n - 1) = v.toNat := by
  have h2 : 2 * v.toNat < 2 ^ 32 := by omega
  rw [BitVec.toInt_eq_toNat_of_lt h2, Int.toNat_natCast]
  exact Nat.min_eq_left (by omega)

private theorem zero_mem : (0 : Fin 2) ∈ ([0] : List (Fin 2)) := by decide
private theorem one_mem : (1 : Fin 2) ∈ ([1] : List (Fin 2)) := by decide
private theorem one_not_mem : (1 : Fin 2) ∉ ([0] : List (Fin 2)) := by decide
private theorem zero_not_mem : (0 : Fin 2) ∉ ([1] : List (Fin 2)) := by decide

/-! ## The row gather -/

/-- The dimension numbers of a row gather (operand [N, D], start indices [B, 1], result [B, D]), over an abstract
    proof of their conditions. -/
private abbrev rowsDims (N D B : Nat)
    (wf : GatherDims.WF ⟨2, ![N, D]⟩ ⟨2, ![B, 1]⟩ ⟨2, ![B, D]⟩ [1] [0] [] [0] [] 1 ![1, D]) :
    GatherDims ⟨2, ![N, D]⟩ ⟨2, ![B, 1]⟩ ⟨2, ![B, D]⟩ where
  offsetDims := [1]
  collapsedSliceDims := [0]
  operandBatchingDims := []
  startIndicesBatchingDims := []
  startIndexMap := [0]
  indexVectorDim := 1
  sliceSizes := ![1, D]
  wf := wf

private theorem rows_apply {N D B : Nat} {α : Type}
    (wf : GatherDims.WF ⟨2, ![N, D]⟩ ⟨2, ![B, 1]⟩ ⟨2, ![B, D]⟩ [1] [0] [] [0] [] 1 ![1, D])
    (x : (⟨2, ![N, D]⟩ : Shape).Idx → α) (idx : IVec ⟨2, ![B, 1]⟩ 32) (b : Fin B) (c : Fin D)
    (hN : N ≤ 2 ^ 31) (hlt : (idx (ix2 b 0)).toNat < N) :
    Host.gather (rowsDims N D B wf) x idx (ix2 b c) = x (ix2 ⟨(idx (ix2 b 0)).toNat, hlt⟩ c) := by
  unfold Host.gather
  refine congrArg x ?_
  funext a
  refine Fin.ext ?_
  show (rowsDims N D B wf).start (ix2 b c) idx a + (rowsDims N D B wf).batchCoord (ix2 b c) a
      + (rowsDims N D B wf).offCoord (ix2 b c) a = _
  rw [GatherDims.batchCoord_eq_zero _ _ _ List.not_mem_nil, Nat.add_zero]
  match a with
  | ⟨0, _⟩ =>
    -- axis 0 is collapsed and start-indexed: the clamped start index, no offset
    show (rowsDims N D B wf).start (ix2 b c) idx (0 : Fin 2) + (rowsDims N D B wf).offCoord (ix2 b c) (0 : Fin 2)
      = (idx (ix2 b 0)).toNat
    rw [GatherDims.offCoord_eq_zero _ _ _ (fun h => ((GatherDims.mem_sKept _ _).mp h).1 zero_mem), Nat.add_zero]
    unfold GatherDims.start
    rw [dif_pos (show (0 : Fin 2) ∈ (rowsDims N D B wf).startIndexMap from zero_mem)]
    have hsi : (rowsDims N D B wf).siIdx (ix2 b c) ⟨List.idxOf (0 : Fin 2) (rowsDims N D B wf).startIndexMap,
        List.idxOf_lt_length_iff.2 zero_mem⟩ = ix2 b 0 := by
      funext k; refine Fin.ext ?_
      match k with
      | ⟨0, _⟩ => rfl
      | ⟨1, _⟩ => rfl
    rw [hsi]
    exact clamp_eq _ N hN hlt
  | ⟨1, _⟩ =>
    -- axis 1 is the offset axis, not start-indexed: start 0, the result's column coordinate
    show (rowsDims N D B wf).start (ix2 b c) idx (1 : Fin 2) + (rowsDims N D B wf).offCoord (ix2 b c) (1 : Fin 2)
      = c.val
    have hs : (rowsDims N D B wf).start (ix2 b c) idx (1 : Fin 2) = 0 := by
      unfold GatherDims.start
      rw [dif_neg (show (1 : Fin 2) ∉ (rowsDims N D B wf).startIndexMap from one_not_mem)]
    rw [hs, Nat.zero_add]
    rfl

/-- A row gather (operand [N, D], start indices [B, 1], result [B, D]; offset_dims = [1], collapsed_slice_dims = [0],
    start_index_map = [0], index_vector_dim = 1, slice sizes [1, D]) read at (b, c): row (idx b) of the operand at
    column c, when the word idx b names a row. -/
theorem gather_rows_apply {N D B : Nat} {α : Type} (d : GatherDims ⟨2, ![N, D]⟩ ⟨2, ![B, 1]⟩ ⟨2, ![B, D]⟩)
    (h1 : d.offsetDims = [1]) (h2 : d.collapsedSliceDims = [0]) (h3 : d.operandBatchingDims = [])
    (h4 : d.startIndicesBatchingDims = [])
    (h5 : d.startIndexMap = [0]) (h6 : d.indexVectorDim = 1) (h7 : d.sliceSizes = ![1, D])
    (x : (⟨2, ![N, D]⟩ : Shape).Idx → α) (idx : IVec ⟨2, ![B, 1]⟩ 32) (b : Fin B) (c : Fin D)
    (hN : N ≤ 2 ^ 31) (hlt : (idx (ix2 b 0)).toNat < N) :
    Host.gather d x idx (ix2 b c) = x (ix2 ⟨(idx (ix2 b 0)).toNat, hlt⟩ c) := by
  obtain ⟨od, cd, ob, sb, sm, iv, ss, wf⟩ := d
  dsimp only at h1 h2 h3 h4 h5 h6 h7
  subst h1 h2 h3 h4 h5 h6 h7
  exact rows_apply wf x idx b c hN hlt

/-! ## The column gather -/

/-- The dimension numbers of a column gather (operand [N, M], start indices [B, 1], result [N, B]), over an abstract
    proof of their conditions. -/
private abbrev colsDims (N M B : Nat)
    (wf : GatherDims.WF ⟨2, ![N, M]⟩ ⟨2, ![B, 1]⟩ ⟨2, ![N, B]⟩ [0] [1] [] [1] [] 1 ![N, 1]) :
    GatherDims ⟨2, ![N, M]⟩ ⟨2, ![B, 1]⟩ ⟨2, ![N, B]⟩ where
  offsetDims := [0]
  collapsedSliceDims := [1]
  operandBatchingDims := []
  startIndicesBatchingDims := []
  startIndexMap := [1]
  indexVectorDim := 1
  sliceSizes := ![N, 1]
  wf := wf

private theorem cols_apply {N M B : Nat} {α : Type}
    (wf : GatherDims.WF ⟨2, ![N, M]⟩ ⟨2, ![B, 1]⟩ ⟨2, ![N, B]⟩ [0] [1] [] [1] [] 1 ![N, 1])
    (x : (⟨2, ![N, M]⟩ : Shape).Idx → α) (idx : IVec ⟨2, ![B, 1]⟩ 32) (n : Fin N) (b : Fin B)
    (hM : M ≤ 2 ^ 31) (hlt : (idx (ix2 b 0)).toNat < M) :
    Host.gather (colsDims N M B wf) x idx (ix2 n b) = x (ix2 n ⟨(idx (ix2 b 0)).toNat, hlt⟩) := by
  unfold Host.gather
  refine congrArg x ?_
  funext a
  refine Fin.ext ?_
  show (colsDims N M B wf).start (ix2 n b) idx a + (colsDims N M B wf).batchCoord (ix2 n b) a
      + (colsDims N M B wf).offCoord (ix2 n b) a = _
  rw [GatherDims.batchCoord_eq_zero _ _ _ List.not_mem_nil, Nat.add_zero]
  match a with
  | ⟨0, _⟩ =>
    -- axis 0 is the offset axis, not start-indexed: start 0, the result's row coordinate
    show (colsDims N M B wf).start (ix2 n b) idx (0 : Fin 2) + (colsDims N M B wf).offCoord (ix2 n b) (0 : Fin 2)
      = n.val
    have hs : (colsDims N M B wf).start (ix2 n b) idx (0 : Fin 2) = 0 := by
      unfold GatherDims.start
      rw [dif_neg (show (0 : Fin 2) ∉ (colsDims N M B wf).startIndexMap from zero_not_mem)]
    rw [hs, Nat.zero_add]
    rfl
  | ⟨1, _⟩ =>
    -- axis 1 is collapsed and start-indexed: the clamped start index, no offset
    show (colsDims N M B wf).start (ix2 n b) idx (1 : Fin 2) + (colsDims N M B wf).offCoord (ix2 n b) (1 : Fin 2)
      = (idx (ix2 b 0)).toNat
    rw [GatherDims.offCoord_eq_zero _ _ _ (fun h => ((GatherDims.mem_sKept _ _).mp h).1 one_mem), Nat.add_zero]
    unfold GatherDims.start
    rw [dif_pos (show (1 : Fin 2) ∈ (colsDims N M B wf).startIndexMap from one_mem)]
    have hsi : (colsDims N M B wf).siIdx (ix2 n b) ⟨List.idxOf (1 : Fin 2) (colsDims N M B wf).startIndexMap,
        List.idxOf_lt_length_iff.2 one_mem⟩ = ix2 b 0 := by
      funext k; refine Fin.ext ?_
      match k with
      | ⟨0, _⟩ => rfl
      | ⟨1, _⟩ => rfl
    rw [hsi]
    exact clamp_eq _ M hM hlt

/-- A column gather (operand [N, M], start indices [B, 1], result [N, B]; offset_dims = [0], collapsed_slice_dims = [1],
    start_index_map = [1], index_vector_dim = 1, slice sizes [N, 1]) read at (n, b): column (idx b) of the operand at
    row n, when the word idx b names a column. -/
theorem gather_cols_apply {N M B : Nat} {α : Type} (d : GatherDims ⟨2, ![N, M]⟩ ⟨2, ![B, 1]⟩ ⟨2, ![N, B]⟩)
    (h1 : d.offsetDims = [0]) (h2 : d.collapsedSliceDims = [1]) (h3 : d.operandBatchingDims = [])
    (h4 : d.startIndicesBatchingDims = [])
    (h5 : d.startIndexMap = [1]) (h6 : d.indexVectorDim = 1) (h7 : d.sliceSizes = ![N, 1])
    (x : (⟨2, ![N, M]⟩ : Shape).Idx → α) (idx : IVec ⟨2, ![B, 1]⟩ 32) (n : Fin N) (b : Fin B)
    (hM : M ≤ 2 ^ 31) (hlt : (idx (ix2 b 0)).toNat < M) :
    Host.gather d x idx (ix2 n b) = x (ix2 n ⟨(idx (ix2 b 0)).toNat, hlt⟩) := by
  obtain ⟨od, cd, ob, sb, sm, iv, ss, wf⟩ := d
  dsimp only at h1 h2 h3 h4 h5 h6 h7
  subst h1 h2 h3 h4 h5 h6 h7
  exact cols_apply wf x idx n b hM hlt

end Cert.LibGather
-- ==== Proof.LibScatterRows.lean ====
/-
  StableHLO's scatter read at one element of its result.

  The scatter's value is a fold over the update indices in row-major order: each update index whose target lies inside
  the operand replaces the element at its target by the body's value of that element and the update's; an update whose
  target lies outside is dropped.  Two general facts follow for any dimension numbers and any body f.  An element that
  no update index targets keeps the operand's value.  An element that exactly one update index j targets holds
  f (operand's element) (update at j) — the order of the fold does not matter for it.

  These are then read for the ROW scatter that writing rows of a matrix at a vector of positions produces: operand
  [N, D], a column [B, 1] of 32-bit row indices, updates [B, D]; update_window_dims = [1], inserted_window_dims = [0],
  scatter_dims_to_operand_dims = [0], index_vector_dim = 1.  Update (b, c) targets (idx b, c) when the word idx b,
  read signed, names a row.  With every index word below N ≤ 2^31 and the index words pairwise distinct, row idx b of
  the result at column c is f (operand at (idx b, c)) (update at (b, c)), and a row that no index word names is the
  operand's.
-/
import Idealize.ShloMosaic.PureOps.Dims
import Idealize.ShloMosaic.PureOps.ShapeOps
import Idealize.ShloMosaic.Lib.ValueIdx

namespace Cert.LibScatterRows

open Idealize.ShloMosaic Idealize.ShloMosaic.ValueIdx

/-! ## The fold, one update at a time -/

section Fold

variable {s si u : Shape} {w : Nat} {α : Type}

/-- What one update index does to the array built so far. -/
def writeOne (d : ScatterDims s si u) (f : α → α → α) (idx : IVec si w) (upd : u.Idx → α) (r : s.Idx → α)
    (n : Fin u.numel) : s.Idx → α :=
  match d.resultIdx? (u.rowMajor.symm n) idx with
  | some i => fun i' => if i' = i then f (r i) (upd (u.rowMajor.symm n)) else r i'
  | none => r

/-- The scatter is the fold of the single writes over the update positions in order. -/
theorem scatter_eq_foldl (d : ScatterDims s si u) (f : α → α → α) (x : s.Idx → α) (idx : IVec si w)
    (upd : u.Idx → α) : Host.scatter d f x idx upd = (List.finRange u.numel).foldl (writeOne d f idx upd) x := rfl

/-- A write aimed elsewhere (or dropped) leaves the element as it was. -/
theorem writeOne_other (d : ScatterDims s si u) (f : α → α → α) (idx : IVec si w) (upd : u.Idx → α)
    (r : s.Idx → α) (n : Fin u.numel) (i0 : s.Idx) (h : d.resultIdx? (u.rowMajor.symm n) idx ≠ some i0) :
    writeOne d f idx upd r n i0 = r i0 := by
  unfold writeOne
  cases hq : d.resultIdx? (u.rowMajor.symm n) idx with
  | none => rfl
  | some i =>
    have hne : i0 ≠ i := fun e => h (by rw [hq, e])
    exact if_neg hne

/-- A write aimed at the element replaces it by the body's value. -/
theorem writeOne_hit (d : ScatterDims s si u) (f : α → α → α) (idx : IVec si w) (upd : u.Idx → α)
    (r : s.Idx → α) (n : Fin u.numel) (i0 : s.Idx) (h : d.resultIdx? (u.rowMajor.symm n) idx = some i0) :
    writeOne d f idx upd r n i0 = f (r i0) (upd (u.rowMajor.symm n)) := by
  unfold writeOne
  rw [h]
  exact if_pos rfl

/-- A run of writes none of which is aimed at the element leaves it as it was. -/
theorem foldl_untouched (d : ScatterDims s si u) (f : α → α → α) (idx : IVec si w) (upd : u.Idx → α) (i0 : s.Idx) :
    ∀ (l : List (Fin u.numel)) (r : s.Idx → α),
      (∀ n ∈ l, d.resultIdx? (u.rowMajor.symm n) idx ≠ some i0) → l.foldl (writeOne d f idx upd) r i0 = r i0
  | [], _, _ => rfl
  | a :: l, r, h => by
    rw [List.foldl_cons, foldl_untouched d f idx upd i0 l _ (fun n hn => h n (List.mem_cons_of_mem a hn))]
    exact writeOne_other d f idx upd r a i0 (h a List.mem_cons_self)

/-- A run of writes over distinct update positions, exactly one of which is aimed at the element, leaves there the
    body's value of what was there and that one update. -/
theorem foldl_once (d : ScatterDims s si u) (f : α → α → α) (idx : IVec si w) (upd : u.Idx → α) (i0 : s.Idx)
    (n0 : Fin u.numel) (h0 : d.resultIdx? (u.rowMajor.symm n0) idx = some i0) :
    ∀ (l : List (Fin u.numel)) (r : s.Idx → α), l.Nodup → n0 ∈ l →
      (∀ n ∈ l, n ≠ n0 → d.resultIdx? (u.rowMajor.symm n) idx ≠ some i0) →
      l.foldl (writeOne d f idx upd) r i0 = f (r i0) (upd (u.rowMajor.symm n0))
  | [], _, _, hm, _ => absurd hm List.not_mem_nil
  | a :: l, r, hnd, hm, h => by
    rw [List.foldl_cons]
    have hnd' := List.nodup_cons.mp hnd
    by_cases ha : a = n0
    · -- the first write is the one; the rest miss
      subst ha
      rw [foldl_untouched d f idx upd i0 l _ (fun n hn => h n (List.mem_cons_of_mem a hn)
        (fun e => hnd'.1 (e ▸ hn)))]
      exact writeOne_hit d f idx upd r a i0 h0
    · -- the first write misses; the one is among the rest
      have hm' : n0 ∈ l := by
        rcases List.mem_cons.mp hm with e | e
        · exact absurd e.symm ha
        · exact e
      rw [foldl_once d f idx upd i0 n0 h0 l _ hnd'.2 hm' (fun n hn => h n (List.mem_cons_of_mem a hn))]
      rw [writeOne_other d f idx upd r a i0 (h a List.mem_cons_self ha)]

/-- An element that no update index targets keeps the operand's value. -/
theorem scatter_apply_untouched (d : ScatterDims s si u) (f : α → α → α) (x : s.Idx → α) (idx : IVec si w)
    (upd : u.Idx → α) (i0 : s.Idx) (h : ∀ j : u.Idx, d.resultIdx? j idx ≠ some i0) :
    Host.scatter d f x idx upd i0 = x i0 := by
  rw [scatter_eq_foldl]
  exact foldl_untouched d f idx upd i0 _ x (fun n _ => h _)

/-- An element that exactly one update index j0 targets holds the body's value of the operand's element and the
    update at j0. -/
theorem scatter_apply_once (d : ScatterDims s si u) (f : α → α → α) (x : s.Idx → α) (idx : IVec si w)
    (upd : u.Idx → α) (i0 : s.Idx) (j0 : u.Idx) (h0 : d.resultIdx? j0 idx = some i0)
    (h : ∀ j : u.Idx, j ≠ j0 → d.resultIdx? j idx ≠ some i0) :
    Host.scatter d f x idx upd i0 = f (x i0) (upd j0) := by
  rw [scatter_eq_foldl]
  have e0 : u.rowMajor.symm (u.rowMajor j0) = j0 := Equiv.symm_apply_apply _ _
  have := foldl_once d f idx upd i0 (u.rowMajor j0) (by rw [e0]; exact h0) (List.finRange u.numel) x
    (List.nodup_finRange _) (List.mem_finRange _)
    (fun n _ hn => h _ (fun e => hn (by rw [← e, Equiv.apply_symm_apply])))
  rw [this, e0]

end Fold

/-! ## The row scatter -/

section Rows

variable {N D B : Nat} {α : Type}

/-- The dimension numbers of a row scatter (operand [N, D], scatter indices [B, 1], updates [B, D]), over an abstract
    proof of their conditions. -/
private abbrev rowsDims (N D B : Nat)
    (wf : ScatterDims.WF ⟨2, ![N, D]⟩ ⟨2, ![B, 1]⟩ ⟨2, ![B, D]⟩ [1] [0] [0] 1) :
    ScatterDims ⟨2, ![N, D]⟩ ⟨2, ![B, 1]⟩ ⟨2, ![B, D]⟩ where
  updateWindowDims := [1]
  insertedWindowDims := [0]
  scatterDimsToOperandDims := [0]
  indexVectorDim := 1
  wf := wf

private theorem zero_mem : (0 : Fin 2) ∈ ([0] : List (Fin 2)) := by decide
private theorem one_not_mem : (1 : Fin 2) ∉ ([0] : List (Fin 2)) := by decide

/-- An operand axis carries a window coordinate exactly when it is not inserted. -/
private theorem mem_sKept_iff {s si u : Shape} (d : ScatterDims s si u) (a : Fin s.rank) :
    a ∈ d.sKept ↔ a ∉ d.insertedWindowDims := by
  simp [ScatterDims.sKept, Shape.kept, List.mem_filter, List.mem_finRange]

variable (wf : ScatterDims.WF ⟨2, ![N, D]⟩ ⟨2, ![B, 1]⟩ ⟨2, ![B, D]⟩ [1] [0] [0] 1)

/-- On the row axis the window of update (b, c) starts at the b-th index word, read signed. -/
private theorem start_row (idx : IVec ⟨2, ![B, 1]⟩ 32) (b : Fin B) (c : Fin D) :
    (rowsDims N D B wf).start (ix2 b c) idx (0 : Fin 2) = (idx (ix2 b 0)).toInt := by
  unfold ScatterDims.start
  rw [dif_pos (show (0 : Fin 2) ∈ (rowsDims N D B wf).scatterDimsToOperandDims from zero_mem)]
  have hsi : (rowsDims N D B wf).siIdx (ix2 b c) ⟨List.idxOf (0 : Fin 2) (rowsDims N D B wf).scatterDimsToOperandDims,
      List.idxOf_lt_length_iff.2 zero_mem⟩ = ix2 b 0 := by
    funext k; refine Fin.ext ?_
    match k with
    | ⟨0, _⟩ => rfl
    | ⟨1, _⟩ => rfl
  rw [hsi]

/-- On the column axis it starts at 0. -/
private theorem start_col (idx : IVec ⟨2, ![B, 1]⟩ 32) (b : Fin B) (c : Fin D) :
    (rowsDims N D B wf).start (ix2 b c) idx (1 : Fin 2) = 0 := by
  unfold ScatterDims.start
  rw [dif_neg (show (1 : Fin 2) ∉ (rowsDims N D B wf).scatterDimsToOperandDims from one_not_mem)]

/-- The row axis is inserted: window coordinate 0. -/
private theorem window_row (b : Fin B) (c : Fin D) : (rowsDims N D B wf).window (ix2 b c) (0 : Fin 2) = 0 := by
  unfold ScatterDims.window
  rw [dif_neg (show (0 : Fin 2) ∉ (rowsDims N D B wf).sKept from fun h => (mem_sKept_iff _ _).mp h zero_mem)]

/-- The column axis carries the update's column. -/
private theorem window_col (b : Fin B) (c : Fin D) : (rowsDims N D B wf).window (ix2 b c) (1 : Fin 2) = c.val := by
  unfold ScatterDims.window
  rw [dif_pos (show (1 : Fin 2) ∈ (rowsDims N D B wf).sKept from (mem_sKept_iff _ _).mpr one_not_mem)]
  rfl

end Rows

section RowsTarget

variable {N D B : Nat} {α : Type}
variable (wf : ScatterDims.WF ⟨2, ![N, D]⟩ ⟨2, ![B, 1]⟩ ⟨2, ![B, D]⟩ [1] [0] [0] 1)

/-- Update (b, c) of a row scatter targets row idx b at column c, when the word idx b is below N ≤ 2^31: its signed
    reading is its unsigned value, and the target is inside the operand. -/
private theorem rows_target (idx : IVec ⟨2, ![B, 1]⟩ 32) (b : Fin B) (c : Fin D) (hN : N ≤ 2 ^ 31)
    (hlt : (idx (ix2 b 0)).toNat < N) :
    (rowsDims N D B wf).resultIdx? (ix2 b c) idx = some (ix2 ⟨(idx (ix2 b 0)).toNat, hlt⟩ c) := by
  have hint : (idx (ix2 b 0)).toInt = ((idx (ix2 b 0)).toNat : Int) := BitVec.toInt_eq_toNat_of_lt (by omega)
  have hc := c.isLt
  have hcond : ∀ a : Fin 2,
      0 ≤ (rowsDims N D B wf).start (ix2 b c) idx a + ((rowsDims N D B wf).window (ix2 b c) a : Int) ∧
      (rowsDims N D B wf).start (ix2 b c) idx a + ((rowsDims N D B wf).window (ix2 b c) a : Int)
        < (((⟨2, ![N, D]⟩ : Shape).size a : Nat) : Int) := by
    intro a
    match a with
    | ⟨0, _⟩ =>
      show 0 ≤ (rowsDims N D B wf).start (ix2 b c) idx (0 : Fin 2) + ((rowsDims N D B wf).window (ix2 b c) (0 : Fin 2) : Int) ∧
        (rowsDims N D B wf).start (ix2 b c) idx (0 : Fin 2) + ((rowsDims N D B wf).window (ix2 b c) (0 : Fin 2) : Int) < ((N : Nat) : Int)
      rw [start_row, window_row, hint]
      omega
    | ⟨1, _⟩ =>
      show 0 ≤ (rowsDims N D B wf).start (ix2 b c) idx (1 : Fin 2) + ((rowsDims N D B wf).window (ix2 b c) (1 : Fin 2) : Int) ∧
        (rowsDims N D B wf).start (ix2 b c) idx (1 : Fin 2) + ((rowsDims N D B wf).window (ix2 b c) (1 : Fin 2) : Int) < ((D : Nat) : Int)
      rw [start_col, window_col]
      omega
  unfold ScatterDims.resultIdx?
  rw [dif_pos hcond]
  refine congrArg some (funext fun a => Fin.ext ?_)
  match a with
  | ⟨0, _⟩ =>
    show ((rowsDims N D B wf).start (ix2 b c) idx (0 : Fin 2) + ((rowsDims N D B wf).window (ix2 b c) (0 : Fin 2) : Int)).toNat
      = (idx (ix2 b 0)).toNat
    rw [start_row, window_row, hint]
    omega
  | ⟨1, _⟩ =>
    show ((rowsDims N D B wf).start (ix2 b c) idx (1 : Fin 2) + ((rowsDims N D B wf).window (ix2 b c) (1 : Fin 2) : Int)).toNat
      = c.val
    rw [start_col, window_col]
    omega

end RowsTarget

/-! ## The row scatter read at one element -/

section RowsRead

variable {N D B : Nat} {α : Type}

private theorem rows_apply (wf : ScatterDims.WF ⟨2, ![N, D]⟩ ⟨2, ![B, 1]⟩ ⟨2, ![B, D]⟩ [1] [0] [0] 1)
    (f : α → α → α) (x : (⟨2, ![N, D]⟩ : Shape).Idx → α) (idx : IVec ⟨2, ![B, 1]⟩ 32)
    (upd : (⟨2, ![B, D]⟩ : Shape).Idx → α) (hN : N ≤ 2 ^ 31) (hin : ∀ b, (idx (ix2 b 0)).toNat < N)
    (hinj : ∀ b b' : Fin B, idx (ix2 b 0) = idx (ix2 b' 0) → b = b') (b : Fin B) (c : Fin D) :
    Host.scatter (rowsDims N D B wf) f x idx upd (ix2 ⟨(idx (ix2 b 0)).toNat, hin b⟩ c)
      = f (x (ix2 ⟨(idx (ix2 b 0)).toNat, hin b⟩ c)) (upd (ix2 b c)) := by
  refine scatter_apply_once _ f x idx upd _ (ix2 b c) (rows_target wf idx b c hN (hin b)) ?_
  -- another update index with the same target would have the same index word and the same column
  intro j hj htgt
  obtain ⟨b', c', rfl⟩ : ∃ (b' : Fin B) (c' : Fin D), j = ix2 b' c' := ⟨j 0, j 1, eq_ix2 j⟩
  rw [rows_target wf idx b' c' hN (hin b')] at htgt
  have hidx := Option.some.inj htgt
  have h0 : (idx (ix2 b' 0)).toNat = (idx (ix2 b 0)).toNat := congrArg (fun q => (q (0 : Fin 2)).val) hidx
  have h1 : c' = c := congrFun hidx (1 : Fin 2)
  have hb : b' = b := hinj _ _ (BitVec.eq_of_toNat_eq h0)
  exact hj (by rw [hb, h1])

private theorem rows_untouched (wf : ScatterDims.WF ⟨2, ![N, D]⟩ ⟨2, ![B, 1]⟩ ⟨2, ![B, D]⟩ [1] [0] [0] 1)
    (f : α → α → α) (x : (⟨2, ![N, D]⟩ : Shape).Idx → α) (idx : IVec ⟨2, ![B, 1]⟩ 32)
    (upd : (⟨2, ![B, D]⟩ : Shape).Idx → α) (hN : N ≤ 2 ^ 31) (hin : ∀ b, (idx (ix2 b 0)).toNat < N)
    (r : Fin N) (hr : ∀ b, (idx (ix2 b 0)).toNat ≠ r.val) (c : Fin D) :
    Host.scatter (rowsDims N D B wf) f x idx upd (ix2 r c) = x (ix2 r c) := by
  refine scatter_apply_untouched _ f x idx upd _ ?_
  intro j htgt
  obtain ⟨b', c', rfl⟩ : ∃ (b' : Fin B) (c' : Fin D), j = ix2 b' c' := ⟨j 0, j 1, eq_ix2 j⟩
  rw [rows_target wf idx b' c' hN (hin b')] at htgt
  exact hr b' (congrArg (fun q => (q (0 : Fin 2)).val) (Option.some.inj htgt))

/-- A row scatter (operand [N, D], scatter indices [B, 1], updates [B, D]; update_window_dims = [1],
    inserted_window_dims = [0], scatter_dims_to_operand_dims = [0], index_vector_dim = 1) whose index words are all
    below N ≤ 2^31 and pairwise distinct, read at row idx b and column c: the body's value of the operand's element
    there and update (b, c). -/
theorem scatter_rows_apply (d : ScatterDims ⟨2, ![N, D]⟩ ⟨2, ![B, 1]⟩ ⟨2, ![B, D]⟩)
    (h1 : d.updateWindowDims = [1]) (h2 : d.insertedWindowDims = [0]) (h3 : d.scatterDimsToOperandDims = [0])
    (h4 : d.indexVectorDim = 1) (f : α → α → α) (x : (⟨2, ![N, D]⟩ : Shape).Idx → α) (idx : IVec ⟨2, ![B, 1]⟩ 32)
    (upd : (⟨2, ![B, D]⟩ : Shape).Idx → α) (hN : N ≤ 2 ^ 31) (hin : ∀ b, (idx (ix2 b 0)).toNat < N)
    (hinj : ∀ b b' : Fin B, idx (ix2 b 0) = idx (ix2 b' 0) → b = b') (b : Fin B) (c : Fin D) :
    Host.scatter d f x idx upd (ix2 ⟨(idx (ix2 b 0)).toNat, hin b⟩ c)
      = f (x (ix2 ⟨(idx (ix2 b 0)).toNat, hin b⟩ c)) (upd (ix2 b c)) := by
  obtain ⟨uw, iw, sd, iv, wf⟩ := d
  dsimp only at h1 h2 h3 h4
  subst h1 h2 h3 h4
  exact rows_apply wf f x idx upd hN hin hinj b c

/-- The same scatter read at a row that no index word names: the operand's element. -/
theorem scatter_rows_untouched (d : ScatterDims ⟨2, ![N, D]⟩ ⟨2, ![B, 1]⟩ ⟨2, ![B, D]⟩)
    (h1 : d.updateWindowDims = [1]) (h2 : d.insertedWindowDims = [0]) (h3 : d.scatterDimsToOperandDims = [0])
    (h4 : d.indexVectorDim = 1) (f : α → α → α) (x : (⟨2, ![N, D]⟩ : Shape).Idx → α) (idx : IVec ⟨2, ![B, 1]⟩ 32)
    (upd : (⟨2, ![B, D]⟩ : Shape).Idx → α) (hN : N ≤ 2 ^ 31) (hin : ∀ b, (idx (ix2 b 0)).toNat < N)
    (r : Fin N) (hr : ∀ b, (idx (ix2 b 0)).toNat ≠ r.val) (c : Fin D) :
    Host.scatter d f x idx upd (ix2 r c) = x (ix2 r c) := by
  obtain ⟨uw, iw, sd, iv, wf⟩ := d
  dsimp only at h1 h2 h3 h4
  subst h1 h2 h3 h4
  exact rows_untouched wf f x idx upd hN hin r hr c

/-- The row scatter with its index words given as the words of natural numbers ρ b < N, ρ one-to-one: row ρ b of the
    result at column c is the body's value of the operand's element there and update (b, c). -/
theorem scatter_rows_at (d : ScatterDims ⟨2, ![N, D]⟩ ⟨2, ![B, 1]⟩ ⟨2, ![B, D]⟩)
    (h1 : d.updateWindowDims = [1]) (h2 : d.insertedWindowDims = [0]) (h3 : d.scatterDimsToOperandDims = [0])
    (h4 : d.indexVectorDim = 1) (f : α → α → α) (x : (⟨2, ![N, D]⟩ : Shape).Idx → α) (idx : IVec ⟨2, ![B, 1]⟩ 32)
    (upd : (⟨2, ![B, D]⟩ : Shape).Idx → α) (hN : N ≤ 2 ^ 31) (ρ : Fin B → Nat) (hρ : ∀ b, ρ b < N)
    (hidx : ∀ b, idx (ix2 b 0) = BitVec.ofNat 32 (ρ b)) (hinj : Function.Injective ρ) (b : Fin B) (c : Fin D) :
    Host.scatter d f x idx upd (ix2 ⟨ρ b, hρ b⟩ c) = f (x (ix2 ⟨ρ b, hρ b⟩ c)) (upd (ix2 b c)) := by
  have hval : ∀ q, (idx (ix2 q 0)).toNat = ρ q := fun q => by
    rw [hidx q, BitVec.toNat_ofNat]
    have := hρ q
    exact Nat.mod_eq_of_lt (by omega)
  have hin : ∀ q, (idx (ix2 q 0)).toNat < N := fun q => by rw [hval q]; exact hρ q
  have hdist : ∀ q q' : Fin B, idx (ix2 q 0) = idx (ix2 q' 0) → q = q' := fun q q' e =>
    hinj (by rw [← hval q, ← hval q', e])
  have key := scatter_rows_apply d h1 h2 h3 h4 f x idx upd hN hin hdist b c
  have hrow : (⟨(idx (ix2 b 0)).toNat, hin b⟩ : Fin N) = ⟨ρ b, hρ b⟩ := Fin.ext (hval b)
  rw [hrow] at key
  exact key

/-- The same, at a row that is no ρ b: the operand's element. -/
theorem scatter_rows_at_untouched (d : ScatterDims ⟨2, ![N, D]⟩ ⟨2, ![B, 1]⟩ ⟨2, ![B, D]⟩)
    (h1 : d.updateWindowDims = [1]) (h2 : d.insertedWindowDims = [0]) (h3 : d.scatterDimsToOperandDims = [0])
    (h4 : d.indexVectorDim = 1) (f : α → α → α) (x : (⟨2, ![N, D]⟩ : Shape).Idx → α) (idx : IVec ⟨2, ![B, 1]⟩ 32)
    (upd : (⟨2, ![B, D]⟩ : Shape).Idx → α) (hN : N ≤ 2 ^ 31) (ρ : Fin B → Nat) (hρ : ∀ b, ρ b < N)
    (hidx : ∀ b, idx (ix2 b 0) = BitVec.ofNat 32 (ρ b)) (r : Fin N) (hr : ∀ b, ρ b ≠ r.val) (c : Fin D) :
    Host.scatter d f x idx upd (ix2 r c) = x (ix2 r c) := by
  have hval : ∀ q, (idx (ix2 q 0)).toNat = ρ q := fun q => by
    rw [hidx q, BitVec.toNat_ofNat]
    have := hρ q
    exact Nat.mod_eq_of_lt (by omega)
  exact scatter_rows_untouched d h1 h2 h3 h4 f x idx upd hN (fun q => by rw [hval q]; exact hρ q) r
    (fun q => by rw [hval q]; exact hr q) c

end RowsRead

end Cert.LibScatterRows
-- ==== Proof.KI_ReadRows.lean ====
/-
  The three float tensors around the kernel region, each read at one element.

  The two weight tables are rounded and then have their type axis folded into their rows: entry (t, d, k) of the
  first sits at row 128 t + d, entry (t, k, j) of the second at row 2048 t + k.  After the region the padded result is
  read at the destinations and that read through the row order: row i of the outcome is the padded row at the
  destination of the position the order puts at i.  Before the region the rounded activations, read through the order,
  are written at the destinations into a table of zeros: with pairwise distinct destinations inside the table, the row
  at the destination of position p is the activation row the order puts at p.  At the ideal instance a float is an
  extended real and rounding is the identity.  The index arrays are variables, given by the natural numbers they hold.
-/
import proofs.«410392_j25512105739026_3_alg».proof.Proof.KI_StageDefs
import proofs.«410392_j25512105739026_3_alg».proof.Proof.LibGather
import proofs.«410392_j25512105739026_3_alg».proof.Proof.LibScatterRows
import Idealize.ShloMosaic.Lib.ValueIdx
import Idealize.ShloMosaic.Lib.Pipeline.Value

noncomputable section

namespace Cert.KernelIdeal.Hand

open Cert.KernelIdeal
open Idealize.ShloMosaic Idealize.ShloMosaic.ValueIdx
open Facts₀

variable [Facts₀]

/-! ## The weight tables with the type axis folded into the rows -/

/-- Row 128 t + d of the folded first weight table is row d of type t's table. -/
theorem w1f_apply (W1 : FVec Ideal S4x128x2048 .f32) (t : Fin 4) (d : Fin 128) (k : Fin 2048) :
    w1fOf (F := Ideal) W1 (ix2 ⟨128 * t.val + d.val, by omega⟩ k) = W1 (ix3 t d k) := by
  unfold w1fOf
  rw [shapeCast_apply _ _ _ (ix3 t d k)]
  · rfl
  · -- both positions are (128 t + d) · 2048 + k
    rw [Shape.rowMajor_val_three, Shape.rowMajor_val_two]
    show (t.val * 128 + d.val) * 2048 + k.val = (128 * t.val + d.val) * 2048 + k.val
    omega

/-- Row 2048 t + k of the folded second weight table is row k of type t's table. -/
theorem w2f_apply (W2 : FVec Ideal S4x2048x1024 .f32) (t : Fin 4) (k : Fin 2048) (j : Fin 1024) :
    w2fOf (F := Ideal) W2 (ix2 ⟨2048 * t.val + k.val, by omega⟩ j) = W2 (ix3 t k j) := by
  unfold w2fOf
  rw [shapeCast_apply _ _ _ (ix3 t k j)]
  · rfl
  · -- both positions are (2048 t + k) · 1024 + j
    rw [Shape.rowMajor_val_three, Shape.rowMajor_val_two]
    show (t.val * 2048 + k.val) * 1024 + j.val = (2048 * t.val + k.val) * 1024 + j.val
    omega

/-! ## Row indices read at a position -/

/-- A nonnegative word is not below zero in the signed order. -/
private theorem not_slt_zero (v : BitVec 32) (h : v.toNat < 2 ^ 31) : IntOp.cmpi .slt v 0#32 = 0#1 := by
  have h0 : v.slt 0#32 = false := by
    rw [BitVec.slt, BitVec.toInt_eq_toNat_of_lt (by omega)]
    simp
  show BitVec.ofBool (v.slt 0#32) = 0#1
  rw [h0]
  rfl

/-- Counting a row index from the end changes nothing where the index word is nonnegative. -/
theorem wrapNeg_apply_nonneg' (n : BitVec 32) (v : IVec S16384 32) (p : Fin 16384)
    (h : (v (ix1 p)).toNat < 2 ^ 31) : wrapNeg n v (ix1 p) = v (ix1 p) := by
  unfold wrapNeg
  rw [select_apply]
  have hc : cmpi .slt v (broadcastInDim S16384 ![] bcast_S_S16384 (constantI S_ 32 0#32)) (ix1 p) = 0#1 :=
    not_slt_zero (v (ix1 p)) h
  rw [hc]
  rfl

/-- The one-column index table of a vector of row indices holds, in row p, the vector's entry p. -/
theorem rowIdx_apply_rows (v : IVec S16384 32) (p : Fin 16384) : rowIdx v (ix2 p 0) = v (ix1 p) := by
  unfold rowIdx
  refine broadcastInDim_apply _ _ v _ (ix1 p) ?_
  intro a
  match a with
  | ⟨0, _⟩ => rfl

/-- The index table of a vector of row indices that holds the natural number r p < 2^31 at p: row p of the table is
    that number's word, whatever extent negative indices would have been counted from. -/
theorem rowIdx_wrapNeg_apply (n : BitVec 32) (v : IVec S16384 32) (r : Fin 16384 → ℕ) (hr : ∀ p, r p < 2 ^ 31)
    (hv : ∀ p, v (ix1 p) = BitVec.ofNat 32 (r p)) (p : Fin 16384) :
    rowIdx (wrapNeg n v) (ix2 p 0) = BitVec.ofNat 32 (r p) := by
  rw [rowIdx_apply_rows, wrapNeg_apply_nonneg', hv p]
  rw [hv p, BitVec.toNat_ofNat]
  have := hr p
  omega

/-! ## A row gather at an index word given as a natural number -/

/-- A row gather read at (b, c), where the b-th index word is the word of a row number r: row r at column c. -/
theorem gather_rows_at {N D B : Nat} {α : Type} (d : GatherDims ⟨2, ![N, D]⟩ ⟨2, ![B, 1]⟩ ⟨2, ![B, D]⟩)
    (h1 : d.offsetDims = [1]) (h2 : d.collapsedSliceDims = [0]) (h3 : d.operandBatchingDims = [])
    (h4 : d.startIndicesBatchingDims = [])
    (h5 : d.startIndexMap = [0]) (h6 : d.indexVectorDim = 1) (h7 : d.sliceSizes = ![1, D])
    (x : (⟨2, ![N, D]⟩ : Shape).Idx → α) (idx : IVec ⟨2, ![B, 1]⟩ 32) (b : Fin B) (c : Fin D)
    (hN : N ≤ 2 ^ 31) (r : Fin N) (hr : idx (ix2 b 0) = BitVec.ofNat 32 r.val) :
    Host.gather d x idx (ix2 b c) = x (ix2 r c) := by
  have hval : (idx (ix2 b 0)).toNat = r.val := by
    rw [hr, BitVec.toNat_ofNat]
    have := r.isLt
    exact Nat.mod_eq_of_lt (by omega)
  have hlt : (idx (ix2 b 0)).toNat < N := by rw [hval]; exact r.isLt
  rw [Cert.LibGather.gather_rows_apply d h1 h2 h3 h4 h5 h6 h7 x idx b c hN hlt]
  exact congrArg (fun q => x (ix2 q c)) (Fin.ext hval)

/-! ## After the region -/

/-- Row i of the outcome is the padded row at the destination of the position the order puts at i. -/
theorem gatherOut_apply (arr : FVec Ideal S19456x1024 .f32) (ord dest : IVec S16384 32)
    (σ : Fin 16384 → Fin 16384) (D : Fin 16384 → ℕ) (hD : ∀ p, D p < 19456)
    (hord : ∀ p, ord (ix1 p) = BitVec.ofNat 32 (σ p).val)
    (hdest : ∀ p, dest (ix1 p) = BitVec.ofNat 32 (D p)) (i : Fin 16384) (j : Fin 1024) :
    gatherOut (F := Ideal) arr ord dest (ix2 i j) = arr (ix2 ⟨D (σ i), hD _⟩ j) := by
  unfold gatherOut
  -- the outer gather reads row σ i of the inner one
  rw [gather_rows_at gather_S16384x1024_S16384x1_S16384x1024_1_0_n_n_0_1_11024 rfl rfl rfl rfl rfl rfl rfl _ _ i j
    (by norm_num) (σ i)
    (rowIdx_wrapNeg_apply 16384#32 ord (fun p => (σ p).val) (fun p => by have := (σ p).isLt; omega) hord i)]
  -- the inner gather reads row D (σ i) of the padded result
  exact gather_rows_at gather_S19456x1024_S16384x1_S16384x1024_1_0_n_n_0_1_11024 rfl rfl rfl rfl rfl rfl rfl _ _ (σ i) j
    (by norm_num) ⟨D (σ i), hD _⟩
    (rowIdx_wrapNeg_apply 19456#32 dest D (fun p => by have := hD p; omega) hdest (σ i))

/-! ## The padded activations -/

/-- The padded row at the destination of position p is the activation row the order puts at p. -/
theorem px_apply (x : FVec Ideal S16384x128 .f32) (ord dest : IVec S16384 32)
    (σ : Fin 16384 → Fin 16384) (D : Fin 16384 → ℕ) (hD : ∀ p, D p < 19456)
    (hord : ∀ p, ord (ix1 p) = BitVec.ofNat 32 (σ p).val)
    (hdest : ∀ p, dest (ix1 p) = BitVec.ofNat 32 (D p)) (hinj : Function.Injective D)
    (p : Fin 16384) (d : Fin 128) :
    pxOf (F := Ideal) x ord dest (ix2 ⟨D p, hD p⟩ d) = x (ix2 (σ p) d) := by
  unfold pxOf
  -- the destinations are distinct rows of the table: the row at D p is update row p
  rw [Cert.LibScatterRows.scatter_rows_at scatter_S19456x128_S16384x1_S16384x128_1_0_0_1 rfl rfl rfl rfl
    (fun _ b => b) _ _ _ (by norm_num) D hD
    (rowIdx_wrapNeg_apply 19456#32 dest D (fun q => by have := hD q; omega) hdest) hinj p d]
  -- update row p is the rounded activations' row σ p, and rounding is the identity
  show Host.gather gather_S16384x128_S16384x1_S16384x128_1_0_n_n_0_1_1128 (truncf .bf16 x bitsLt_bf16_f32)
    (rowIdx (wrapNeg 16384#32 ord)) (ix2 p d) = x (ix2 (σ p) d)
  rw [gather_rows_at gather_S16384x128_S16384x1_S16384x128_1_0_n_n_0_1_1128 rfl rfl rfl rfl rfl rfl rfl _ _ p d
    (by norm_num) (σ p)
    (rowIdx_wrapNeg_apply 16384#32 ord (fun q => (σ q).val) (fun q => by have := (σ q).isLt; omega) hord p)]
  rfl

/-- A padded row that is no position's destination is a row of zeros. -/
theorem px_apply_pad (x : FVec Ideal S16384x128 .f32) (ord dest : IVec S16384 32)
    (D : Fin 16384 → ℕ) (hD : ∀ p, D p < 19456) (hdest : ∀ p, dest (ix1 p) = BitVec.ofNat 32 (D p))
    (r : Fin 19456) (hr : ∀ p, D p ≠ r.val) (d : Fin 128) :
    pxOf (F := Ideal) x ord dest (ix2 r d) = Ideal.ofBits .bf16 0x0000#16 := by
  unfold pxOf
  rw [Cert.LibScatterRows.scatter_rows_at_untouched scatter_S19456x128_S16384x1_S16384x128_1_0_0_1 rfl rfl rfl rfl
    (fun _ b => b) _ _ _ (by norm_num) D hD
    (rowIdx_wrapNeg_apply 19456#32 dest D (fun q => by have := hD q; omega) hdest) r hr d]
  rfl

end Cert.KernelIdeal.Hand

end
-- ==== Proof.KI_Result.lean ====
/-
  What the routed program returns, entry by entry.

  Write σ for the row order (σ p is the row whose type id lands at sorted position p) and s p for the type id of
  row σ p, a nondecreasing sequence of numbers below 6.  The host side sends sorted position p to padded row
  D p = (blocks given to the types below s p) · 512 + (p − rows of the types below s p); these rows are pairwise
  distinct and stay below 19456, and the block D p / 512 carries the type s p.  So the padded input holds row σ p of x
  at row D p, the kernel region writes there the encoding of that row under type s p, and the two gathers after the
  region return, at row i, padded row D (σ i): the encoding of row σ (σ i) of x under its own type id.
-/
import proofs.«410392_j25512105739026_3_alg».proof.Proof.KI_Frame
import proofs.«410392_j25512105739026_3_alg».proof.Proof.KI_Stages
import proofs.«410392_j25512105739026_3_alg».proof.Proof.KI_Region
import proofs.«410392_j25512105739026_3_alg».proof.Proof.KI_ReadCounts
import proofs.«410392_j25512105739026_3_alg».proof.Proof.KI_ReadBlocks
import proofs.«410392_j25512105739026_3_alg».proof.Proof.KI_ReadDest
import proofs.«410392_j25512105739026_3_alg».proof.Proof.KI_ReadRows
import proofs.«410392_j25512105739026_3_alg».proof.Proof.SortOrder
import proofs.«410392_j25512105739026_3_alg».proof.Proof.Routing
import proofs.«410392_j25512105739026_3_alg».proof.Proof.Spec

noncomputable section

namespace Cert.KernelIdeal.Hand

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ)

/-- The type ids as launched, on core `c`. -/
abbrev maskOf (c : Dev nD) : IVec S16384 32 := m ((c : Thread nD τ).loc main_arg1)

section
variable (c : Dev nD) (hm : ∀ n : Fin 16384, (maskOf m c (ix1 n)).toNat ≤ 5)
include hm

/-- Sorted position `p`'s padded row. -/
abbrev destRow (p : Fin 16384) : ℕ := Cert.Routing.dest 512 (sOf (maskOf m c)) p

theorem destRow_lt (p : Fin 16384) : destRow m c p < 19456 :=
  dest_routing_lt (sOf (maskOf m c)) (s_mono (maskOf m c) hm) (s_lt (maskOf m c) hm) p

/-- The six shifts as natural numbers. -/
abbrev shiftNat (g : Fin 6) : ℕ :=
  Cert.Routing.blocksBelow 512 (sOf (maskOf m c)) g.val * 512 - Cert.Routing.below (sOf (maskOf m c)) g.val

/-- The destinations the host side computes are the padded rows of the arithmetic. -/
theorem dest_word (p : Fin 16384) :
    destOf (padOf (lead0 (cumsum6 (bpgOf (countsOf (smaskOf (maskOf m c) (ordOf (maskOf m c)))))))
        (lead0 (cumsum6 (countsOf (smaskOf (maskOf m c) (ordOf (maskOf m c)))))))
      (smaskOf (maskOf m c) (ordOf (maskOf m c))) (ix1 p) = BitVec.ofNat 32 (destRow m c p) := by
  have hs := s_lt (maskOf m c) hm
  have hmono := s_mono (maskOf m c) hm
  have hP : ∀ g : Fin 6, padOf (lead0 (cumsum6 (bpgOf (countsOf (smaskOf (maskOf m c) (ordOf (maskOf m c)))))))
        (lead0 (cumsum6 (countsOf (smaskOf (maskOf m c) (ordOf (maskOf m c)))))) (ix1 g) = BitVec.ofNat 32 (shiftNat m c g) :=
    fun g => pad_apply (sOf (maskOf m c)) _ (counts_sorted (maskOf m c) hm) g
  have hroute : ∀ q : Fin 16384, q.val + shiftNat m c ⟨sOf (maskOf m c) q, hs q⟩ = destRow m c q :=
    fun q => dest_routing (sOf (maskOf m c)) hmono hs (shiftNat m c) (fun _ => rfl) q
  rw [dest_apply _ (shiftNat m c) hP _ (sOf (maskOf m c)) hs (smask_eq_ofNat (maskOf m c))
    (fun q => by rw [hroute q]; have := destRow_lt m c hm q; omega) p, hroute p]

/-- The block a sorted position's padded row falls in carries the position's own type. -/
theorem btype_word (p : Fin 16384) :
    btypeOf (lead0 (cumsum6 (bpgOf (countsOf (smaskOf (maskOf m c) (ordOf (maskOf m c)))))))
      (ix1 ⟨destRow m c p / 512, by have := destRow_lt m c hm p; omega⟩) = BitVec.ofNat 32 (sOf (maskOf m c) p) := by
  have hs := s_lt (maskOf m c) hm
  have hmono := s_mono (maskOf m c) hm
  rw [btype_apply _ (fun g : Fin 7 => Cert.Routing.blocksBelow 512 (sOf (maskOf m c)) g.val)
      (fun g => by
        have := Cert.Routing.blocksBelow_le 512 (by decide) (sOf (maskOf m c)) g.val
        have hg := g.isLt
        omega)
      (fun g => cb7_apply (sOf (maskOf m c)) _ (counts_sorted (maskOf m c) hm) g),
    reached_card_routing (sOf (maskOf m c)) _ (fun _ => rfl)]
  show BitVec.ofNat 32 (min 5 (Cert.Routing.endedBy 512 6 (sOf (maskOf m c)) (Cert.Routing.dest 512 (sOf (maskOf m c)) p / 512))) = _
  rw [Cert.Routing.endedBy_dest 512 6 (by decide) (sOf (maskOf m c)) hmono hs p, Nat.min_eq_right (by have := hs p; omega)]

/-- THE RESULT: entry (i, j) of what the kernel program returns is entry j of the encoding of row σ (σ i) of the
    activations under that row's own type id. -/
theorem kernel_result_apply (hH : Hyps m) (i : Fin 16384) (j : Fin 1024) :
    (Pipeline.afterTail pcfgs (fun _ => adm m) (dats m hH) 0 (V0 m) [hostOps1] c main_v79 : FVec Ideal S16384x1024 .f32) (ix2 i j)
      = Cert.Spec.encRow (m ((c : Thread nD τ).loc main_arg2)) (m ((c : Thread nD τ).loc main_arg3))
          (m ((c : Thread nD τ).loc main_arg4)) (m ((c : Thread nD τ).loc main_arg5)) (m ((c : Thread nD τ).loc main_arg6))
          (maskOf m c (ix1 (Cert.SortOrder.src (maskOf m c) (Cert.SortOrder.src (maskOf m c) i)))).toNat
          (fun d => (m ((c : Thread nD τ).loc main_arg0) : FVec Ideal S16384x128 .f32)
            (ix2 (Cert.SortOrder.src (maskOf m c) (Cert.SortOrder.src (maskOf m c) i)) d)) j := by
  have hs := s_lt (maskOf m c) hm
  have hmono := s_mono (maskOf m c) hm
  have hD := destRow_lt m c hm
  rw [tail_result m (dats m hH) c]
  refine (gatherOut_apply _ _ _ (Cert.SortOrder.src (maskOf m c)) (destRow m c) hD (ord_apply (maskOf m c))
    (dest_word m c hm) i j).trans ?_
  refine arr_encRow m hH c _ _ _ _ _
    (fun t d k => by rw [V_w1f m c]; exact w1f_apply _ t d k) (fun _ => by rw [V_arg3 m c])
    (fun t k j' => by rw [V_w2f m c]; exact w2f_apply _ t k j') (fun _ => by rw [V_arg5 m c]) (fun _ => by rw [V_arg6 m c])
    ⟨destRow m c (Cert.SortOrder.src (maskOf m c) i), hD _⟩ (sOf (maskOf m c) (Cert.SortOrder.src (maskOf m c) i))
    (by have := hs (Cert.SortOrder.src (maskOf m c) i); omega)
    (by rw [V_btype m c]; exact btype_word m c hm _)
    _ (fun d => by
      rw [V_px m c]
      exact px_apply _ _ _ (Cert.SortOrder.src (maskOf m c)) (destRow m c) hD (ord_apply (maskOf m c)) (dest_word m c hm)
        (Cert.Routing.dest_injective 512 (by decide) (sOf (maskOf m c)) hmono) _ d) j

end

end Cert.KernelIdeal.Hand

end
-- ==== Proof.RefRead.lean ====
/-
  The reference program's run and its stages read at an index, brought into scope for the modules that
  state what the reference computes.
-/
import proofs.«410392_j25512105739026_3_alg».proof.Proof.Gen.ReferenceIdeal.Run
import proofs.«410392_j25512105739026_3_alg».proof.Proof.Gen.ReferenceIdeal.Read
-- ==== Proof.RefEnc.lean ====
/-
  What the reference computes, read at an index over the extended reals: every row of its encoding stage is the
  encoder of that row (`Cert.Spec.encRow`), and its result reads those rows twice through the sorting order of the
  type ids.
-/
import proofs.«410392_j25512105739026_3_alg».proof.Proof.RefRead
import proofs.«410392_j25512105739026_3_alg».proof.Proof.Spec
import Idealize.ShloMosaic.Lib.ValueIdx
import Idealize.ShloMosaic.Lib.Pipeline.Value
import Idealize.ShloMosaic.PureOps.Ideal.Laws
import Idealize.ShloMosaic.Lib.ValueLayout
import Idealize.ShloMosaic.Lib.StableHlo.Predicate

noncomputable section

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx

/-! ## The last stages: two reads of the rows through the sorting order -/

/-- The result is the encoding's rows read through the wrapped sorting order, and those rows read through it again. -/
theorem result_eq (x0 : FVec Ideal S16384x128 .f32) (x1 : IVec S16384 32) (x2 : FVec Ideal S4x128x2048 .f32)
    (x3 : FVec Ideal S4x2048 .f32) (x4 : FVec Ideal S4x2048x1024 .f32) (x5 : FVec Ideal S4x1024 .f32)
    (x6 : FVec Ideal S2x1024 .f32) :
    Read.val_main_v111 (F := Ideal) x0 x1 x2 x3 x4 x5 x6
      = Host.gather gather_S16384x1024_S16384x1_S16384x1024_1_0_n_n_0_1_11024
          (Host.gather gather_S16384x1024_S16384x1_S16384x1024_1_0_n_n_0_1_11024
            (Read.val_main_v96 (F := Ideal) x0 x1 x2 x3 x4 x5 x6) (Read.val_main_v103 (F := Ideal) x1))
          (Read.val_main_v110 (F := Ideal) x1) := rfl

/-- The sorting order is the second component of the stable sort of the type ids paired with their positions. -/
theorem order_eq (x1 : IVec S16384 32) :
    Read.val_main_v97 (F := Ideal) x1
      = (Host.sort2 S16384 0 comparator_i32_i32_d0 x1 (iotaInDim S16384 32 0)).2 := rfl

/-- Both reads use one index column: the wrap of a negative entry and the widening to a column are stated twice in the
    program with the same operands. -/
theorem idx_eq (x1 : IVec S16384 32) :
    Read.val_main_v110 (F := Ideal) x1 = Read.val_main_v103 (F := Ideal) x1 := rfl

/-! ## The encoding stage, entry by entry -/

section Encoding

variable (x0 : FVec Ideal S16384x128 .f32) (x1 : IVec S16384 32) (x2 : FVec Ideal S4x128x2048 .f32)
  (x3 : FVec Ideal S4x2048 .f32) (x4 : FVec Ideal S4x2048x1024 .f32) (x5 : FVec Ideal S4x1024 .f32)
  (x6 : FVec Ideal S2x1024 .f32)

/-- A rank-2 index with coordinates `a`, `b` is `ix2 a b`. -/
theorem ix2_of_coords {n0 n1 : Nat} (p : (⟨2, ![n0, n1]⟩ : Shape).Idx) (a : Fin n0) (b : Fin n1)
    (h0 : (p 0).val = a.val) (h1 : (p 1).val = b.val) : p = ix2 a b :=
  funext fun d => Fin.ext (by match d with | ⟨0, _⟩ => exact h0 | ⟨1, _⟩ => exact h1)

/-- A rank-3 index with coordinates `a`, `b`, `c` is `ix3 a b c`. -/
theorem ix3_of_coords {n0 n1 n2 : Nat} (p : (⟨3, ![n0, n1, n2]⟩ : Shape).Idx) (a : Fin n0) (b : Fin n1) (c : Fin n2)
    (h0 : (p 0).val = a.val) (h1 : (p 1).val = b.val) (h2 : (p 2).val = c.val) : p = ix3 a b c :=
  funext fun d => Fin.ext (by match d with | ⟨0, _⟩ => exact h0 | ⟨1, _⟩ => exact h1 | ⟨2, _⟩ => exact h2)

/-! ### The first layer's weights: plane `t` of the table, as a 128 × 2048 matrix

The slice keeps plane `t`, and the reshape drops the unit axis: position `(d, k)` of the matrix is position
`d · 2048 + k` of the plane in row-major order, which is `(t, d, k)` of the table. -/

theorem W1_read0 (d : Fin 128) (k : Fin 2048) : Read.val_main_v2 (F := Ideal) x2 (ix2 d k) = x2 (ix3 0 d k) := by
  rw [Read.val_main_v2_apply, Read.val_main_v1_apply]
  have hd := d.isLt; have hk := k.isLt
  exact congrArg x2 (ix3_of_coords _ _ _ _ rfl (by show (d.val * 2048 + k.val) / 2048 % 128 = d.val; omega)
    (by show (d.val * 2048 + k.val) % 2048 = k.val; omega))

theorem W1_read1 (d : Fin 128) (k : Fin 2048) : Read.val_main_v23 (F := Ideal) x2 (ix2 d k) = x2 (ix3 1 d k) := by
  rw [Read.val_main_v23_apply, Read.val_main_v22_apply]
  have hd := d.isLt; have hk := k.isLt
  exact congrArg x2 (ix3_of_coords _ _ _ _ rfl (by show (d.val * 2048 + k.val) / 2048 % 128 = d.val; omega)
    (by show (d.val * 2048 + k.val) % 2048 = k.val; omega))

theorem W1_read2 (d : Fin 128) (k : Fin 2048) : Read.val_main_v44 (F := Ideal) x2 (ix2 d k) = x2 (ix3 2 d k) := by
  rw [Read.val_main_v44_apply, Read.val_main_v43_apply]
  have hd := d.isLt; have hk := k.isLt
  exact congrArg x2 (ix3_of_coords _ _ _ _ rfl (by show (d.val * 2048 + k.val) / 2048 % 128 = d.val; omega)
    (by show (d.val * 2048 + k.val) % 2048 = k.val; omega))

theorem W1_read3 (d : Fin 128) (k : Fin 2048) : Read.val_main_v65 (F := Ideal) x2 (ix2 d k) = x2 (ix3 3 d k) := by
  rw [Read.val_main_v65_apply, Read.val_main_v64_apply]
  have hd := d.isLt; have hk := k.isLt
  exact congrArg x2 (ix3_of_coords _ _ _ _ rfl (by show (d.val * 2048 + k.val) / 2048 % 128 = d.val; omega)
    (by show (d.val * 2048 + k.val) % 2048 = k.val; omega))

/-! ### The first layer's bias: row `t` of its table, the same in every row of the batch -/

theorem b1_read0 (n : Fin 16384) (k : Fin 2048) : Read.val_main_v7 (F := Ideal) x3 (ix2 n k) = x3 (ix2 0 k) := by
  rw [Read.val_main_v7_apply, Read.val_main_v6_apply, Read.val_main_v5_apply, Read.val_main_v4_apply]
  have hk := k.isLt
  exact congrArg x3 (ix2_of_coords _ _ _ rfl (by show k.val % 2048 = k.val; omega))

theorem b1_read1 (n : Fin 16384) (k : Fin 2048) : Read.val_main_v28 (F := Ideal) x3 (ix2 n k) = x3 (ix2 1 k) := by
  rw [Read.val_main_v28_apply, Read.val_main_v27_apply, Read.val_main_v26_apply, Read.val_main_v25_apply]
  have hk := k.isLt
  exact congrArg x3 (ix2_of_coords _ _ _ rfl (by show k.val % 2048 = k.val; omega))

theorem b1_read2 (n : Fin 16384) (k : Fin 2048) : Read.val_main_v49 (F := Ideal) x3 (ix2 n k) = x3 (ix2 2 k) := by
  rw [Read.val_main_v49_apply, Read.val_main_v48_apply, Read.val_main_v47_apply, Read.val_main_v46_apply]
  have hk := k.isLt
  exact congrArg x3 (ix2_of_coords _ _ _ rfl (by show k.val % 2048 = k.val; omega))

theorem b1_read3 (n : Fin 16384) (k : Fin 2048) : Read.val_main_v70 (F := Ideal) x3 (ix2 n k) = x3 (ix2 3 k) := by
  rw [Read.val_main_v70_apply, Read.val_main_v69_apply, Read.val_main_v68_apply, Read.val_main_v67_apply]
  have hk := k.isLt
  exact congrArg x3 (ix2_of_coords _ _ _ rfl (by show k.val % 2048 = k.val; omega))

/-! ### The hidden layer

Entry `(n, k)` of the product is the sum over `d` of `x[n, d] · W1[t, d, k]`; the bias is added and the maximum with
the zero constant taken: `Cert.Spec.hid` of row `n`. -/

theorem hid_read0 (n : Fin 16384) (k : Fin 2048) :
    Read.val_main_v9 (F := Ideal) x0 x2 x3 (ix2 n k) = Cert.Spec.hid x2 x3 0 (fun d => x0 (ix2 n d)) k := by
  rw [Read.val_main_v9_apply, Read.val_main_v8_apply, Read.val_main_v3_apply, Read.val_main_call0_v0_apply,
    Read.val_main_call0_cst_apply, b1_read0, Ideal.maximumf_def, Ideal.addf_def, Ideal.ofBits_def,
    Ideal.ofBits_zero_f32]
  unfold Cert.Spec.hid
  refine congrArg (fun s => max (s + _) 0) (Finset.sum_congr rfl fun d _ => ?_)
  rw [show Read.ridx_main_v3 (ix2 n k) d = ix2 d k from ix2_of_coords _ _ _ rfl rfl, W1_read0]
  exact congrArg (fun p => x0 p * _) (ix2_of_coords _ _ _ rfl rfl)

theorem hid_read1 (n : Fin 16384) (k : Fin 2048) :
    Read.val_main_v30 (F := Ideal) x0 x2 x3 (ix2 n k) = Cert.Spec.hid x2 x3 1 (fun d => x0 (ix2 n d)) k := by
  rw [Read.val_main_v30_apply, Read.val_main_v29_apply, Read.val_main_v24_apply, Read.val_main_call2_v0_apply,
    Read.val_main_call2_cst_apply, b1_read1, Ideal.maximumf_def, Ideal.addf_def, Ideal.ofBits_def,
    Ideal.ofBits_zero_f32]
  unfold Cert.Spec.hid
  refine congrArg (fun s => max (s + _) 0) (Finset.sum_congr rfl fun d _ => ?_)
  rw [show Read.ridx_main_v24 (ix2 n k) d = ix2 d k from ix2_of_coords _ _ _ rfl rfl, W1_read1]
  exact congrArg (fun p => x0 p * _) (ix2_of_coords _ _ _ rfl rfl)

theorem hid_read2 (n : Fin 16384) (k : Fin 2048) :
    Read.val_main_v51 (F := Ideal) x0 x2 x3 (ix2 n k) = Cert.Spec.hid x2 x3 2 (fun d => x0 (ix2 n d)) k := by
  rw [Read.val_main_v51_apply, Read.val_main_v50_apply, Read.val_main_v45_apply, Read.val_main_call4_v0_apply,
    Read.val_main_call4_cst_apply, b1_read2, Ideal.maximumf_def, Ideal.addf_def, Ideal.ofBits_def,
    Ideal.ofBits_zero_f32]
  unfold Cert.Spec.hid
  refine congrArg (fun s => max (s + _) 0) (Finset.sum_congr rfl fun d _ => ?_)
  rw [show Read.ridx_main_v45 (ix2 n k) d = ix2 d k from ix2_of_coords _ _ _ rfl rfl, W1_read2]
  exact congrArg (fun p => x0 p * _) (ix2_of_coords _ _ _ rfl rfl)

theorem hid_read3 (n : Fin 16384) (k : Fin 2048) :
    Read.val_main_v72 (F := Ideal) x0 x2 x3 (ix2 n k) = Cert.Spec.hid x2 x3 3 (fun d => x0 (ix2 n d)) k := by
  rw [Read.val_main_v72_apply, Read.val_main_v71_apply, Read.val_main_v66_apply, Read.val_main_call6_v0_apply,
    Read.val_main_call6_cst_apply, b1_read3, Ideal.maximumf_def, Ideal.addf_def, Ideal.ofBits_def,
    Ideal.ofBits_zero_f32]
  unfold Cert.Spec.hid
  refine congrArg (fun s => max (s + _) 0) (Finset.sum_congr rfl fun d _ => ?_)
  rw [show Read.ridx_main_v66 (ix2 n k) d = ix2 d k from ix2_of_coords _ _ _ rfl rfl, W1_read3]
  exact congrArg (fun p => x0 p * _) (ix2_of_coords _ _ _ rfl rfl)

/-! ### The second layer's weights and bias: plane `t` as a 2048 × 1024 matrix, row `t` of the bias table -/

theorem W2_read0 (k : Fin 2048) (j : Fin 1024) : Read.val_main_v11 (F := Ideal) x4 (ix2 k j) = x4 (ix3 0 k j) := by
  rw [Read.val_main_v11_apply, Read.val_main_v10_apply]
  have hk := k.isLt; have hj := j.isLt
  exact congrArg x4 (ix3_of_coords _ _ _ _ rfl (by show (k.val * 1024 + j.val) / 1024 % 2048 = k.val; omega)
    (by show (k.val * 1024 + j.val) % 1024 = j.val; omega))

theorem W2_read1 (k : Fin 2048) (j : Fin 1024) : Read.val_main_v32 (F := Ideal) x4 (ix2 k j) = x4 (ix3 1 k j) := by
  rw [Read.val_main_v32_apply, Read.val_main_v31_apply]
  have hk := k.isLt; have hj := j.isLt
  exact congrArg x4 (ix3_of_coords _ _ _ _ rfl (by show (k.val * 1024 + j.val) / 1024 % 2048 = k.val; omega)
    (by show (k.val * 1024 + j.val) % 1024 = j.val; omega))

theorem W2_read2 (k : Fin 2048) (j : Fin 1024) : Read.val_main_v53 (F := Ideal) x4 (ix2 k j) = x4 (ix3 2 k j) := by
  rw [Read.val_main_v53_apply, Read.val_main_v52_apply]
  have hk := k.isLt; have hj := j.isLt
  exact congrArg x4 (ix3_of_coords _ _ _ _ rfl (by show (k.val * 1024 + j.val) / 1024 % 2048 = k.val; omega)
    (by show (k.val * 1024 + j.val) % 1024 = j.val; omega))

theorem W2_read3 (k : Fin 2048) (j : Fin 1024) : Read.val_main_v74 (F := Ideal) x4 (ix2 k j) = x4 (ix3 3 k j) := by
  rw [Read.val_main_v74_apply, Read.val_main_v73_apply]
  have hk := k.isLt; have hj := j.isLt
  exact congrArg x4 (ix3_of_coords _ _ _ _ rfl (by show (k.val * 1024 + j.val) / 1024 % 2048 = k.val; omega)
    (by show (k.val * 1024 + j.val) % 1024 = j.val; omega))

theorem b2_read0 (n : Fin 16384) (j : Fin 1024) : Read.val_main_v16 (F := Ideal) x5 (ix2 n j) = x5 (ix2 0 j) := by
  rw [Read.val_main_v16_apply, Read.val_main_v15_apply, Read.val_main_v14_apply, Read.val_main_v13_apply]
  have hj := j.isLt
  exact congrArg x5 (ix2_of_coords _ _ _ rfl (by show j.val % 1024 = j.val; omega))

theorem b2_read1 (n : Fin 16384) (j : Fin 1024) : Read.val_main_v37 (F := Ideal) x5 (ix2 n j) = x5 (ix2 1 j) := by
  rw [Read.val_main_v37_apply, Read.val_main_v36_apply, Read.val_main_v35_apply, Read.val_main_v34_apply]
  have hj := j.isLt
  exact congrArg x5 (ix2_of_coords _ _ _ rfl (by show j.val % 1024 = j.val; omega))

theorem b2_read2 (n : Fin 16384) (j : Fin 1024) : Read.val_main_v58 (F := Ideal) x5 (ix2 n j) = x5 (ix2 2 j) := by
  rw [Read.val_main_v58_apply, Read.val_main_v57_apply, Read.val_main_v56_apply, Read.val_main_v55_apply]
  have hj := j.isLt
  exact congrArg x5 (ix2_of_coords _ _ _ rfl (by show j.val % 1024 = j.val; omega))

theorem b2_read3 (n : Fin 16384) (j : Fin 1024) : Read.val_main_v79 (F := Ideal) x5 (ix2 n j) = x5 (ix2 3 j) := by
  rw [Read.val_main_v79_apply, Read.val_main_v78_apply, Read.val_main_v77_apply, Read.val_main_v76_apply]
  have hj := j.isLt
  exact congrArg x5 (ix2_of_coords _ _ _ rfl (by show j.val % 1024 = j.val; omega))

/-! ### The perceptron of one type

Entry `(n, j)` of the second product is the sum over `k` of the hidden unit `k` of row `n` times `W2[t, k, j]`, and
the bias is added: `Cert.Spec.mlp` of row `n`. -/

theorem mlp_read0 (n : Fin 16384) (j : Fin 1024) :
    Read.val_main_v17 (F := Ideal) x0 x2 x3 x4 x5 (ix2 n j)
      = Cert.Spec.mlp x2 x3 x4 x5 0 (fun d => x0 (ix2 n d)) j := by
  rw [Read.val_main_v17_apply, Read.val_main_v12_apply, b2_read0, Ideal.addf_def]
  unfold Cert.Spec.mlp
  refine congrArg (fun s => s + _) (Finset.sum_congr rfl fun k _ => ?_)
  rw [show Read.lidx_main_v12 (ix2 n j) k = ix2 n k from ix2_of_coords _ _ _ rfl rfl,
    show Read.ridx_main_v12 (ix2 n j) k = ix2 k j from ix2_of_coords _ _ _ rfl rfl, hid_read0, W2_read0]

theorem mlp_read1 (n : Fin 16384) (j : Fin 1024) :
    Read.val_main_v38 (F := Ideal) x0 x2 x3 x4 x5 (ix2 n j)
      = Cert.Spec.mlp x2 x3 x4 x5 1 (fun d => x0 (ix2 n d)) j := by
  rw [Read.val_main_v38_apply, Read.val_main_v33_apply, b2_read1, Ideal.addf_def]
  unfold Cert.Spec.mlp
  refine congrArg (fun s => s + _) (Finset.sum_congr rfl fun k _ => ?_)
  rw [show Read.lidx_main_v33 (ix2 n j) k = ix2 n k from ix2_of_coords _ _ _ rfl rfl,
    show Read.ridx_main_v33 (ix2 n j) k = ix2 k j from ix2_of_coords _ _ _ rfl rfl, hid_read1, W2_read1]

theorem mlp_read2 (n : Fin 16384) (j : Fin 1024) :
    Read.val_main_v59 (F := Ideal) x0 x2 x3 x4 x5 (ix2 n j)
      = Cert.Spec.mlp x2 x3 x4 x5 2 (fun d => x0 (ix2 n d)) j := by
  rw [Read.val_main_v59_apply, Read.val_main_v54_apply, b2_read2, Ideal.addf_def]
  unfold Cert.Spec.mlp
  refine congrArg (fun s => s + _) (Finset.sum_congr rfl fun k _ => ?_)
  rw [show Read.lidx_main_v54 (ix2 n j) k = ix2 n k from ix2_of_coords _ _ _ rfl rfl,
    show Read.ridx_main_v54 (ix2 n j) k = ix2 k j from ix2_of_coords _ _ _ rfl rfl, hid_read2, W2_read2]

theorem mlp_read3 (n : Fin 16384) (j : Fin 1024) :
    Read.val_main_v80 (F := Ideal) x0 x2 x3 x4 x5 (ix2 n j)
      = Cert.Spec.mlp x2 x3 x4 x5 3 (fun d => x0 (ix2 n d)) j := by
  rw [Read.val_main_v80_apply, Read.val_main_v75_apply, b2_read3, Ideal.addf_def]
  unfold Cert.Spec.mlp
  refine congrArg (fun s => s + _) (Finset.sum_congr rfl fun k _ => ?_)
  rw [show Read.lidx_main_v75 (ix2 n j) k = ix2 n k from ix2_of_coords _ _ _ rfl rfl,
    show Read.ridx_main_v75 (ix2 n j) k = ix2 k j from ix2_of_coords _ _ _ rfl rfl, hid_read3, W2_read3]

/-! ### The six tests and the two embedding rows

Each test compares the type id of row `n` with a literal and is widened along the columns, so at `(n, j)` it is the
comparison of row `n`'s id; each embedding row is widened along the batch, so at `(n, j)` it is its entry `j`. -/

theorem test_read0 (n : Fin 16384) (j : Fin 1024) :
    Read.val_main_call1_v0 (F := Ideal) x1 (ix2 n j) = IntOp.cmpi .eq (x1 (ix1 n)) 0#32 := by
  rw [Read.val_main_call1_v0_apply, Read.val_main_v20_apply, Read.val_main_v19_apply, Read.val_main_v18_apply,
    Read.val_main_c_apply]
  exact congrArg (fun p => IntOp.cmpi .eq (x1 p) 0#32) (funext fun a => by match a with | ⟨0, _⟩ => rfl)

theorem test_read1 (n : Fin 16384) (j : Fin 1024) :
    Read.val_main_call3_v0 (F := Ideal) x1 (ix2 n j) = IntOp.cmpi .eq (x1 (ix1 n)) 1#32 := by
  rw [Read.val_main_call3_v0_apply, Read.val_main_v41_apply, Read.val_main_v40_apply, Read.val_main_v39_apply,
    Read.val_main_c_0_apply]
  exact congrArg (fun p => IntOp.cmpi .eq (x1 p) 1#32) (funext fun a => by match a with | ⟨0, _⟩ => rfl)

theorem test_read2 (n : Fin 16384) (j : Fin 1024) :
    Read.val_main_call5_v0 (F := Ideal) x1 (ix2 n j) = IntOp.cmpi .eq (x1 (ix1 n)) 2#32 := by
  rw [Read.val_main_call5_v0_apply, Read.val_main_v62_apply, Read.val_main_v61_apply, Read.val_main_v60_apply,
    Read.val_main_c_1_apply]
  exact congrArg (fun p => IntOp.cmpi .eq (x1 p) 2#32) (funext fun a => by match a with | ⟨0, _⟩ => rfl)

theorem test_read3 (n : Fin 16384) (j : Fin 1024) :
    Read.val_main_call7_v0 (F := Ideal) x1 (ix2 n j) = IntOp.cmpi .eq (x1 (ix1 n)) 3#32 := by
  rw [Read.val_main_call7_v0_apply, Read.val_main_v83_apply, Read.val_main_v82_apply, Read.val_main_v81_apply,
    Read.val_main_c_2_apply]
  exact congrArg (fun p => IntOp.cmpi .eq (x1 p) 3#32) (funext fun a => by match a with | ⟨0, _⟩ => rfl)

theorem test_read4 (n : Fin 16384) (j : Fin 1024) :
    Read.val_main_call8_v0 (F := Ideal) x1 (ix2 n j) = IntOp.cmpi .eq (x1 (ix1 n)) 4#32 := by
  rw [Read.val_main_call8_v0_apply, Read.val_main_v87_apply, Read.val_main_v86_apply, Read.val_main_v85_apply,
    Read.val_main_c_3_apply]
  exact congrArg (fun p => IntOp.cmpi .eq (x1 p) 4#32) (funext fun a => by match a with | ⟨0, _⟩ => rfl)

theorem test_read5 (n : Fin 16384) (j : Fin 1024) :
    Read.val_main_call9_v0 (F := Ideal) x1 (ix2 n j) = IntOp.cmpi .eq (x1 (ix1 n)) 5#32 := by
  rw [Read.val_main_call9_v0_apply, Read.val_main_v93_apply, Read.val_main_v92_apply, Read.val_main_v91_apply,
    Read.val_main_c_4_apply]
  exact congrArg (fun p => IntOp.cmpi .eq (x1 p) 5#32) (funext fun a => by match a with | ⟨0, _⟩ => rfl)

theorem emb_read0 (n : Fin 16384) (j : Fin 1024) :
    Read.val_main_call8_v1 (F := Ideal) x6 (ix2 n j) = x6 (ix2 0 j) := by
  rw [Read.val_main_call8_v1_apply, Read.val_main_v89_apply, Read.val_main_v88_apply]
  have hj := j.isLt
  exact congrArg x6 (ix2_of_coords _ _ _ rfl (by show j.val % 1024 = j.val; omega))

theorem emb_read1 (n : Fin 16384) (j : Fin 1024) :
    Read.val_main_call9_v1 (F := Ideal) x6 (ix2 n j) = x6 (ix2 1 j) := by
  rw [Read.val_main_call9_v1_apply, Read.val_main_v95_apply, Read.val_main_v94_apply]
  have hj := j.isLt
  exact congrArg x6 (ix2_of_coords _ _ _ rfl (by show j.val % 1024 = j.val; omega))

/-! ### The chain of selections -/

/-- A selection on "the word is the literal `t`" chooses by the word's value as a natural number. -/
theorem select_lit {α : Type} (w : BitVec 32) (t : ℕ) (ht : t < 2 ^ 32) (a b : α) :
    Scalar.select (IntOp.cmpi .eq w (BitVec.ofNat 32 t)) a b = if w.toNat = t then a else b := by
  have hiff : w = BitVec.ofNat 32 t ↔ w.toNat = t := by
    constructor
    · intro h; rw [h, BitVec.toNat_ofNat, Nat.mod_eq_of_lt ht]
    · intro h; apply BitVec.eq_of_toNat_eq; rw [h, BitVec.toNat_ofNat, Nat.mod_eq_of_lt ht]
  have hcmp : IntOp.cmpi .eq w (BitVec.ofNat 32 t) = (1 : BitVec 1) ↔ w = BitVec.ofNat 32 t :=
    Predicate.cmpi_eq_iff
  unfold Scalar.select
  by_cases h : w = BitVec.ofNat 32 t
  · rw [if_pos (hcmp.mpr h), if_pos (hiff.mp h)]
  · rw [if_neg (fun hc => h (hcmp.mp hc)), if_neg (fun hc => h (hiff.mpr hc))]

/-- Six nested choices on the value `g` of a type id, the later ones outermost, are the encoder's case distinction. -/
theorem choose_eq_encRow (g : ℕ) (xr : Fin 128 → EReal) (j : Fin 1024) :
    (if g = 5 then x6 (ix2 1 j) else if g = 4 then x6 (ix2 0 j)
      else if g = 3 then Cert.Spec.mlp x2 x3 x4 x5 3 xr j else if g = 2 then Cert.Spec.mlp x2 x3 x4 x5 2 xr j
      else if g = 1 then Cert.Spec.mlp x2 x3 x4 x5 1 xr j else if g = 0 then Cert.Spec.mlp x2 x3 x4 x5 0 xr j
      else 0) = Cert.Spec.encRow x2 x3 x4 x5 x6 g xr j := by
  unfold Cert.Spec.encRow
  match g with
  | 0 => rw [if_neg (by decide), if_neg (by decide), if_neg (by decide), if_neg (by decide), if_neg (by decide),
      if_pos rfl, dif_pos (by decide)]; rfl
  | 1 => rw [if_neg (by decide), if_neg (by decide), if_neg (by decide), if_neg (by decide), if_pos rfl,
      dif_pos (by decide)]; rfl
  | 2 => rw [if_neg (by decide), if_neg (by decide), if_neg (by decide), if_pos rfl, dif_pos (by decide)]; rfl
  | 3 => rw [if_neg (by decide), if_neg (by decide), if_pos rfl, dif_pos (by decide)]; rfl
  | 4 => rw [if_neg (by decide), if_pos rfl, dif_neg (by decide), if_pos rfl]
  | 5 => rw [if_pos rfl, dif_neg (by decide), if_neg (by decide), if_pos rfl]
  | g + 6 =>
    rw [if_neg (by omega), if_neg (by omega), if_neg (by omega), if_neg (by omega), if_neg (by omega),
      if_neg (by omega), dif_neg (by omega), if_neg (by omega), if_neg (by omega)]

/-- Entry `(n, j)` of the encoding stage is the encoder of row `n` under that row's type id, whatever the id is. -/
theorem enc_apply (n : Fin 16384) (j : Fin 1024) :
    Read.val_main_v96 (F := Ideal) x0 x1 x2 x3 x4 x5 x6 (ix2 n j)
      = Cert.Spec.encRow x2 x3 x4 x5 x6 (x1 (ix1 n)).toNat (fun d => x0 (ix2 n d)) j := by
  rw [Read.val_main_v96_apply, test_read5, emb_read1, Read.val_main_v90_apply, test_read4, emb_read0,
    Read.val_main_v84_apply, test_read3, mlp_read3, Read.val_main_v63_apply, test_read2, mlp_read2,
    Read.val_main_v42_apply, test_read1, mlp_read1, Read.val_main_v21_apply, test_read0, mlp_read0,
    Read.val_main_v0_apply, Read.val_main_cst_apply, Ideal.ofBits_def, Ideal.ofBits_zero_f32,
    select_lit _ 5 (by decide), select_lit _ 4 (by decide), select_lit _ 3 (by decide), select_lit _ 2 (by decide),
    select_lit _ 1 (by decide), select_lit _ 0 (by decide)]
  exact choose_eq_encRow x2 x3 x4 x5 x6 _ _ j

end Encoding

/-! ## What the run leaves in memory -/

/-- Every weakly fair execution of the reference ends with its result buffer at the last stage's value of the
    arguments' launch contents, and with the seven arguments as they were. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v111)
          = Read.val_main_v111 (F := Ideal) (m ((c.tc : Thread nD τ).loc main_arg0))
              (m ((c.tc : Thread nD τ).loc main_arg1)) (m ((c.tc : Thread nD τ).loc main_arg2))
              (m ((c.tc : Thread nD τ).loc main_arg3)) (m ((c.tc : Thread nD τ).loc main_arg4))
              (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (Read.val_main_v111_eq m c), (h c).2⟩)
    (Value.run (F := Ideal) m ρ)

end Cert.ReferenceIdeal.RefValue

end
-- ==== Proof.RefResult.lean ====
/-
  The reference's result read at an index: row `i` of the result is the encoder of the row that the sorting order of
  the type ids, applied twice, sends `i` to.
-/
import proofs.«410392_j25512105739026_3_alg».proof.Proof.RefEnc
import proofs.«410392_j25512105739026_3_alg».proof.Proof.SortOrder
import proofs.«410392_j25512105739026_3_alg».proof.Proof.LibGather
import Idealize.ShloMosaic.Lib.DynamicIndex

noncomputable section

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx

/-! ## The index column -/

/-- Entry `p` of the sorting order is, as a word, the position whose type id lands at sorted position `p`. -/
theorem order_apply (x1 : IVec S16384 32) (p : Fin 16384) :
    Read.val_main_v97 (F := Ideal) x1 (ix1 p) = BitVec.ofNat 32 (Cert.SortOrder.src x1 p).val :=
  Cert.SortOrder.argsort_apply comparator_i32_i32_d0 (fun _ _ => rfl) x1 (ix1 p)

/-- A position below 16384, as a word, is not negative when read signed. -/
theorem not_neg_word (k : ℕ) (hk : k < 16384) : ¬ IntOp.cmpi .slt (BitVec.ofNat 32 k) 0#32 = (1 : BitVec 1) := by
  intro h
  have hlt := (Cert.SortOrder.slt_word_eq_one _ _).mp h
  rw [toInt_ofNat_of_lt (by omega), BitVec.toInt_zero] at hlt
  omega

/-- Row `p` of the index column: the wrap of a negative entry leaves a position alone, so the column holds the word
    of the position whose type id lands at sorted position `p`. -/
theorem column_apply (x1 : IVec S16384 32) (p : Fin 16384) :
    Read.val_main_v103 (F := Ideal) x1 (ix2 p 0) = BitVec.ofNat 32 (Cert.SortOrder.src x1 p).val := by
  rw [Read.val_main_v103_apply, Read.val_main_v102_apply, Read.val_main_v99_apply, Read.val_main_v98_apply,
    Read.val_main_c_5_apply,
    show Read.idx_main_v103 (ix2 p (0 : Fin 1)) = ix1 p from funext fun a => by match a with | ⟨0, _⟩ => rfl,
    order_apply]
  unfold Scalar.select
  exact if_neg (not_neg_word _ (Cert.SortOrder.src x1 p).isLt)

/-- The word in row `p` of the index column names a row of the table. -/
theorem column_lt (x1 : IVec S16384 32) (p : Fin 16384) :
    (Read.val_main_v103 (F := Ideal) x1 (ix2 p 0)).toNat < 16384 := by
  have hp := (Cert.SortOrder.src x1 p).isLt
  rw [column_apply, BitVec.toNat_ofNat, Nat.mod_eq_of_lt (by omega)]
  exact hp

/-! ## One read of the rows through the order -/

/-- Reading the rows of a table through the index column: row `i` of the outcome is the table's row at the position
    whose type id lands at sorted position `i`. -/
theorem gather_order_apply {α : Type} (M : S16384x1024.Idx → α) (x1 : IVec S16384 32) (i : Fin 16384)
    (j : Fin 1024) :
    Host.gather gather_S16384x1024_S16384x1_S16384x1024_1_0_n_n_0_1_11024 M (Read.val_main_v103 (F := Ideal) x1)
        (ix2 i j)
      = M (ix2 (Cert.SortOrder.src x1 i) j) := by
  have hlt := column_lt x1 i
  rw [Cert.LibGather.gather_rows_apply gather_S16384x1024_S16384x1_S16384x1024_1_0_n_n_0_1_11024 rfl rfl rfl rfl rfl
    rfl rfl M (Read.val_main_v103 (F := Ideal) x1) i j (by norm_num) hlt]
  refine congrArg (fun r => M (ix2 r j)) (Fin.ext ?_)
  have hp := (Cert.SortOrder.src x1 i).isLt
  rw [Fin.val_mk, column_apply, BitVec.toNat_ofNat, Nat.mod_eq_of_lt (by omega)]

/-! ## The result -/

/-- Entry `(i, j)` of the reference's result: the encoder of the row reached from `i` by the sorting order applied
    twice, under that row's type id. -/
theorem ref_result_apply (x0 : FVec Ideal S16384x128 .f32) (x1 : IVec S16384 32) (x2 : FVec Ideal S4x128x2048 .f32)
    (x3 : FVec Ideal S4x2048 .f32) (x4 : FVec Ideal S4x2048x1024 .f32) (x5 : FVec Ideal S4x1024 .f32)
    (x6 : FVec Ideal S2x1024 .f32) (i : Fin 16384) (j : Fin 1024) :
    Read.val_main_v111 (F := Ideal) x0 x1 x2 x3 x4 x5 x6 (ix2 i j)
      = Cert.Spec.encRow x2 x3 x4 x5 x6
          (x1 (ix1 (Cert.SortOrder.src x1 (Cert.SortOrder.src x1 i)))).toNat
          (fun d => x0 (ix2 (Cert.SortOrder.src x1 (Cert.SortOrder.src x1 i)) d)) j := by
  rw [result_eq, idx_eq]
  refine (gather_order_apply _ x1 i j).trans ?_
  refine (gather_order_apply _ x1 (Cert.SortOrder.src x1 i) j).trans ?_
  exact enc_apply x0 x1 x2 x3 x4 x5 x6 _ j

end Cert.ReferenceIdeal.RefValue

end
-- ==== Proof.PreMask.lean ====
/-
  The range of the type array, read back from the printed precondition.

  The precondition is a conjunction of seven one-bit words; the last of them is the and-reduce, over the one axis of the
  type array, of the bit `(0 ≤ v) ∧ (v ≤ 5)` taken entry by entry, the comparisons signed.  When the whole conjunction
  is 1, that last word is 1, so every entry's bit is 1, so every entry, read signed, lies between 0 and 5; a signed
  word that is not negative reads the same unsigned, so its unsigned value is at most 5 as well.
-/
import proofs.«410392_j25512105739026_3_alg».proof.Pre_finite_inputs
import Idealize.ShloMosaic.Lib.ReduceAll
import Idealize.ShloMosaic.Lib.ValueIdx

namespace Cert.Pre_finite_inputs.Hand

open Idealize.ShloMosaic Idealize.ShloMosaic.ValueIdx

variable {F : FTy → Type} [FloatOps F] [Cert.Pre_finite_inputs.Facts]

/-- A shape with no axes has a single index. -/
instance oneIndex : Subsingleton S_.Idx := ⟨fun _ _ => funext fun d => d.elim0⟩

/-- The bit the last conjunct folds, at entry `n`: both signed comparisons of that entry, against 0 and against 5,
    and-ed together, is 1. -/
theorem range_bit (a0 : FVec F S16384x128 .f32) (a1 : IVec S16384 32) (a2 : FVec F S4x128x2048 .f32)
    (a3 : FVec F S4x2048 .f32) (a4 : FVec F S4x2048x1024 .f32) (a5 : FVec F S4x1024 .f32) (a6 : FVec F S2x1024 .f32)
    (h : Cert.Pre_finite_inputs.fn (F := F) a0 a1 a2 a3 a4 a5 a6 = fun _ => 1#1) (n : Fin 16384) :
    IntOp.andi (IntOp.cmpi .sge (a1 (ix1 n)) 0#32) (IntOp.cmpi .sle (a1 (ix1 n)) 5#32) = 1#1 := by
  -- the whole predicate at its one index
  have whole := congrFun h ix0
  dsimp only [fn, fn_part1, fn_part2] at whole
  -- its outermost operation is an `and` of two one-bit words: keep the right one, the fold over the type array
  have folded := (IntOp.andi_eq_one.1 whole).2
  -- a fold by `and` that came out 1 met a 1 at every entry
  exact Host.reduce_andi_all _ _ _ _ _ folded (ix1 n)

/-- Every entry of the type array, read signed, lies between 0 and 5. -/
theorem mask_toInt (a0 : FVec F S16384x128 .f32) (a1 : IVec S16384 32) (a2 : FVec F S4x128x2048 .f32)
    (a3 : FVec F S4x2048 .f32) (a4 : FVec F S4x2048x1024 .f32) (a5 : FVec F S4x1024 .f32) (a6 : FVec F S2x1024 .f32)
    (h : Cert.Pre_finite_inputs.fn (F := F) a0 a1 a2 a3 a4 a5 a6 = fun _ => 1#1) (n : Fin 16384) :
    0 ≤ (a1 (ix1 n)).toInt ∧ (a1 (ix1 n)).toInt ≤ 5 := by
  obtain ⟨lower, upper⟩ := IntOp.andi_eq_one.1 (range_bit a0 a1 a2 a3 a4 a5 a6 h n)
  have lower' := IntOp.cmpi_sge.1 lower
  have upper' := IntOp.cmpi_sle.1 upper
  rw [show (0#32 : BitVec 32).toInt = 0 from by decide] at lower'
  rw [show (5#32 : BitVec 32).toInt = 5 from by decide] at upper'
  exact ⟨lower', upper'⟩

/-- Every entry of the type array, read unsigned, is at most 5. -/
theorem mask_le_five (a0 : FVec F S16384x128 .f32) (a1 : IVec S16384 32) (a2 : FVec F S4x128x2048 .f32)
    (a3 : FVec F S4x2048 .f32) (a4 : FVec F S4x2048x1024 .f32) (a5 : FVec F S4x1024 .f32) (a6 : FVec F S2x1024 .f32)
    (h : Cert.Pre_finite_inputs.fn (F := F) a0 a1 a2 a3 a4 a5 a6 = fun _ => 1#1) (n : Fin 16384) :
    (a1 (ix1 n)).toNat ≤ 5 := by
  obtain ⟨lower, upper⟩ := mask_toInt a0 a1 a2 a3 a4 a5 a6 h n
  -- not negative: the top bit is clear, and the signed and unsigned readings agree
  have small : 2 * (a1 (ix1 n)).toNat < 2 ^ 32 := BitVec.toInt_pos_iff.1 lower
  rw [BitVec.toInt_eq_toNat_of_lt small] at upper
  omega

end Cert.Pre_finite_inputs.Hand
-- ==== Proof.lean ====
/-
  The certificate of the routed trajectory encoder against its dense reference, over the extended reals.

  The reference encodes every row under each of the four perceptron types and selects by the row's type id (ids 4 and 5
  select the two embedding rows), then reads the rows through the stable sorting order of the ids, twice.  The kernel
  program sorts the rows by type first, pads every type's run of rows to whole blocks of 512, and runs one kernel
  region whose body reads one word per block — the block's type — and applies that type's perceptron (or broadcasts an
  embedding row) to the block; two row gathers then undo the padding and apply the order once more.  With the type ids
  in their label range 0 … 5 (the precondition), the padded layout sends sorted position p to a row of a block of its own
  type, distinct positions to distinct rows, so both programs return, at row i, the encoding of row σ (σ i) under its
  own type, σ the sorting order (Proof/KI_Result.lean, Proof/RefResult.lean).

  The three frames: the kernel's side conditions hold at every grid point because @main clips the block types to
  0 … 5 (Proof/KI_Hyps.lean), whatever the ids; the reference is host operations only.  The idealization rewrote nothing.
-/
import proofs.«410392_j25512105739026_3_alg».proof.Defs
import proofs.«410392_j25512105739026_3_alg».proof.Proof.Gen.Kernel
import proofs.«410392_j25512105739026_3_alg».proof.Proof.Gen.KernelIdeal
import proofs.«410392_j25512105739026_3_alg».proof.Proof.Gen.ReferenceIdeal
import proofs.«410392_j25512105739026_3_alg».proof.Proof.Gen.Pre_finite_inputs
import proofs.«410392_j25512105739026_3_alg».proof.Proof.K_Frame
import proofs.«410392_j25512105739026_3_alg».proof.Proof.K_Hyps
import proofs.«410392_j25512105739026_3_alg».proof.Proof.KI_Hyps
import proofs.«410392_j25512105739026_3_alg».proof.Proof.KI_Result
import proofs.«410392_j25512105739026_3_alg».proof.Proof.RefResult
import proofs.«410392_j25512105739026_3_alg».proof.Proof.PreMask
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level program runs and leaves its arguments as they were. -/
theorem frame_k : Cert.frame_Kernel := fun m ρ _ => Cert.Kernel.Hand.frame m ρ (Cert.Kernel.Hand.hyps m)

/-- So does the idealized one. -/
theorem frame_ki : Cert.frame_KernelIdeal := fun m ρ _ => Cert.KernelIdeal.Hand.frame m ρ (Cert.KernelIdeal.Hand.hyps m)

/-- The reference is its run with the result dropped. -/
theorem frame_ri : Cert.frame_ReferenceIdeal := fun m ρ _ =>
  (θ_run Cert.ReferenceIdeal.defs _ _).mono (fun _ h c => (h c).2) (Cert.ReferenceIdeal.RefValue.run_result m ρ)

/-- With the type ids in 0 … 5 both programs end at the same array: entry (i, j) is, on both sides, entry j of the encoding of
    row σ (σ i) under that row's type id. -/
theorem algebraic : Cert.algebraic_KernelIdeal_ReferenceIdeal := by
  intro m ρ m' ρ' hpre hagree
  have hH := Cert.KernelIdeal.Hand.hyps m
  refine ⟨_, Cert.KernelIdeal.Hand.run_value m ρ hH, ?_⟩
  refine (θ_run Cert.ReferenceIdeal.defs _ _).mono (fun _ h c => ⟨(h c).1.trans ?_, (h c).2⟩)
    (Cert.ReferenceIdeal.RefValue.run_result m' ρ')
  have hm : ∀ n : Fin 16384, (Cert.KernelIdeal.Hand.maskOf m c (ix1 n)).toNat ≤ 5 :=
    fun n => Cert.Pre_finite_inputs.Hand.mask_le_five _ _ _ _ _ _ _ (hpre c) n
  rw [(hagree c).1, (hagree c).2.1, (hagree c).2.2.1, (hagree c).2.2.2.1, (hagree c).2.2.2.2.1, (hagree c).2.2.2.2.2.1,
    (hagree c).2.2.2.2.2.2]
  funext idx
  obtain ⟨i, j, rfl⟩ : ∃ (i : Fin 16384) (j : Fin 1024), idx = ix2 i j := ⟨idx 0, idx 1, eq_ix2 idx⟩
  rw [Cert.ReferenceIdeal.RefValue.ref_result_apply]
  exact (Cert.KernelIdeal.Hand.kernel_result_apply m c hm hH i j).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
